-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S8x1024x1024 : Shape := ⟨3, ![8, 1024, 1024]⟩
abbrev S10 : Shape := ⟨1, ![10]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S10 : S_.BroadcastsInDim S10 (![] : Fin 0 → Fin S10.rank)
  reducesTo_S10_S_d0 : S10.ReducesTo [0] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x3x1024x1024 .f32) (main_arg1 : IVec S8x1024x1024 32) (main_arg2 : FVec F S10 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S10 .f32 := Host.absf main_arg2
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_c_2 : IVec S_ 32 := constantI S_ 32 0#32
  let main_v9 : IVec S8x1024x1024 32 := broadcastInDim S8x1024x1024 ![] bcast_S_S8x1024x1024 main_c_2
  let main_v10 : IVec S8x1024x1024 1 := cmpi .sge main_arg1 main_v9
  let main_c_3 : IVec S_ 1 := constantI S_ 1 1#1
  let main_v11 : IVec S_ 1 := (fun x v => Host.reduce IntOp.andi x v reducesTo_S8x1024x1024_S_d0_1_2 h_S_) main_v10 main_c_3
  let main_v12 : IVec S_ 1 := andi main_v8 main_v11
  let main_c_4 : IVec S_ 32 := constantI S_ 32 2#32
  let main_v13 : IVec S8x1024x1024 32 := broadcastInDim S8x1024x1024 ![] bcast_S_S8x1024x1024 main_c_4
  let main_v14 : IVec S8x1024x1024 1 := cmpi .sle main_arg1 main_v13
  let main_c_5 : IVec S_ 1 := constantI S_ 1 1#1
  let main_v15 : IVec S_ 1 := (fun x v => Host.reduce IntOp.andi x v reducesTo_S8x1024x1024_S_d0_1_2 h_S_) main_v14 main_c_5
  fn_part1 (F := F) main_v12 main_v15
-- ==== Kernel.lean ====
abbrev S8x3x1024x1024 : Shape := ⟨4, ![8, 3, 1024, 1024]⟩
abbrev S8x1024x1024 : Shape := ⟨3, ![8, 1024, 1024]⟩
abbrev S10 : Shape := ⟨1, ![10]⟩
abbrev S8x1x128 : Shape := ⟨3, ![8, 1, 128]⟩
abbrev S1x3x512x1024 : Shape := ⟨4, ![1, 3, 512, 1024]⟩
abbrev S1x512x1024 : Shape := ⟨3, ![1, 512, 1024]⟩
abbrev S1x1x128 : Shape := ⟨3, ![1, 1, 128]⟩
abbrev S1x128 : Shape := ⟨2, ![1, 128]⟩
abbrev S1x1x512x1024 : Shape := ⟨4, ![1, 1, 512, 1024]⟩
abbrev S512x1024 : Shape := ⟨2, ![512, 1024]⟩
abbrev S1 : Shape := ⟨1, ![1]⟩
abbrev S1x1x1 : Shape := ⟨3, ![1, 1, 1]⟩
abbrev S118 : Shape := ⟨1, ![118]⟩
abbrev S128 : Shape := ⟨1, ![128]⟩
abbrev S8x1x10 : Shape := ⟨3, ![8, 1, 10]⟩
abbrev S8x10 : Shape := ⟨2, ![8, 10]⟩
abbrev S_ : Shape := ⟨0, ![]⟩

abbrev nBuf : Space → Nat
  | .hbm => 49
  | .vmem => 10
  | .smem => 0
  | _ => 0

abbrev bufTy : (tb : Table) → Fin (tcTables nBuf tb) → BufTy
  | .hbm, ⟨0, _⟩ => ⟨S8x3x1024x1024, .f32⟩
  | .hbm, ⟨1, _⟩ => ⟨S8x1024x1024, .i32⟩
  | .hbm, ⟨2, _⟩ => ⟨S10, .f32⟩
  | .hbm, ⟨3, _⟩ => ⟨S8x1x128, .f32⟩
  | .hbm, ⟨4, _⟩ => ⟨S8x1x128, .f32⟩
  | .hbm, ⟨5, _⟩ => ⟨S8x1x10, .f32⟩
  | .hbm, ⟨6, _⟩ => ⟨S8x10, .f32⟩
  | .hbm, ⟨7, _⟩ => ⟨S_, .f32⟩
  | .hbm, ⟨8, _⟩ => ⟨S10, .f32⟩
  | .hbm, ⟨9, _⟩ => ⟨S8x1x10, .f32⟩
  | .hbm, ⟨10, _⟩ => ⟨S8x10, .f32⟩
  | .hbm, ⟨11, _⟩ => ⟨S_, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .i1⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S_, .f32⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S10, .f32⟩
  | .hbm, ⟨45, _⟩ => ⟨S10, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1x3x512x1024, .f32⟩
  | .local _ .vmem, ⟨1, _⟩ => ⟨S1x3x512x1024, .f32⟩
  | .local _ .vmem, ⟨2, _⟩ => ⟨S1x512x1024, .i32⟩
  | .local _ .vmem, ⟨3, _⟩ => ⟨S1x512x1024, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .vmem, ⟨9, _⟩ => ⟨S1x128, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call2_v0 : Ref sig .tc := ⟨.hbm, 32, rfl⟩
abbrev main_call2_v1 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_cst_9 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_52 : BitVec 32 := 1#32
  let v218 : BitVec 1 := Scalar.cmpi .eq arg1 c1_i32_52
  let v219 : BitVec 32 := Scalar.extui v218
  let c0_i32_53 : BitVec 32 := 0#32
  let v220 : BitVec 1 := Scalar.cmpi .ne v219 c0_i32_53
  v220

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x3x512x1024_S1x1x512x1024_0_0_0_0 : ∀ a, (![0, 0, 0, 0] : Fin 4 → Nat) a + S1x1x512x1024.size a ≤ S1x3x512x1024.size a
  h_S1x1x512x1024 : 0 < S1x1x512x1024.numel
  shapeCasts_S1x1x512x1024_S512x1024 : S1x1x512x1024.ShapeCasts S512x1024
  inb_S1x3x512x1024_S1x1x512x1024_0_1_0_0 : ∀ a, (![0, 1, 0, 0] : Fin 4 → Nat) a + S1x1x512x1024.size a ≤ S1x3x512x1024.size a
  inb_S1x3x512x1024_S1x1x512x1024_0_2_0_0 : ∀ a, (![0, 2, 0, 0] : Fin 4 → Nat) a + S1x1x512x1024.size a ≤ S1x3x512x1024.size a
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  natLt_1_32 : 1 < 32
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S1_S1_S1_S1_S1_S10_d0 : Shape.Concatenates [S1, S1, S1, S1, S1, S1, S1, S1, S1, S1] S10 0
  concatenates_S10_S118_S128_d0 : Shape.Concatenates [S10, S118] S128 0
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x10_0_0_0 : S8x1x128.Slices ![0, 0, 0] S8x1x10
  shapeCasts_S8x1x10_S8x10 : S8x1x10.ShapeCasts S8x10
  reducesTo_S8x10_S10_d0 : S8x10.ReducesTo [0] S10
  h_S_ : 0 < S_.numel
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x1024.size a ≤ S8x3x1024x1024.size a
  hwx0_0 : ∀ i : grid0.Coords, EltTy.bits .f32 = 32 ∨ (Rect.block (s := S8x3x1024x1024) S1x3x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x1024x1024.size a
  hwx0_1 : ∀ i : grid0.Coords, EltTy.bits .i32 = 32 ∨ (Rect.block (s := S8x1024x1024) S1x512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

abbrev win0_0 : Pipeline.Window sig grid0 :=
  Pipeline.Window.ofSpec (Memref.whole main_arg0) S1x3x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x3x1024x1024 : Shape := ⟨4, ![8, 3, 1024, 1024]⟩
abbrev S8x1024x1024 : Shape := ⟨3, ![8, 1024, 1024]⟩
abbrev S10 : Shape := ⟨1, ![10]⟩
abbrev S8x1024x1024x3 : Shape := ⟨4, ![8, 1024, 1024, 3]⟩
abbrev S8388608x3 : Shape := ⟨2, ![8388608, 3]⟩
abbrev S8388608 : Shape := ⟨1, ![8388608]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 157
  | .vmem => 0
  | .smem => 0
  | _ => 0

abbrev hbmTy0_0 (i : Nat) : BufTy := match i % 128 with
  | 0 => ⟨S8x3x1024x1024, .f32⟩
  | 1 => ⟨S8x1024x1024, .i32⟩
  | 2 => ⟨S10, .f32⟩
  | 3 => ⟨S8x1024x1024x3, .f32⟩
  | 4 => ⟨S8388608x3, .f32⟩
  | 5 => ⟨S8388608, .i32⟩
  | 6 => ⟨S_, .f32⟩
  | 7 => ⟨S8388608, .f32⟩
  | 8 => ⟨S_, .f32⟩
  | 9 => ⟨S8388608, .f32⟩
  | 10 => ⟨S8388608, .f32⟩
  | 11 => ⟨S8388608x1, .f32⟩
  | 12 => ⟨S8388608x3, .f32⟩
  | 13 => ⟨S8388608x3, .f32⟩
  | 14 => ⟨S8388608x3, .f32⟩
  | 15 => ⟨S_, .f32⟩
  | 16 => ⟨S8388608, .f32⟩
  | 17 => ⟨S8388608x1, .f32⟩
  | 18 => ⟨S8388608x3, .f32⟩
  | 19 => ⟨S8388608x3, .f32⟩
  | 20 => ⟨S8388608x1, .i32⟩
  | 21 => ⟨S_, .i32⟩
  | 22 => ⟨S8388608x1, .i32⟩
  | 23 => ⟨S8388608x1, .i1⟩
  | 24 => ⟨S_, .i32⟩
  | 25 => ⟨S8388608x1, .i32⟩
  | 26 => ⟨S8388608x1, .i32⟩
  | 27 => ⟨S8388608x1, .i32⟩
  | 28 => ⟨S8388608x1x1, .i32⟩
  | 29 => ⟨S1, .i32⟩
  | 30 => ⟨S_, .i32⟩
  | 31 => ⟨S8388608x1x1, .i32⟩
  | 32 => ⟨S8388608x1x1, .i1⟩
  | 33 => ⟨S1x1x1, .i32⟩
  | 34 => ⟨S8388608x1x1, .i32⟩
  | 35 => ⟨S8388608x1x1, .i1⟩
  | 36 => ⟨S8388608x1x1, .i1⟩
  | 37 => ⟨S_, .i1⟩
  | 38 => ⟨S8388608x1, .i1⟩
  | 39 => ⟨S8388608x1, .f32⟩
  | 40 => ⟨S_, .f32⟩
  | 41 => ⟨S8388608x1, .f32⟩
  | 42 => ⟨S8388608x1, .f32⟩
  | 43 => ⟨S8388608, .f32⟩
  | 44 => ⟨S_, .f32⟩
  | 45 => ⟨S8388608, .f32⟩
  | 46 => ⟨S8388608, .f32⟩
  | 47 => ⟨S_, .f32⟩
  | 48 => ⟨S8388608, .f32⟩
  | 49 => ⟨S8388608, .f32⟩
  | 50 => ⟨S8388608, .f32⟩
  | 51 => ⟨S8388608, .i32⟩
  | 52 => ⟨S_, .i32⟩
  | 53 => ⟨S_, .i32⟩
  | 54 => ⟨S_, .i32⟩
  | 55 => ⟨S8388608, .i32⟩
  | 56 => ⟨S8388608, .i32⟩
  | 57 => ⟨S_, .i32⟩
  | 58 => ⟨S8388608, .i32⟩
  | 59 => ⟨S8388608, .i32⟩
  | 60 => ⟨S_, .f32⟩
  | 61 => ⟨S10, .f32⟩
  | 62 => ⟨S_, .i32⟩
  | 63 => ⟨S8388608, .i32⟩
  | 64 => ⟨S8388608, .i1⟩
  | 65 => ⟨S_, .i32⟩
  | 66 => ⟨S8388608, .i32⟩
  | 67 => ⟨S8388608, .i32⟩
  | 68 => ⟨S8388608, .i32⟩
  | 69 => ⟨S8388608x1, .i32⟩
  | 70 => ⟨S_, .f32⟩
  | 71 => ⟨S8388608, .f32⟩
  | 72 => ⟨S10, .f32⟩
  | 73 => ⟨S_, .f32⟩
  | 74 => ⟨S10, .f32⟩
  | 75 => ⟨S10, .i1⟩
  | 76 => ⟨S_, .f32⟩
  | 77 => ⟨S10, .f32⟩
  | 78 => ⟨S10, .f32⟩
  | 79 => ⟨S_, .f32⟩
  | 80 => ⟨S10, .f32⟩
  | 81 => ⟨S10, .f32⟩
  | 82 => ⟨S10, .f32⟩
  | 83 => ⟨S10, .f32⟩
  | 84 => ⟨S_, .f32⟩
  | 85 => ⟨S_, .f32⟩
  | 86 => ⟨S10, .f32⟩
  | 87 => ⟨S10, .f32⟩
  | 88 => ⟨S_, .f32⟩
  | 89 => ⟨S10, .f32⟩
  | 90 => ⟨S10, .f32⟩
  | 91 => ⟨S_, .f32⟩
  | 92 => ⟨S_, .f32⟩
  | 93 => ⟨S10, .f32⟩
  | 94 => ⟨S10, .f32⟩
  | 95 => ⟨S10, .f32⟩
  | 96 => ⟨S_, .f32⟩
  | 97 => ⟨S_, .f32⟩
  | 98 => ⟨S_, .i32⟩
  | 99 => ⟨S8388608, .i32⟩
  | 100 => ⟨S8388608, .i1⟩
  | 101 => ⟨S_, .i32⟩
  | 102 => ⟨S8388608, .i32⟩
  | 103 => ⟨S8388608, .i32⟩
  | 104 => ⟨S8388608, .i32⟩
  | 105 => ⟨S8388608x1, .i32⟩
  | 106 => ⟨S8388608, .f32⟩
  | 107 => ⟨S_, .f32⟩
  | 108 => ⟨S_, .i1⟩
  | 109 => ⟨S_, .f32⟩
  | 110 => ⟨S_, .f32⟩
  | 111 => ⟨S8388608, .f32⟩
  | 112 => ⟨S8388608, .f32⟩
  | 113 => ⟨S8388608, .f32⟩
  | 114 => ⟨S_, .f32⟩
  | 115 => ⟨S8388608, .f32⟩
  | 116 => ⟨S_, .f32⟩
  | 117 => ⟨S8388608, .f32⟩
  | 118 => ⟨S8388608, .f32⟩
  | 119 => ⟨S8388608x1, .f32⟩
  | 120 => ⟨S8388608x3, .f32⟩
  | 121 => ⟨S8388608x3, .f32⟩
  | 122 => ⟨S8388608x3, .f32⟩
  | 123 => ⟨S_, .f32⟩
  | 124 => ⟨S8388608, .f32⟩
  | 125 => ⟨S8388608x1, .f32⟩
  | 126 => ⟨S8388608x1, .f32⟩
  | 127 => ⟨S8388608x3, .f32⟩
  | _ => ⟨S8x3x1024x1024, .f32⟩

abbrev hbmTy0_1 (i : Nat) : BufTy := match i % 128 with
  | 0 => ⟨S8388608x3, .f32⟩
  | 1 => ⟨S8388608x1, .i32⟩
  | 2 => ⟨S_, .i32⟩
  | 3 => ⟨S8388608x1, .i32⟩
  | 4 => ⟨S8388608x1, .i1⟩
  | 5 => ⟨S_, .i32⟩
  | 6 => ⟨S8388608x1, .i32⟩
  | 7 => ⟨S8388608x1, .i32⟩
  | 8 => ⟨S8388608x1, .i32⟩
  | 9 => ⟨S8388608x1x1, .i32⟩
  | 10 => ⟨S1, .i32⟩
  | 11 => ⟨S_, .i32⟩
  | 12 => ⟨S8388608x1x1, .i32⟩
  | 13 => ⟨S8388608x1x1, .i1⟩
  | 14 => ⟨S1x1x1, .i32⟩
  | 15 => ⟨S8388608x1x1, .i32⟩
  | 16 => ⟨S8388608x1x1, .i1⟩
  | 17 => ⟨S8388608x1x1, .i1⟩
  | 18 => ⟨S_, .i1⟩
  | 19 => ⟨S8388608x1, .i1⟩
  | 20 => ⟨S8388608x1, .f32⟩
  | 21 => ⟨S_, .f32⟩
  | 22 => ⟨S8388608x1, .f32⟩
  | 23 => ⟨S8388608x1, .f32⟩
  | 24 => ⟨S8388608, .f32⟩
  | 25 => ⟨S8388608, .f32⟩
  | 26 => ⟨S_, .f32⟩
  | 27 => ⟨S_, .f32⟩
  | 28 => ⟨S_, .f32⟩
  | _ => ⟨S8x3x1024x1024, .f32⟩

abbrev hbmTy (i : Nat) : BufTy := match i / 128 with
  | 0 => hbmTy0_0 i
  | 1 => hbmTy0_1 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_cst_3 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c : Ref sig .tc := ⟨.hbm, 52, rfl⟩
abbrev main_c_4 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v23 : Ref sig .tc := ⟨.hbm, 59, rfl⟩
abbrev main_cst_5 : Ref sig .tc := ⟨.hbm, 60, rfl⟩
abbrev main_v24 : Ref sig .tc := ⟨.hbm, 61, rfl⟩
abbrev main_c_6 : Ref sig .tc := ⟨.hbm, 62, rfl⟩
abbrev main_v25 : Ref sig .tc := ⟨.hbm, 63, rfl⟩
abbrev main_v26 : Ref sig .tc := ⟨.hbm, 64, rfl⟩
abbrev main_c_7 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_8 : Ref sig .tc := ⟨.hbm, 70, rfl⟩
abbrev main_v31 : Ref sig .tc := ⟨.hbm, 71, rfl⟩
abbrev main_v32 : Ref sig .tc := ⟨.hbm, 72, rfl⟩
abbrev main_cst_9 : Ref sig .tc := ⟨.hbm, 73, rfl⟩
abbrev main_v33 : Ref sig .tc := ⟨.hbm, 74, rfl⟩
abbrev main_v34 : Ref sig .tc := ⟨.hbm, 75, rfl⟩
abbrev main_cst_10 : Ref sig .tc := ⟨.hbm, 76, rfl⟩
abbrev main_v35 : Ref sig .tc := ⟨.hbm, 77, rfl⟩
abbrev main_v36 : Ref sig .tc := ⟨.hbm, 78, rfl⟩
abbrev main_cst_11 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_12 : Ref sig .tc := ⟨.hbm, 84, rfl⟩
abbrev main_call3_v0 : Ref sig .tc := ⟨.hbm, 85, rfl⟩
abbrev main_call3_v1 : Ref sig .tc := ⟨.hbm, 86, rfl⟩
abbrev main_v41 : Ref sig .tc := ⟨.hbm, 87, rfl⟩
abbrev main_cst_13 : Ref sig .tc := ⟨.hbm, 88, rfl⟩
abbrev main_v42 : Ref sig .tc := ⟨.hbm, 89, rfl⟩
abbrev main_v43 : Ref sig .tc := ⟨.hbm, 90, rfl⟩
abbrev main_cst_14 : Ref sig .tc := ⟨.hbm, 91, rfl⟩
abbrev main_call4_v0 : Ref sig .tc := ⟨.hbm, 92, rfl⟩
abbrev main_call4_v1 : Ref sig .tc := ⟨.hbm, 93, rfl⟩
abbrev main_v44 : Ref sig .tc := ⟨.hbm, 94, rfl⟩
abbrev main_v45 : Ref sig .tc := ⟨.hbm, 95, rfl⟩
abbrev main_cst_15 : Ref sig .tc := ⟨.hbm, 96, rfl⟩
abbrev main_v46 : Ref sig .tc := ⟨.hbm, 97, rfl⟩
abbrev main_c_16 : Ref sig .tc := ⟨.hbm, 98, rfl⟩
abbrev main_v47 : Ref sig .tc := ⟨.hbm, 99, rfl⟩
abbrev main_v48 : Ref sig .tc := ⟨.hbm, 100, rfl⟩
abbrev main_c_17 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_cst_18 : Ref sig .tc := ⟨.hbm, 107, rfl⟩
abbrev main_v54 : Ref sig .tc := ⟨.hbm, 108, rfl⟩
abbrev main_cst_19 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_call6_cst : Ref sig .tc := ⟨.hbm, 114, rfl⟩
abbrev main_call6_v0 : Ref sig .tc := ⟨.hbm, 115, rfl⟩
abbrev main_call6_cst_0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_v6 : Ref sig .tc := ⟨.hbm, 122, rfl⟩
abbrev main_call6_cst_1 : Ref sig .tc := ⟨.hbm, 123, rfl⟩
abbrev main_call6_v7 : Ref sig .tc := ⟨.hbm, 124, rfl⟩
abbrev main_call6_v8 : Ref sig .tc := ⟨.hbm, 125, rfl⟩
abbrev main_call6_v9 : Ref sig .tc := ⟨.hbm, 126, rfl⟩
abbrev main_call6_v10 : Ref sig .tc := ⟨.hbm, 127, rfl⟩
abbrev main_v59 : Ref sig .tc := ⟨.hbm, 128, rfl⟩
abbrev main_v60 : Ref sig .tc := ⟨.hbm, 129, rfl⟩
abbrev main_call7_c : Ref sig .tc := ⟨.hbm, 130, rfl⟩
abbrev main_call7_v0 : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_call7_c_1 : Ref sig .tc := ⟨.hbm, 138, rfl⟩
abbrev main_call7_c_2 : Ref sig .tc := ⟨.hbm, 139, rfl⟩
abbrev main_call7_v6 : Ref sig .tc := ⟨.hbm, 140, rfl⟩
abbrev main_call7_v7 : Ref sig .tc := ⟨.hbm, 141, rfl⟩
abbrev main_call7_v8 : Ref sig .tc := ⟨.hbm, 142, rfl⟩
abbrev main_call7_v9 : Ref sig .tc := ⟨.hbm, 143, rfl⟩
abbrev main_call7_v10 : Ref sig .tc := ⟨.hbm, 144, rfl⟩
abbrev main_call7_v11 : Ref sig .tc := ⟨.hbm, 145, rfl⟩
abbrev main_call7_c_3 : Ref sig .tc := ⟨.hbm, 146, rfl⟩
abbrev main_call7_v12 : Ref sig .tc := ⟨.hbm, 147, rfl⟩
abbrev main_call7_v13 : Ref sig .tc := ⟨.hbm, 148, rfl⟩
abbrev main_call7_cst : Ref sig .tc := ⟨.hbm, 149, rfl⟩
abbrev main_call7_v14 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_cst_20 : Ref sig .tc := ⟨.hbm, 154, rfl⟩
abbrev main_v64 : Ref sig .tc := ⟨.hbm, 155, rfl⟩
abbrev main_v65 : Ref sig .tc := ⟨.hbm, 156, rfl⟩

abbrev nD : Nat := 1
abbrev τ : Topo := Topo.v7x

variable {F : FTy → Type} [FloatOps F]

class Facts₀ : Prop where
  transposes_S8x3x1024x1024_S8x1024x1024x3_0_2_3_1 : S8x3x1024x1024.Transposes [0, 2, 3, 1] S8x1024x1024x3
  shapeCasts_S8x1024x1024x3_S8388608x3 : S8x1024x1024x3.ShapeCasts S8388608x3
  shapeCasts_S8x1024x1024_S8388608 : S8x1024x1024.ShapeCasts S8388608
  reducesTo_S8388608x3_S8388608_d1 : S8388608x3.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  bcast_S_S10 : S_.BroadcastsInDim S10 (![] : Fin 0 → Fin S10.rank)
  reducesTo_S10_S_d0 : S10.ReducesTo [0] S_
  reducesTo_S8388608_S_d0 : S8388608.ReducesTo [0] S_
  gather_S8388608x3_S8388608x1x1_S8388608x1_n_1_0_0_1_2_11_wf : GatherDims.WF S8388608x3 S8388608x1x1 S8388608x1 [] [1] [0] [1] [0] 2 ![1, 1]
  scatter_S10_S8388608x1_S8388608_n_0_0_1_wf : ScatterDims.WF S10 S8388608x1 S8388608 [] [0] [0] 1
  gather_S10_S8388608x1_S8388608_n_0_n_n_0_1_1_wf : GatherDims.WF S10 S8388608x1 S8388608 [] [0] [] [0] [] 1 ![1]

variable [Facts₀]

def gather_S8388608x3_S8388608x1x1_S8388608x1_n_1_0_0_1_2_11 : GatherDims S8388608x3 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x3_S8388608x1x1_S8388608x1_n_1_0_0_1_2_11_wf
def scatter_S10_S8388608x1_S8388608_n_0_0_1 : ScatterDims S10 S8388608x1 S8388608 where
  updateWindowDims := []
  insertedWindowDims := [0]
  scatterDimsToOperandDims := [0]
  indexVectorDim := 1
  wf := scatter_S10_S8388608x1_S8388608_n_0_0_1_wf
def gather_S10_S8388608x1_S8388608_n_0_n_n_0_1_1 : GatherDims S10 S8388608x1 S8388608 where
  offsetDims := []
  collapsedSliceDims := [0]
  operandBatchingDims := []
  startIndicesBatchingDims := []
  startIndexMap := [0]
  indexVectorDim := 1
  sliceSizes := ![1]
  wf := gather_S10_S8388608x1_S8388608_n_0_n_n_0_1_1_wf

class Facts : Prop extends Facts₀ where

variable [Facts]
-- ==== Proof.PreFacts.lean ====
/-
  What the precondition says of the arrays: every logit and every table entry is a real number, and every
  label is 0, 1 or 2.

  The precondition is a conjunction of four "for all elements" tests, each a reduction by "and" of a
  comparison array into one bit: |a0| < +∞, |a2| < +∞, a1 ≥ 0 and a1 ≤ 2 (signed). The conjunction being 1
  makes each reduction 1, and a reduction by "and" that is 1 had a 1 at every element. It remains to read
  one comparison bit: over the extended reals |x| = max x (-x) is below +∞ only when x is neither infinity,
  that is when x is a real number; and a 32-bit word whose signed value lies between 0 and 2 is one of the
  three words 0, 1, 2.
-/
import proofs.«430611_j67164698575482_3_alg».proof.Proof.Gen.Pre_finite_inputs
import Idealize.ShloMosaic.PureOps.Ideal
import Idealize.ShloMosaic.Lib.ReduceAll

noncomputable section

namespace Cert.Pre_finite_inputs.PreFacts

open Idealize.ShloMosaic Cert.Pre_finite_inputs

/-- The result shape of a reduction over every axis has exactly one index. -/
local instance : Subsingleton S_.Idx := ⟨fun a b => funext fun d => d.elim0⟩

/-- An extended real whose absolute value max x (-x) is strictly below the pattern of +∞ is a real number:
    at either infinity the maximum is +∞ itself. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  have hlt : max x (-x) < ⊤ := by
    by_contra hc
    simp [Ideal.cmp, hc] at hx
  induction x using EReal.rec with
  | bot => simp at hlt
  | coe r => exact ⟨r, rfl⟩
  | top => simp at hlt

/-- A 32-bit word that is at least 0 and at most 2, both read signed, is the word 0, 1 or 2: its signed
    value is one of the three integers, and a word is determined by its signed value. -/
theorem word_of_range (x : BitVec 32) (h0 : IntOp.cmpi .sge x 0#32 = 1#1) (h2 : IntOp.cmpi .sle x 2#32 = 1#1) :
    x = 0#32 ∨ x = 1#32 ∨ x = 2#32 := by
  rw [IntOp.cmpi_sge] at h0
  rw [IntOp.cmpi_sle] at h2
  have z : (0#32 : BitVec 32).toInt = 0 := by decide
  have o : (1#32 : BitVec 32).toInt = 1 := by decide
  have t : (2#32 : BitVec 32).toInt = 2 := by decide
  rw [z] at h0
  rw [t] at h2
  have hv : x.toInt = 0 ∨ x.toInt = 1 ∨ x.toInt = 2 := by omega
  rcases hv with e | e | e
  · exact Or.inl (BitVec.eq_of_toInt_eq (by rw [e, z]))
  · exact Or.inr (Or.inl (BitVec.eq_of_toInt_eq (by rw [e, o])))
  · exact Or.inr (Or.inr (BitVec.eq_of_toInt_eq (by rw [e, t])))

theorem of_pre (a0 : FVec Ideal S8x3x1024x1024 .f32) (a1 : IVec S8x1024x1024 32) (a2 : FVec Ideal S10 .f32)
    (h : Cert.Pre_finite_inputs.fn (F := Ideal) a0 a1 a2 = fun _ => 1#1) :
    (∀ i, ∃ x : ℝ, a0 i = (x : EReal)) ∧ (∀ i, a1 i = 0#32 ∨ a1 i = 1#32 ∨ a1 i = 2#32) ∧ (∀ i, ∃ x : ℝ, a2 i = (x : EReal)) := by
  -- the one bit of the result, as the conjunction ((t₁ ∧ t₂) ∧ t₃) ∧ t₄ of the four tests
  have hb := congrFun h (fun d => d.elim0)
  dsimp only [Cert.Pre_finite_inputs.fn, Cert.Pre_finite_inputs.fn_part1, andi] at hb
  obtain ⟨h123, h4⟩ := IntOp.andi_eq_one.1 hb
  obtain ⟨h12, h3⟩ := IntOp.andi_eq_one.1 h123
  obtain ⟨h1, h2⟩ := IntOp.andi_eq_one.1 h12
  -- each test is an "and" over all elements, so each element's comparison bit is 1
  have e1 := fun i => Host.reduce_andi_all _ _ _ _ _ h1 i
  have e2 := fun i => Host.reduce_andi_all _ _ _ _ _ h2 i
  have e3 := fun i => Host.reduce_andi_all _ _ _ _ _ h3 i
  have e4 := fun i => Host.reduce_andi_all _ _ _ _ _ h4 i
  exact ⟨fun i => real_of_abs_lt_inf (a0 i) (e1 i), fun i => word_of_range (a1 i) (e3 i) (e4 i),
    fun i => real_of_abs_lt_inf (a2 i) (e2 i)⟩

end Cert.Pre_finite_inputs.PreFacts

end
-- ==== Proof.Spec.lean ====
/-
  The gradient-harmonised loss both programs compute, as plain sums over the 8 × 1024 × 1024 pixels.

  A pixel has three logits p0 p1 p2 and a class label t. With m their maximum and
  Z = e^(p0-m) + e^(p1-m) + e^(p2-m), its log-probability is (p_t - m) - log Z and its gradient-norm
  bin is floor ((1 - e^(p_t-m) / Z) · 10) clamped to 0..9. Bin k collects a count (how many pixels fall in
  it) and the sum of their log-probabilities; the counts and the running table give every bin a weight,
  and the loss is minus the weighted sum of log-probabilities. One program adds, bin by bin, weight
  times the bin's sum; the other adds, pixel by pixel, the weight of the pixel's bin times its
  log-probability. The definitions below name both, over indices `Fin 8 × Fin 1024 × Fin 1024`.
-/
import Idealize.ShloMosaic.PureOps.Ideal
import Idealize.ShloMosaic.Lib.ValueIdx

noncomputable section

namespace Cert.GHM

open Idealize.ShloMosaic Idealize.ShloMosaic.ValueIdx

abbrev SPred : Shape := ⟨4, ![8, 3, 1024, 1024]⟩
abbrev STgt : Shape := ⟨3, ![8, 1024, 1024]⟩
abbrev SBins : Shape := ⟨1, ![10]⟩

/-- The float words the programs carry: 1, 10, 3/4, 1/4. -/
abbrev one : EReal := Ideal.ofBits .f32 0x3F800000#32
abbrev ten : EReal := Ideal.ofBits .f32 0x41200000#32
abbrev mmt : EReal := Ideal.ofBits .f32 0x3F400000#32
abbrev omm : EReal := Ideal.ofBits .f32 0x3E800000#32

/-! ## One pixel -/

/-- The largest of the three logits. -/
def top3 (p0 p1 p2 : EReal) : EReal := max (max p0 p1) p2

/-- A shifted exponential e^(p - m). -/
def ex (p m : EReal) : EReal := Ideal.exp (p - m)

/-- The softmax denominator: the three shifted exponentials added left to right. -/
def den (p0 p1 p2 : EReal) : EReal :=
  ex p0 (top3 p0 p1 p2) + ex p1 (top3 p0 p1 p2) + ex p2 (top3 p0 p1 p2)

/-- The entry the label names: label 0 the first, label 1 the second, anything else the third. -/
def pick {α : Type} (t : BitVec 32) (a0 a1 a2 : α) : α :=
  if t = 0#32 then a0 else if t = 1#32 then a1 else a2

/-- The pixel's log-probability of its labelled class. -/
def logp (p0 p1 p2 : EReal) (t : BitVec 32) : EReal :=
  (pick t p0 p1 p2 - top3 p0 p1 p2) - Ideal.log (den p0 p1 p2)

/-- The pixel's softmax probability of its labelled class. -/
def prob (p0 p1 p2 : EReal) (t : BitVec 32) : EReal :=
  Ideal.div (pick t (ex p0 (top3 p0 p1 p2)) (ex p1 (top3 p0 p1 p2)) (ex p2 (top3 p0 p1 p2))) (den p0 p1 p2)

/-- The pixel's bin: floor ((1 - prob) · 10) as a signed word, clamped to 0..9. -/
def gbin (p0 p1 p2 : EReal) (t : BitVec 32) : BitVec 32 :=
  IntOp.minsi 9#32 (IntOp.maxsi 0#32 (Ideal.fptosi 32 (Ideal.liftRound Int.floor ((one - prob p0 p1 p2 t) * ten))))

/-- The indicator of two words being equal, as an extended real. -/
def ind (x y : BitVec 32) : EReal := if x = y then 1 else 0

/-- A bin word as an index of the ten bins (a word past nine lands on nine). -/
def binFin (x : BitVec 32) : Fin 10 := ⟨min x.toNat 9, by omega⟩

/-! ## The arrays -/

section Arrays
variable (pred : SPred.Idx → EReal) (tgt : STgt.Idx → BitVec 32)

/-- Pixel (b, r, c)'s bin and log-probability. -/
def pBin (b : Fin 8) (r c : Fin 1024) : BitVec 32 :=
  gbin (pred (ix4 b (0 : Fin 3) r c)) (pred (ix4 b (1 : Fin 3) r c)) (pred (ix4 b (2 : Fin 3) r c)) (tgt (ix3 b r c))

def pLp (b : Fin 8) (r c : Fin 1024) : EReal :=
  logp (pred (ix4 b (0 : Fin 3) r c)) (pred (ix4 b (1 : Fin 3) r c)) (pred (ix4 b (2 : Fin 3) r c)) (tgt (ix3 b r c))

/-- How many pixels fall in bin k, and the sum of their log-probabilities. -/
def cnt (k : Fin 10) : EReal :=
  ∑ b : Fin 8, ∑ r : Fin 1024, ∑ c : Fin 1024, ind (pBin pred tgt b r c) (BitVec.ofNat 32 k.val)

def lsum (k : Fin 10) : EReal :=
  ∑ b : Fin 8, ∑ r : Fin 1024, ∑ c : Fin 1024, ind (pBin pred tgt b r c) (BitVec.ofNat 32 k.val) * pLp pred tgt b r c

end Arrays

/-! ## The weights -/

/-- "This bin is not empty", as a one-bit word. -/
def nonempty (n : EReal) : BitVec 1 := Ideal.cmp .ogt n 0

/-- The running table's new entry: 3/4 of the old one plus 1/4 of the count. -/
def newAcc (n a : EReal) : EReal := mmt * a + omm * n

/-- A bin's raw weight: for a non-empty bin one over its new table entry, else zero. -/
def rawW (n a : EReal) : EReal :=
  Scalar.select (nonempty n)
    (Ideal.div one (Scalar.select (nonempty n) (Scalar.select (nonempty n) (newAcc n a) a) one)) 0

/-- The number of non-empty bins. -/
def nBins (n : Fin 10 → EReal) : EReal := ∑ k : Fin 10, FloatOps.uitofp (F := Ideal) .f32 (nonempty (n k))

/-- A bin's weight: its raw weight over the number of non-empty bins (over one if there is none). -/
def wt (n a : Fin 10 → EReal) (k : Fin 10) : EReal :=
  Scalar.select (Ideal.cmp .ogt (nBins n) 0) (Ideal.div (rawW (n k) (a k)) (max (nBins n) one)) (rawW (n k) (a k))

/-! ## The loss, both ways -/

section Loss
variable (pred : SPred.Idx → EReal) (tgt : STgt.Idx → BitVec 32) (acc : SBins.Idx → EReal)

/-- Bin by bin: minus the sum over the ten bins of the bin's weight times the bin's log-probability sum. -/
def lossByBin : EReal :=
  -(∑ k : Fin 10, wt (cnt pred tgt) (fun j => acc (ix1 j)) k * lsum pred tgt k)

/-- Pixel by pixel: minus the sum over the pixels of the weight of the pixel's bin times its log-probability. -/
def lossByPixel : EReal :=
  -(∑ b : Fin 8, ∑ r : Fin 1024, ∑ c : Fin 1024,
      wt (cnt pred tgt) (fun j => acc (ix1 j)) (binFin (pBin pred tgt b r c)) * pLp pred tgt b r c)

end Loss

end Cert.GHM

end
-- ==== Proof.Algebra.lean ====
/-
  The law that joins the two ways of adding up the loss, and two re-indexings of a sum over the pixels.

  The law: ∑_k w_k · (∑_p [bin p = k] · ℓ_p) = ∑_p w_(bin p) · ℓ_p. Over the real numbers this is just
  an exchange of two finite sums. Over the extended reals a weight w_k may be +∞ (a bin whose new table
  entry is 0), and c · (a + b) = c · a + c · b can fail when a and b have opposite signs. It holds when a
  and b are both ≤ 0, and every log-probability ℓ_p is ≤ 0: that is what the proof rests on.
-/
import proofs.«430611_j67164698575482_3_alg».proof.Proof.Spec
import Mathlib.Algebra.BigOperators.Fin
import Mathlib.Data.Fintype.BigOperators
import Mathlib.Algebra.Order.BigOperators.Group.Finset
import Mathlib.Data.EReal.Operations
import Mathlib.Analysis.SpecialFunctions.Log.Basic

noncomputable section

namespace Cert.GHM

open Idealize.ShloMosaic Idealize.ShloMosaic.ValueIdx

/-! ## Re-indexing the pixels -/

namespace Alg

/-- A flat pixel number k < 8 · 1024 · 1024 is the same thing as the triple (image, row, column) with
    k = image · 1024² + row · 1024 + column. -/
def flatEquiv : Fin 8388608 ≃ Fin 8 × Fin 1024 × Fin 1024 where
  toFun k := (⟨k.val / 1048576, by omega⟩, ⟨k.val / 1024 % 1024, by omega⟩, ⟨k.val % 1024, by omega⟩)
  invFun p := ⟨p.1.val * 1048576 + p.2.1.val * 1024 + p.2.2.val, by omega⟩
  left_inv k := by
    apply Fin.ext
    show k.val / 1048576 * 1048576 + k.val / 1024 % 1024 * 1024 + k.val % 1024 = k.val
    omega
  right_inv p := by
    obtain ⟨b, r, c⟩ := p
    refine Prod.ext (Fin.ext ?_) (Prod.ext (Fin.ext ?_) (Fin.ext ?_))
    · show (b.val * 1048576 + r.val * 1024 + c.val) / 1048576 = b.val
      omega
    · show (b.val * 1048576 + r.val * 1024 + c.val) / 1024 % 1024 = r.val
      omega
    · show (b.val * 1048576 + r.val * 1024 + c.val) % 1024 = c.val
      omega

end Alg

/-- A sum over the 8 · 1024 · 1024 flat pixel numbers, each split into image, row and column, is the triple sum. -/
theorem sum_flat {M : Type} [AddCommMonoid M] (G : Fin 8 → Fin 1024 → Fin 1024 → M) :
    ∑ k : Fin 8388608, G ⟨k.val / 1048576, by omega⟩ ⟨k.val / 1024 % 1024, by omega⟩ ⟨k.val % 1024, by omega⟩
      = ∑ b : Fin 8, ∑ r : Fin 1024, ∑ c : Fin 1024, G b r c := by
  have h : ∑ k : Fin 8388608, G ⟨k.val / 1048576, by omega⟩ ⟨k.val / 1024 % 1024, by omega⟩ ⟨k.val % 1024, by omega⟩
      = ∑ p : Fin 8 × Fin 1024 × Fin 1024, G p.1 p.2.1 p.2.2 :=
    Fintype.sum_equiv Alg.flatEquiv _ _ (fun k => rfl)
  rw [h, Fintype.sum_prod_type]
  refine Finset.sum_congr rfl fun b _ => ?_
  rw [Fintype.sum_prod_type]

/-- The rows of an image are its upper 512 and its lower 512. -/
theorem sum_halves {M : Type} [AddCommMonoid M] (G : Fin 1024 → Fin 1024 → M) :
    (∑ r : Fin 512, ∑ c : Fin 1024, G ⟨r.val, by omega⟩ c) + (∑ r : Fin 512, ∑ c : Fin 1024, G ⟨512 + r.val, by omega⟩ c)
      = ∑ r : Fin 1024, ∑ c : Fin 1024, G r c := by
  have h := Fin.sum_univ_add (M := M) (a := 512) (b := 512) (fun r : Fin (512 + 512) => ∑ c : Fin 1024, G ⟨r.val, by omega⟩ c)
  exact h.symm

namespace Alg

/-! ## Multiplying a sum of non-positive extended reals -/

/-- Any extended real c distributes over a sum of two non-positive ones: with a = -a', b = -b' and
    a', b' ≥ 0 this is the distributivity of -c over a' + b'. -/
theorem mul_add_of_nonpos (c : EReal) {a b : EReal} (ha : a ≤ 0) (hb : b ≤ 0) :
    c * (a + b) = c * a + c * b := by
  have ha' : 0 ≤ -a := by rw [EReal.le_neg, neg_zero]; exact ha
  have hb' : 0 ≤ -b := by rw [EReal.le_neg, neg_zero]; exact hb
  have h := EReal.left_distrib_of_nonneg (c := -c) ha' hb'
  have hab : -a + -b = -(a + b) := by
    rw [EReal.neg_add (Or.inr (ne_top_of_le_ne_top EReal.zero_ne_top hb))
      (Or.inl (ne_top_of_le_ne_top EReal.zero_ne_top ha)), sub_eq_add_neg]
  rw [hab, neg_mul_neg, neg_mul_neg, neg_mul_neg] at h
  exact h

/-- A finite sum of non-positive extended reals is non-positive, and any c distributes over it. -/
theorem mul_sum_of_nonpos {ι : Type} (c : EReal) (s : Finset ι) (f : ι → EReal) (hf : ∀ i ∈ s, f i ≤ 0) :
    c * ∑ i ∈ s, f i = ∑ i ∈ s, c * f i := by
  classical
  induction s using Finset.induction_on with
  | empty => simp
  | insert a s ha ih =>
    rw [Finset.sum_insert ha, Finset.sum_insert ha,
      mul_add_of_nonpos c (hf a (Finset.mem_insert_self a s))
        (Finset.sum_nonpos fun i hi => hf i (Finset.mem_insert_of_mem hi)),
      ih fun i hi => hf i (Finset.mem_insert_of_mem hi)]

/-- The same over the triple sum of the pixels. -/
theorem mul_sum3_of_nonpos (c : EReal) (f : Fin 8 → Fin 1024 → Fin 1024 → EReal) (hf : ∀ b r c, f b r c ≤ 0) :
    c * ∑ b : Fin 8, ∑ r : Fin 1024, ∑ j : Fin 1024, f b r j
      = ∑ b : Fin 8, ∑ r : Fin 1024, ∑ j : Fin 1024, c * f b r j := by
  rw [mul_sum_of_nonpos c _ _ fun b _ => Finset.sum_nonpos fun r _ => Finset.sum_nonpos fun j _ => hf b r j]
  refine Finset.sum_congr rfl fun b _ => ?_
  rw [mul_sum_of_nonpos c _ _ fun r _ => Finset.sum_nonpos fun j _ => hf b r j]
  refine Finset.sum_congr rfl fun r _ => ?_
  rw [mul_sum_of_nonpos c _ _ fun j _ => hf b r j]

/-! ## The bin word -/

/-- A word clamped between 0 and 9 as a signed number is one of 0, …, 9. -/
theorem clamp_toNat_le (x : BitVec 32) : (IntOp.minsi 9#32 (IntOp.maxsi 0#32 x)).toNat ≤ 9 := by
  unfold IntOp.minsi IntOp.maxsi
  by_cases h0 : x.slt 0#32 = true
  · rw [if_pos h0]
    rw [if_neg (by decide)]
    decide
  · rw [if_neg h0]
    by_cases h9 : (9#32).slt x = true
    · rw [if_pos h9]; decide
    · rw [if_neg h9]
      simp only [BitVec.slt, decide_eq_true_eq, not_lt] at h0 h9
      have h0' : (0#32 : BitVec 32).toInt = 0 := by decide
      have h9' : (9#32 : BitVec 32).toInt = 9 := by decide
      rw [h0'] at h0
      rw [h9'] at h9
      have hx := BitVec.toInt_eq_toNat_cond x
      have hlt := x.isLt
      split at hx <;> omega

/-- For a word x among 0, …, 9 and a bin k, "x is the word of k" says the same as "x's index is k". -/
theorem ind_eq_ite (x : BitVec 32) (hx : x.toNat ≤ 9) (k : Fin 10) :
    ind x (BitVec.ofNat 32 k.val) = if binFin x = k then 1 else 0 := by
  unfold ind binFin
  have hk := k.isLt
  have hiff : x = BitVec.ofNat 32 k.val ↔ (⟨min x.toNat 9, by omega⟩ : Fin 10) = k := by
    constructor
    · intro h
      apply Fin.ext
      show min x.toNat 9 = k.val
      rw [h, BitVec.toNat_ofNat]
      omega
    · intro h
      have h' : min x.toNat 9 = k.val := congrArg Fin.val h
      apply BitVec.eq_of_toNat_eq
      rw [BitVec.toNat_ofNat]
      omega
  by_cases h : x = BitVec.ofNat 32 k.val
  · rw [if_pos h, if_pos (hiff.mp h)]
  · rw [if_neg h, if_neg (fun h' => h (hiff.mpr h'))]

/-! ## A pixel's log-probability is not positive -/

theorem coe_max_real (x y : ℝ) : max (x : EReal) (y : EReal) = ((max x y : ℝ) : EReal) :=
  (EReal.coe_strictMono.monotone.map_max).symm

theorem top3_coe (x0 x1 x2 : ℝ) : top3 (x0 : EReal) x1 x2 = ((max (max x0 x1) x2 : ℝ) : EReal) := by
  unfold top3
  rw [coe_max_real, coe_max_real]

theorem ex_coe (p m : ℝ) : ex (p : EReal) (m : EReal) = ((Real.exp (p - m) : ℝ) : EReal) := by
  unfold ex
  rw [← EReal.coe_sub, Ideal.exp_coe]

theorem pick_coe (t : BitVec 32) (x0 x1 x2 : ℝ) :
    pick t (x0 : EReal) (x1 : EReal) (x2 : EReal) = ((pick t x0 x1 x2 : ℝ) : EReal) := by
  unfold pick
  split_ifs <;> rfl

theorem pick_le_max (t : BitVec 32) (x0 x1 x2 : ℝ) : pick t x0 x1 x2 ≤ max (max x0 x1) x2 := by
  unfold pick
  split_ifs
  · exact le_trans (le_max_left _ _) (le_max_left _ _)
  · exact le_trans (le_max_right _ _) (le_max_left _ _)
  · exact le_max_right _ _

/-- With m the largest of x0 x1 x2, one of the three e^(x_i - m) is e^0 = 1 and the others are
    positive, so their sum is at least 1. -/
theorem one_le_den_real (x0 x1 x2 : ℝ) :
    1 ≤ Real.exp (x0 - max (max x0 x1) x2) + Real.exp (x1 - max (max x0 x1) x2)
          + Real.exp (x2 - max (max x0 x1) x2) := by
  have e0 := Real.exp_pos (x0 - max (max x0 x1) x2)
  have e1 := Real.exp_pos (x1 - max (max x0 x1) x2)
  have e2 := Real.exp_pos (x2 - max (max x0 x1) x2)
  rcases max_choice (max x0 x1) x2 with h | h
  · rcases max_choice x0 x1 with h' | h'
    · have : Real.exp (x0 - max (max x0 x1) x2) = 1 := by rw [h, h', sub_self, Real.exp_zero]
      linarith
    · have : Real.exp (x1 - max (max x0 x1) x2) = 1 := by rw [h, h', sub_self, Real.exp_zero]
      linarith
  · have : Real.exp (x2 - max (max x0 x1) x2) = 1 := by rw [h, sub_self, Real.exp_zero]
    linarith

/-- For real logits the log-probability is (x_t - m) - log Z with x_t ≤ m and Z ≥ 1: not positive. -/
theorem logp_nonpos (x0 x1 x2 : ℝ) (t : BitVec 32) : logp (x0 : EReal) x1 x2 t ≤ 0 := by
  unfold logp den
  rw [pick_coe, top3_coe, ex_coe, ex_coe, ex_coe, ← EReal.coe_add, ← EReal.coe_add, Ideal.log_coe]
  have hd := one_le_den_real x0 x1 x2
  rw [if_neg (by linarith), ← EReal.coe_sub, ← EReal.coe_sub, EReal.coe_nonpos]
  have hl := Real.log_nonneg hd
  have hp := pick_le_max t x0 x1 x2
  linarith

/-! ## The law -/

/-- The regrouping for any weights w, any bin words β among 0, …, 9 and any non-positive ℓ: push w_k
    inside bin k's sum (every term there is ℓ_p or 0, so non-positive), exchange the sum over the bins
    with the sums over the pixels, and at each pixel only the term of its own bin is left. -/
theorem regroup (w : Fin 10 → EReal) (β : Fin 8 → Fin 1024 → Fin 1024 → BitVec 32)
    (ℓ : Fin 8 → Fin 1024 → Fin 1024 → EReal) (hβ : ∀ b r c, (β b r c).toNat ≤ 9)
    (hℓ : ∀ b r c, ℓ b r c ≤ 0) :
    ∑ k : Fin 10, w k * ∑ b : Fin 8, ∑ r : Fin 1024, ∑ c : Fin 1024,
        ind (β b r c) (BitVec.ofNat 32 k.val) * ℓ b r c
      = ∑ b : Fin 8, ∑ r : Fin 1024, ∑ c : Fin 1024, w (binFin (β b r c)) * ℓ b r c := by
  have hterm : ∀ (k : Fin 10) b r c, ind (β b r c) (BitVec.ofNat 32 k.val) * ℓ b r c ≤ 0 := by
    intro k b r c
    rw [ind_eq_ite _ (hβ b r c)]
    split_ifs
    · rw [one_mul]; exact hℓ b r c
    · rw [zero_mul]
  rw [Finset.sum_congr rfl fun k _ => mul_sum3_of_nonpos (w k) _ (hterm k), Finset.sum_comm]
  refine Finset.sum_congr rfl fun b _ => ?_
  rw [Finset.sum_comm]
  refine Finset.sum_congr rfl fun r _ => ?_
  rw [Finset.sum_comm]
  refine Finset.sum_congr rfl fun c _ => ?_
  have hk : ∀ k : Fin 10, w k * (ind (β b r c) (BitVec.ofNat 32 k.val) * ℓ b r c)
      = if binFin (β b r c) = k then w k * ℓ b r c else 0 := by
    intro k
    rw [ind_eq_ite _ (hβ b r c)]
    split_ifs
    · rw [one_mul]
    · rw [zero_mul, mul_zero]
  rw [Finset.sum_congr rfl fun k _ => hk k, Finset.sum_ite_eq, if_pos (Finset.mem_univ _)]

end Alg

/-- Bin by bin or pixel by pixel, the loss is the same, when every logit is a real number. -/
theorem lossByBin_eq_lossByPixel (pred : SPred.Idx → EReal) (tgt : STgt.Idx → BitVec 32) (acc : SBins.Idx → EReal)
    (hfin : ∀ i, ∃ x : ℝ, pred i = (x : EReal)) :
    lossByBin pred tgt acc = lossByPixel pred tgt acc := by
  have hβ : ∀ b r c, (pBin pred tgt b r c).toNat ≤ 9 := by
    intro b r c
    unfold pBin gbin
    exact Alg.clamp_toNat_le _
  have hℓ : ∀ b r c, pLp pred tgt b r c ≤ 0 := by
    intro b r c
    obtain ⟨x0, h0⟩ := hfin (ix4 b (0 : Fin 3) r c)
    obtain ⟨x1, h1⟩ := hfin (ix4 b (1 : Fin 3) r c)
    obtain ⟨x2, h2⟩ := hfin (ix4 b (2 : Fin 3) r c)
    unfold pLp
    rw [h0, h1, h2]
    exact Alg.logp_nonpos x0 x1 x2 _
  unfold lossByBin lossByPixel lsum
  rw [Alg.regroup _ _ _ hβ hℓ]

end Cert.GHM

end
-- ==== Proof.KDefs.lean ====
/-
  The kernel's arithmetic as pure functions of what a grid point loads.

  A grid point (b, h) stages the 3 × 512 × 1024 block of logits and the 512 × 1024 block of labels of
  image b, rows 512·h … 512·h + 511. From the three logit planes and the labels the body computes every
  pixel's bin and log-probability, and adds to two carried rows of 128 lanes: lane k < 10 of the first
  row gains the number of the block's pixels in bin k, lane k of the second the sum of their
  log-probabilities; the other lanes gain zero. The rows start at zero at h = 0 and are written out at
  h = 1, so image b's output rows are two accumulation steps over a zero row.
-/
import proofs.«430611_j67164698575482_3_alg».proof.Proof.Gen.KernelIdeal.Skeleton
import Idealize.ShloMosaic.Lib.ValueIdx

noncomputable section

namespace Cert.KernelIdeal.KValue

open Cert.KernelIdeal Cert.KernelIdeal.Gen Idealize.ShloMosaic Idealize.ShloMosaic.ValueIdx

variable {F : FTy → Type} [FloatOps F]

/-! ## One block -/

section Block
variable (v3 v5 v7 : Vec F S1x1x512x1024 .f32) (v9 : Vec F S1x512x1024 .i32)

/-- Every pixel's bin word, from the block's three logit planes and its labels. -/
def blkBin : IVec S512x1024 32 :=
  k0_pay21 (k0_pay11 v9) (k0_pay13 v3 v5 v7) (k0_pay14 v3 v5 v7) (k0_pay15 v3 v5 v7) (k0_pay16 v3 v5 v7) (k0_pay19 v9) 1#32

/-- Every pixel's log-probability of its labelled class. -/
def blkLp : FVec F S512x1024 .f32 :=
  k0_pay20 (k0_pay12 v3 v5 v7) (k0_pay17 v3 v5 v7) (k0_pay18 v3 v5 v7 v9)

/-- The count row after this block: the row before plus, in lane k < 10, the number of the block's pixels in bin k. -/
def accCnt (prev : Vec F S1x128 .f32) : FVec F S1x128 .f32 :=
  k0_pay2
    (k0_pay23 (k0_pay11 v9) (k0_pay13 v3 v5 v7) (k0_pay14 v3 v5 v7) (k0_pay15 v3 v5 v7) (k0_pay16 v3 v5 v7) (k0_pay19 v9) 1#32)
    (k0_pay26 (k0_pay11 v9) (k0_pay13 v3 v5 v7) (k0_pay14 v3 v5 v7) (k0_pay15 v3 v5 v7) (k0_pay16 v3 v5 v7) (k0_pay19 v9) 1#32)
    (k0_pay30 (k0_pay29 (k0_pay11 v9) (k0_pay13 v3 v5 v7) (k0_pay14 v3 v5 v7) (k0_pay15 v3 v5 v7) (k0_pay16 v3 v5 v7) (k0_pay19 v9) 1#32))
    (k0_pay33 (blkBin v3 v5 v7 v9)) (k0_pay36 (blkBin v3 v5 v7 v9)) (k0_pay39 (blkBin v3 v5 v7 v9))
    (k0_pay43 (k0_pay41 (blkBin v3 v5 v7 v9)))
    (k0_pay46 (blkBin v3 v5 v7 v9)) (k0_pay49 (blkBin v3 v5 v7 v9)) (k0_pay52 (blkBin v3 v5 v7 v9)) prev

/-- The log-probability row after this block: the row before plus, in lane k < 10, the sum of the log-probabilities
    of the block's pixels in bin k. -/
def accLp (prev : Vec F S1x128 .f32) : FVec F S1x128 .f32 :=
  k0_pay3
    (k0_pay24 (k0_pay11 v9) (k0_pay12 v3 v5 v7) (k0_pay13 v3 v5 v7) (k0_pay14 v3 v5 v7) (k0_pay15 v3 v5 v7) (k0_pay16 v3 v5 v7) (k0_pay17 v3 v5 v7) (k0_pay18 v3 v5 v7 v9) (k0_pay19 v9) 1#32)
    (k0_pay27 (k0_pay11 v9) (k0_pay12 v3 v5 v7) (k0_pay13 v3 v5 v7) (k0_pay14 v3 v5 v7) (k0_pay15 v3 v5 v7) (k0_pay16 v3 v5 v7) (k0_pay17 v3 v5 v7) (k0_pay18 v3 v5 v7 v9) (k0_pay19 v9) 1#32)
    (k0_pay31 (blkLp v3 v5 v7 v9) (k0_pay28 (k0_pay11 v9) (k0_pay13 v3 v5 v7) (k0_pay14 v3 v5 v7) (k0_pay15 v3 v5 v7) (k0_pay16 v3 v5 v7) (k0_pay19 v9) 1#32))
    (k0_pay34 (blkLp v3 v5 v7 v9) (blkBin v3 v5 v7 v9)) (k0_pay37 (blkLp v3 v5 v7 v9) (blkBin v3 v5 v7 v9))
    (k0_pay40 (blkLp v3 v5 v7 v9) (blkBin v3 v5 v7 v9))
    (k0_pay44 (blkLp v3 v5 v7 v9) (k0_pay41 (blkBin v3 v5 v7 v9)))
    (k0_pay47 (blkLp v3 v5 v7 v9) (blkBin v3 v5 v7 v9)) (k0_pay50 (blkLp v3 v5 v7 v9) (blkBin v3 v5 v7 v9))
    (k0_pay53 (blkLp v3 v5 v7 v9) (blkBin v3 v5 v7 v9)) prev

end Block

/-! ## A staged block's planes, and an image's two steps -/

/-- Logit plane k of a staged 1 × 3 × 512 × 1024 block. -/
def plane (k : Fin 3) (x0 : Vec F S1x3x512x1024 .f32) : Vec F S1x1x512x1024 .f32 :=
  fun y => x0 (ix4 (0 : Fin 1) k (y 2) (y 3))

/-- One grid point's step on the count row and on the log-probability row, from its two staged blocks. -/
def stepCnt (x0 : Vec F S1x3x512x1024 .f32) (x1 : Vec F S1x512x1024 .i32) (prev : Vec F S1x128 .f32) : FVec F S1x128 .f32 :=
  accCnt (plane 0 x0) (plane 1 x0) (plane 2 x0) x1 prev

def stepLp (x0 : Vec F S1x3x512x1024 .f32) (x1 : Vec F S1x512x1024 .i32) (prev : Vec F S1x128 .f32) : FVec F S1x128 .f32 :=
  accLp (plane 0 x0) (plane 1 x0) (plane 2 x0) x1 prev

/-- What the second of an image's two grid points writes to the outputs: two steps over the zero row,
    re-laid as a 1 × 1 × 128 block. -/
def outCnt (xa0 : Vec F S1x3x512x1024 .f32) (xa1 : Vec F S1x512x1024 .i32) (xb0 : Vec F S1x3x512x1024 .f32) (xb1 : Vec F S1x512x1024 .i32) :
    FVec F S1x1x128 .f32 :=
  k0_pay4 (stepCnt xb0 xb1 (stepCnt xa0 xa1 (k0_pay6 (F := F))))

def outLp (xa0 : Vec F S1x3x512x1024 .f32) (xa1 : Vec F S1x512x1024 .i32) (xb0 : Vec F S1x3x512x1024 .f32) (xb1 : Vec F S1x512x1024 .i32) :
    FVec F S1x1x128 .f32 :=
  k0_pay5 (stepLp xb0 xb1 (stepLp xa0 xa1 (k0_pay7 (F := F))))

/-! ## The arrays' blocks and the two output arrays -/

/-- Block (b, h) of the logits and of the labels: image b, rows 512·h … 512·h + 511. -/
def predBlk (a0 : FVec F S8x3x1024x1024 .f32) (b : Fin 8) (h : Fin 2) : Vec F S1x3x512x1024 .f32 :=
  fun y => a0 (ix4 b (y 1) (⟨512 * h.val + (y 2).val, by have h2 : (y 2).val < 512 := (y 2).isLt; have := h.isLt; omega⟩ : Fin 1024) (y 3))

def tgtBlk (a1 : IVec S8x1024x1024 32) (b : Fin 8) (h : Fin 2) : Vec F S1x512x1024 .i32 :=
  fun y => a1 (ix3 b (⟨512 * h.val + (y 1).val, by have h1 : (y 1).val < 512 := (y 1).isLt; have := h.isLt; omega⟩ : Fin 1024) (y 2))

/-- The two output arrays after the region, as functions of the argument arrays: row b is image b's two steps. -/
def cntArr (a0 : FVec F S8x3x1024x1024 .f32) (a1 : IVec S8x1024x1024 32) : FVec F S8x1x128 .f32 :=
  fun j => outCnt (predBlk a0 (j 0) 0) (tgtBlk (F := F) a1 (j 0) 0) (predBlk a0 (j 0) 1) (tgtBlk (F := F) a1 (j 0) 1) (ix3 (0 : Fin 1) (0 : Fin 1) (j 2))

def lpArr (a0 : FVec F S8x3x1024x1024 .f32) (a1 : IVec S8x1024x1024 32) : FVec F S8x1x128 .f32 :=
  fun j => outLp (predBlk a0 (j 0) 0) (tgtBlk (F := F) a1 (j 0) 0) (predBlk a0 (j 0) 1) (tgtBlk (F := F) a1 (j 0) 1) (ix3 (0 : Fin 1) (0 : Fin 1) (j 2))

end Cert.KernelIdeal.KValue

end
-- ==== Proof.KPieces.lean ====
/-
  What the region leaves in the two output arrays: row b is image b's two accumulation steps over the zero row.

  The grid has 16 points t = 2·b + h: image b, half h. At an even point (h = 0) the two carried rows are set to
  zero and then stepped on the block of rows 0 … 511 of image b, so they end one step over the zero rows. At the
  odd point after it (h = 1) the rows are stepped on the block of rows 512 … 1023 and copied, re-laid as
  1 × 1 × 128, into the two output blocks, which are written back to row b of the two output arrays. Only the odd
  points write back, and the odd point 2·b + 1 writes exactly row b; so after the last point row b of each array
  holds two steps over the zero row, on image b's two blocks.
-/
import proofs.«430611_j67164698575482_3_alg».proof.Proof.Gen.KernelIdeal.Frame
import proofs.«430611_j67164698575482_3_alg».proof.Proof.KDefs
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

namespace Pieces

open Idealize.ShloMosaic.Tactic

/-! ## Loads through whole-buffer rectangles -/

/-- The offsets (0, 0) and (0, 0, 0) of a whole-buffer rectangle are the zero offsets. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load of the 1 × 1 × 512 × 1024 rectangle at offsets (0, 0, 0, 0) of a staged logits block reads its plane 0. -/
theorem ld_plane0 (x0 : Vec F S1x3x512x1024 .f32)
    (inb : ∀ a, (![0, 0, 0, 0] : Fin 4 → Nat) a + (![1, 1, 512, 1024] : Fin 4 → Nat) a ≤ S1x3x512x1024.size a) :
    View.ld (Val := Elt F) x0 (Rect.unit (s := S1x3x512x1024) ![0, 0, 0, 0] ![1, 1, 512, 1024] inb) = plane 0 x0 := by
  funext y
  show x0 _ = x0 _
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 0 + 1 * (y 3).val = (y 3).val; omega

/-- At offsets (0, 1, 0, 0) it reads plane 1. -/
theorem ld_plane1 (x0 : Vec F S1x3x512x1024 .f32)
    (inb : ∀ a, (![0, 1, 0, 0] : Fin 4 → Nat) a + (![1, 1, 512, 1024] : Fin 4 → Nat) a ≤ S1x3x512x1024.size a) :
    View.ld (Val := Elt F) x0 (Rect.unit (s := S1x3x512x1024) ![0, 1, 0, 0] ![1, 1, 512, 1024] inb) = plane 1 x0 := by
  funext y
  show x0 _ = x0 _
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show 1 + 1 * (y 1).val = 1; omega
  | ⟨2, _⟩ => show 0 + 1 * (y 2).val = (y 2).val; omega
  | ⟨3, _⟩ => show 0 + 1 * (y 3).val = (y 3).val; omega

/-- At offsets (0, 2, 0, 0) it reads plane 2. -/
theorem ld_plane2 (x0 : Vec F S1x3x512x1024 .f32)
    (inb : ∀ a, (![0, 2, 0, 0] : Fin 4 → Nat) a + (![1, 1, 512, 1024] : Fin 4 → Nat) a ≤ S1x3x512x1024.size a) :
    View.ld (Val := Elt F) x0 (Rect.unit (s := S1x3x512x1024) ![0, 2, 0, 0] ![1, 1, 512, 1024] inb) = plane 2 x0 := by
  funext y
  show x0 _ = x0 _
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show 2 + 1 * (y 1).val = 2; omega
  | ⟨2, _⟩ => show 0 + 1 * (y 2).val = (y 2).val; omega
  | ⟨3, _⟩ => show 0 + 1 * (y 3).val = (y 3).val; omega

/-! ## What each control case leaves, piece by piece -/

/-- At an image's second grid point the count row ends one step past what the first point left. -/
theorem sB0 (c : Dev nD) (i : grid0.Coords) (arg2 : Memref sig .tc .vmem S1x3x512x1024 .f32) (harg2 : arg2.IsWhole) (arg3 : Memref sig .tc .vmem S1x512x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x3x512x1024 .f32) (x1 : Vec F S1x512x1024 .i32) (xs0 : Vec F S1x128 .f32) (xs1 : Vec F S1x128 .f32) :
    sout0_B_0 c i arg2 harg2 arg3 harg3 arg4 harg4 arg5 harg5 arg6 harg6 arg7 harg7 hc0 hc1 x0 x1 xs0 xs1 = stepCnt x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  unfold stepCnt accCnt blkBin
  simp only [harg6.read_unread, View.readAt_eq_ld, harg2.read_unread, harg3.read_unread,
    View.ld_unit_zero (S := S1x128) hz2, View.ld_unit_zero (S := S1x512x1024) hz3, ld_plane0, ld_plane1, ld_plane2]

/-- And the log-probability row likewise. -/
theorem sB1 (c : Dev nD) (i : grid0.Coords) (arg2 : Memref sig .tc .vmem S1x3x512x1024 .f32) (harg2 : arg2.IsWhole) (arg3 : Memref sig .tc .vmem S1x512x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x3x512x1024 .f32) (x1 : Vec F S1x512x1024 .i32) (xs0 : Vec F S1x128 .f32) (xs1 : Vec F S1x128 .f32) :
    sout0_B_1 c i arg2 harg2 arg3 harg3 arg4 harg4 arg5 harg5 arg6 harg6 arg7 harg7 hc0 hc1 x0 x1 xs0 xs1 = stepLp x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  unfold stepLp accLp blkLp blkBin
  simp only [harg7.read_unread, View.readAt_eq_ld, harg2.read_unread, harg3.read_unread,
    View.ld_unit_zero (S := S1x128) hz2, View.ld_unit_zero (S := S1x512x1024) hz3, ld_plane0, ld_plane1, ld_plane2]

/-- The second point then copies the count row, re-laid as 1 × 1 × 128, to its output block. -/
theorem oB2 (c : Dev nD) (i : grid0.Coords) (arg2 : Memref sig .tc .vmem S1x3x512x1024 .f32) (harg2 : arg2.IsWhole) (arg3 : Memref sig .tc .vmem S1x512x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x3x512x1024 .f32) (x1 : Vec F S1x512x1024 .i32) (xs0 : Vec F S1x128 .f32) (xs1 : Vec F S1x128 .f32) :
    out0_B_2 c i arg2 harg2 arg3 harg3 arg4 harg4 arg5 harg5 arg6 harg6 arg7 harg7 hc0 hc1 x0 x1 xs0 xs1 = k0_pay4 (stepCnt x0 x1 xs0) := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  unfold stepCnt accCnt blkBin
  simp only [View.readCov_unit_zero (S := S1x128) _ hz2, harg6.read_unread, View.readAt_eq_ld, harg2.read_unread, harg3.read_unread,
    View.ld_unit_zero (S := S1x128) hz2, View.ld_unit_zero (S := S1x512x1024) hz3, ld_plane0, ld_plane1, ld_plane2]

/-- And the log-probability row to the other output block. -/
theorem oB3 (c : Dev nD) (i : grid0.Coords) (arg2 : Memref sig .tc .vmem S1x3x512x1024 .f32) (harg2 : arg2.IsWhole) (arg3 : Memref sig .tc .vmem S1x512x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x3x512x1024 .f32) (x1 : Vec F S1x512x1024 .i32) (xs0 : Vec F S1x128 .f32) (xs1 : Vec F S1x128 .f32) :
    out0_B_3 c i arg2 harg2 arg3 harg3 arg4 harg4 arg5 harg5 arg6 harg6 arg7 harg7 hc0 hc1 x0 x1 xs0 xs1 = k0_pay5 (stepLp x0 x1 xs1) := by
  unfold out0_B_3
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  unfold stepLp accLp blkLp blkBin
  simp only [View.readCov_unit_zero (S := S1x128) _ hz2, harg7.read_unread, View.readAt_eq_ld, harg2.read_unread, harg3.read_unread,
    View.ld_unit_zero (S := S1x128) hz2, View.ld_unit_zero (S := S1x512x1024) hz3, ld_plane0, ld_plane1, ld_plane2]

/-- At an image's first grid point the count row is zeroed and then stepped: one step over the zero row. -/
theorem sA0 (c : Dev nD) (i : grid0.Coords) (arg2 : Memref sig .tc .vmem S1x3x512x1024 .f32) (harg2 : arg2.IsWhole) (arg3 : Memref sig .tc .vmem S1x512x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i)
    (x0 : Vec F S1x3x512x1024 .f32) (x1 : Vec F S1x512x1024 .i32) :
    sout0_A_0 c i arg2 harg2 arg3 harg3 arg4 harg4 arg5 harg5 arg6 harg6 arg7 harg7 hc0 hc1 x0 x1 = stepCnt x0 x1 (k0_pay6 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x128) hz2]
  unfold stepCnt accCnt blkBin
  simp only [View.readCov_unit_zero (S := S1x128) _ hz2, View.readAt_eq_ld, harg2.read_unread, harg3.read_unread,
    View.ld_unit_zero (S := S1x128) hz2, View.ld_unit_zero (S := S1x512x1024) hz3, ld_plane0, ld_plane1, ld_plane2]

/-- And the log-probability row likewise. -/
theorem sA1 (c : Dev nD) (i : grid0.Coords) (arg2 : Memref sig .tc .vmem S1x3x512x1024 .f32) (harg2 : arg2.IsWhole) (arg3 : Memref sig .tc .vmem S1x512x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i)
    (x0 : Vec F S1x3x512x1024 .f32) (x1 : Vec F S1x512x1024 .i32) :
    sout0_A_1 c i arg2 harg2 arg3 harg3 arg4 harg4 arg5 harg5 arg6 harg6 arg7 harg7 hc0 hc1 x0 x1 = stepLp x0 x1 (k0_pay7 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x128) hz2]
  unfold stepLp accLp blkLp blkBin
  simp only [View.readCov_unit_zero (S := S1x128) _ hz2, View.readAt_eq_ld, harg2.read_unread, harg3.read_unread,
    View.ld_unit_zero (S := S1x128) hz2, View.ld_unit_zero (S := S1x512x1024) hz3, ld_plane0, ld_plane1, ld_plane2]

/-! ## The carried rows and the output blocks after each grid point -/

/-- After an even grid point each carried row is one step over its zero row. -/
theorem rows_even (c : Dev nD) (n : ℕ) (hn : n < cfg0.N) (h0 : n % 2 = 0)
    (X0 : Vec F S1x3x512x1024 .f32) (X1 : Vec F S1x512x1024 .i32)
    (e0 : iblk m c 0 ⟨n, hn⟩ = X0) (e1 : iblk m c 1 ⟨n, hn⟩ = X1) :
    (outsAt0 m c n hn).2.2.1 = stepCnt X0 X1 (k0_pay6 (F := F))
    ∧ (outsAt0 m c n hn).2.2.2 = stepLp X0 X1 (k0_pay7 (F := F)) := by
  subst e0 e1
  have h1 : ¬n % 2 = 1 := by omega
  rw [outsAt0_A m c ⟨n, hn⟩ h0 h1]
  dsimp only
  exact ⟨sA0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩),
    sA1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩)⟩

/-- After an odd grid point the two output blocks hold two steps over the zero rows: the even point before it
    made the first step, this point the second. -/
theorem outs_odd (c : Dev nD) (n : ℕ) (hn : n < cfg0.N) (h1 : n % 2 = 1)
    (XA0 XB0 : Vec F S1x3x512x1024 .f32) (XA1 XB1 : Vec F S1x512x1024 .i32)
    (ea0 : iblk m c 0 ⟨n - 1, (Nat.lt_of_le_of_lt (Nat.sub_le _ _) hn)⟩ = XA0) (ea1 : iblk m c 1 ⟨n - 1, (Nat.lt_of_le_of_lt (Nat.sub_le _ _) hn)⟩ = XA1)
    (eb0 : iblk m c 0 ⟨n, hn⟩ = XB0) (eb1 : iblk m c 1 ⟨n, hn⟩ = XB1) :
    (outsAt0 m c n hn).1 = outCnt XA0 XA1 XB0 XB1 ∧ (outsAt0 m c n hn).2.1 = outLp XA0 XA1 XB0 XB1 := by
  subst eb0 eb1
  have h0 : ¬n % 2 = 0 := by omega
  obtain ⟨ra, rb⟩ := rows_even m c (n - 1) (Nat.lt_of_le_of_lt (Nat.sub_le _ _) hn) (by omega) XA0 XA1 ea0 ea1
  rw [outsAt0_B m c ⟨n, hn⟩ h0 h1]
  dsimp only
  constructor
  · refine (oB2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (iblk m c 1 ⟨n, hn⟩)
      (outsAt0 m c (n - 1) (Nat.lt_of_le_of_lt (Nat.sub_le _ _) hn)).2.2.1 (outsAt0 m c (n - 1) (Nat.lt_of_le_of_lt (Nat.sub_le _ _) hn)).2.2.2).trans ?_
    unfold outCnt
    rw [ra]
  · refine (oB3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (iblk m c 1 ⟨n, hn⟩)
      (outsAt0 m c (n - 1) (Nat.lt_of_le_of_lt (Nat.sub_le _ _) hn)).2.2.1 (outsAt0 m c (n - 1) (Nat.lt_of_le_of_lt (Nat.sub_le _ _) hn)).2.2.2).trans ?_
    unfold outLp
    rw [rb]

/-! ## The windows' blocks read off their arrays -/

/-- The block indices at grid point t = 2·b + h: the logits window is at (b, 0, h, 0), the labels window at
    (b, h, 0), both output windows at (b, 0, 0). -/
theorem index_facts : ∀ t : Fin cfg0.N,
    (win0_0.index t (0 : Fin 4) = t.val / 2 ∧ win0_0.index t (1 : Fin 4) = 0 ∧ win0_0.index t (2 : Fin 4) = t.val % 2 ∧ win0_0.index t (3 : Fin 4) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0) :=
  (by decide +kernel : ∀ t : Fin grid0.N, _)

/-- The logits block staged at point 2·b + h is image b's rows 512·h … 512·h + 511. -/
theorem pred_block (c : Dev nD) (t : Fin cfg0.N) (b : Fin 8) (h : Fin 2) (ht : t.val = 2 * b.val + h.val) :
    iblk m c 0 t = predBlk (V m c main_arg0) b h := by
  obtain ⟨⟨i0, i1, i2, i3⟩, -⟩ := index_facts t
  funext y
  unfold iblk
  rw [View.read_apply]
  show V m c main_arg0 _ = V m c main_arg0 _
  congr 1
  funext a
  apply Fin.ext
  have hy0 : (y 0).val < 1 := (y 0).isLt
  have hh : h.val < 2 := h.isLt
  match a with
  | ⟨0, _⟩ => show win0_0.index t (0 : Fin 4) * 1 + 1 * (y 0).val = b.val; omega
  | ⟨1, _⟩ => show win0_0.index t (1 : Fin 4) * 3 + 1 * (y 1).val = (y 1).val; omega
  | ⟨2, _⟩ => show win0_0.index t (2 : Fin 4) * 512 + 1 * (y 2).val = 512 * h.val + (y 2).val; omega
  | ⟨3, _⟩ => show win0_0.index t (3 : Fin 4) * 1024 + 1 * (y 3).val = (y 3).val; omega

/-- The labels block staged there is the same rows of image b's labels. -/
theorem tgt_block (c : Dev nD) (t : Fin cfg0.N) (b : Fin 8) (h : Fin 2) (ht : t.val = 2 * b.val + h.val) :
    iblk m c 1 t = tgtBlk (F := F) (V m c main_arg1) b h := by
  obtain ⟨-, ⟨i0, i1, i2⟩, -⟩ := index_facts t
  funext y
  unfold iblk
  rw [View.read_apply]
  show V m c main_arg1 _ = V m c main_arg1 _
  congr 1
  funext a
  apply Fin.ext
  have hy0 : (y 0).val < 1 := (y 0).isLt
  have hh : h.val < 2 := h.isLt
  match a with
  | ⟨0, _⟩ => show win0_1.index t (0 : Fin 3) * 1 + 1 * (y 0).val = b.val; omega
  | ⟨1, _⟩ => show win0_1.index t (1 : Fin 3) * 512 + 1 * (y 1).val = 512 * h.val + (y 1).val; omega
  | ⟨2, _⟩ => show win0_1.index t (2 : Fin 3) * 1024 + 1 * (y 2).val = (y 2).val; omega

/-! ## Row b of the output arrays -/

/-- An index of a 1 × 1 × 128 block is determined by its lane. -/
theorem lane_index (y : S1x1x128.Idx) (l : Fin 128) (hl : (y 2).val = l.val) : y = ix3 (0 : Fin 1) (0 : Fin 1) l := by
  have h0 : (y 0).val < 1 := (y 0).isLt
  have h1 : (y 1).val < 1 := (y 1).isLt
  funext a
  apply Fin.ext
  match a with
  | ⟨0, _⟩ => show (y 0).val = 0; omega
  | ⟨1, _⟩ => show (y 1).val = 0; omega
  | ⟨2, _⟩ => exact hl

/-- Row b of the count array, at lane l, is image b's two steps at lane l. -/
theorem cntArr_row (a0 : FVec F S8x3x1024x1024 .f32) (a1 : IVec S8x1024x1024 32) (b : Fin 8) (j : S8x1x128.Idx) (y : S1x1x128.Idx)
    (h0 : (j 0).val = b.val) (h2 : (y 2).val = (j 2).val) :
    cntArr a0 a1 j = outCnt (predBlk a0 b 0) (tgtBlk (F := F) a1 b 0) (predBlk a0 b 1) (tgtBlk (F := F) a1 b 1) y := by
  have e0 : j 0 = b := Fin.ext h0
  rw [lane_index y (j 2) h2]
  unfold cntArr
  rw [e0]

/-- Row b of the log-probability array likewise. -/
theorem lpArr_row (a0 : FVec F S8x3x1024x1024 .f32) (a1 : IVec S8x1024x1024 32) (b : Fin 8) (j : S8x1x128.Idx) (y : S1x1x128.Idx)
    (h0 : (j 0).val = b.val) (h2 : (y 2).val = (j 2).val) :
    lpArr a0 a1 j = outLp (predBlk a0 b 0) (tgtBlk (F := F) a1 b 0) (predBlk a0 b 1) (tgtBlk (F := F) a1 b 1) y := by
  have e0 : j 0 = b := Fin.ext h0
  rw [lane_index y (j 2) h2]
  unfold lpArr
  rw [e0]

/-! ## What the write-backs write, and the arrays they leave -/

/-- The count window's write-back at the odd point 2·b + 1 writes row b of the count array: two steps over the zero row, on image b's two blocks. -/
theorem flushed_cnt (c : Dev nD) (t : Fin cfg0.N) (hf : (cfg0.win 2).flush t = true) :
    (dats m 0 c).flushed 2 t = ((cfg0.win 2).blk t).view.read (Elt F) (cntArr (V m c main_arg0) (V m c main_arg1)) := by
  have h1 : t.val % 2 = 1 := (flush0_2 t).mp hf
  have hlt : t.val < 16 := lt_of_lt_of_eq t.isLt (show cfg0.N = 16 from N_0)
  obtain ⟨-, -, ⟨j0, j1, j2⟩, ⟨k0, k1, k2⟩⟩ := index_facts t
  have hb : t.val / 2 < 8 := by omega
  show (cfg0.win 2).cut (grid0.coords t) ((dats m 0 c).after 2 t) = _
  rw [after0_2, (outs_odd m c t.val t.isLt h1 _ _ _ _
      (pred_block m c ⟨t.val - 1, Nat.lt_of_le_of_lt (Nat.sub_le _ _) t.isLt⟩ ⟨t.val / 2, hb⟩ 0 (by show t.val - 1 = 2 * (t.val / 2) + 0; omega))
      (tgt_block m c ⟨t.val - 1, Nat.lt_of_le_of_lt (Nat.sub_le _ _) t.isLt⟩ ⟨t.val / 2, hb⟩ 0 (by show t.val - 1 = 2 * (t.val / 2) + 0; omega))
      (pred_block m c t ⟨t.val / 2, hb⟩ 1 (by show t.val = 2 * (t.val / 2) + 1; omega))
      (tgt_block m c t ⟨t.val / 2, hb⟩ 1 (by show t.val = 2 * (t.val / 2) + 1; omega))).1]
  funext y
  rw [View.read_apply]
  show outCnt _ _ _ _ _ = cntArr _ _ _
  have hy0 : (y 0).val < 1 := (y 0).isLt
  refine (cntArr_row (V m c main_arg0) (V m c main_arg1) ⟨t.val / 2, hb⟩ _ _ ?_ ?_).symm
  · show win0_2.index t (0 : Fin 3) * 1 + 1 * (y 0).val = t.val / 2; omega
  · show (y 2).val = win0_2.index t (2 : Fin 3) * 128 + 1 * (y 2).val; omega

/-- The log-probability window's write-back at the odd point 2·b + 1 writes row b of the log-probability array. -/
theorem flushed_lp (c : Dev nD) (t : Fin cfg0.N) (hf : (cfg0.win 3).flush t = true) :
    (dats m 0 c).flushed 3 t = ((cfg0.win 3).blk t).view.read (Elt F) (lpArr (V m c main_arg0) (V m c main_arg1)) := by
  have h1 : t.val % 2 = 1 := (flush0_3 t).mp hf
  have hlt : t.val < 16 := lt_of_lt_of_eq t.isLt (show cfg0.N = 16 from N_0)
  obtain ⟨-, -, ⟨j0, j1, j2⟩, ⟨k0, k1, k2⟩⟩ := index_facts t
  have hb : t.val / 2 < 8 := by omega
  show (cfg0.win 3).cut (grid0.coords t) ((dats m 0 c).after 3 t) = _
  rw [after0_3, (outs_odd m c t.val t.isLt h1 _ _ _ _
      (pred_block m c ⟨t.val - 1, Nat.lt_of_le_of_lt (Nat.sub_le _ _) t.isLt⟩ ⟨t.val / 2, hb⟩ 0 (by show t.val - 1 = 2 * (t.val / 2) + 0; omega))
      (tgt_block m c ⟨t.val - 1, Nat.lt_of_le_of_lt (Nat.sub_le _ _) t.isLt⟩ ⟨t.val / 2, hb⟩ 0 (by show t.val - 1 = 2 * (t.val / 2) + 0; omega))
      (pred_block m c t ⟨t.val / 2, hb⟩ 1 (by show t.val = 2 * (t.val / 2) + 1; omega))
      (tgt_block m c t ⟨t.val / 2, hb⟩ 1 (by show t.val = 2 * (t.val / 2) + 1; omega))).2]
  funext y
  rw [View.read_apply]
  show outLp _ _ _ _ _ = lpArr _ _ _
  have hy0 : (y 0).val < 1 := (y 0).isLt
  refine (lpArr_row (V m c main_arg0) (V m c main_arg1) ⟨t.val / 2, hb⟩ _ _ ?_ ?_).symm
  · show win0_3.index t (0 : Fin 3) * 1 + 1 * (y 0).val = t.val / 2; omega
  · show (y 2).val = win0_3.index t (2 : Fin 3) * 128 + 1 * (y 2).val; omega

/-- Row b of the count array lies in the block the point 2·b + 1 writes back. -/
theorem cover_cnt (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 16 := N_0
  have h0 : (i 0 : Nat) < 8 := (i 0).isLt
  have h1 : (i 1 : Nat) < 1 := (i 1).isLt
  have h2 : (i 2 : Nat) < 128 := (i 2).isLt
  obtain ⟨t, ht⟩ : ∃ t : Fin cfg0.N, t.val = 2 * (i 0 : Nat) + 1 := ⟨⟨2 * (i 0 : Nat) + 1, by omega⟩, rfl⟩
  obtain ⟨-, -, ⟨j0, j1, j2⟩, ⟨k0, k1, k2⟩⟩ := index_facts t
  refine ⟨t, (flush0_2 t).mpr (by omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0 : Nat) ∧ (i 0 : Nat) < win0_2.index t (0 : Fin 3) * 1 + 1; omega
  | ⟨1, _⟩ => show win0_2.index t (1 : Fin 3) * 1 ≤ (i 1 : Nat) ∧ (i 1 : Nat) < win0_2.index t (1 : Fin 3) * 1 + 1; omega
  | ⟨2, _⟩ => show win0_2.index t (2 : Fin 3) * 128 ≤ (i 2 : Nat) ∧ (i 2 : Nat) < win0_2.index t (2 : Fin 3) * 128 + 128; omega

/-- Row b of the log-probability array lies in the block the point 2·b + 1 writes back. -/
theorem cover_lp (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 16 := N_0
  have h0 : (i 0 : Nat) < 8 := (i 0).isLt
  have h1 : (i 1 : Nat) < 1 := (i 1).isLt
  have h2 : (i 2 : Nat) < 128 := (i 2).isLt
  obtain ⟨t, ht⟩ : ∃ t : Fin cfg0.N, t.val = 2 * (i 0 : Nat) + 1 := ⟨⟨2 * (i 0 : Nat) + 1, by omega⟩, rfl⟩
  obtain ⟨-, -, ⟨j0, j1, j2⟩, ⟨k0, k1, k2⟩⟩ := index_facts t
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t (0 : Fin 3) * 1 ≤ (i 0 : Nat) ∧ (i 0 : Nat) < win0_3.index t (0 : Fin 3) * 1 + 1; omega
  | ⟨1, _⟩ => show win0_3.index t (1 : Fin 3) * 1 ≤ (i 1 : Nat) ∧ (i 1 : Nat) < win0_3.index t (1 : Fin 3) * 1 + 1; omega
  | ⟨2, _⟩ => show win0_3.index t (2 : Fin 3) * 128 ≤ (i 2 : Nat) ∧ (i 2 : Nat) < win0_3.index t (2 : Fin 3) * 128 + 128; omega

end Pieces

/-- The two output arrays after the last grid point, as functions of the argument arrays. -/
theorem arrays (c : Dev nD) :
    (dats m 0 c).arrAt 2 cfg0.N = cntArr (V m c main_arg0) (V m c main_arg1)
    ∧ (dats m 0 c).arrAt 3 cfg0.N = lpArr (V m c main_arg0) (V m c main_arg1) :=
  ⟨(dats m 0 c).arrAt_eq_of_cover 2 (cntArr (V m c main_arg0) (V m c main_arg1)) (Pieces.flushed_cnt m c) (Pieces.cover_cnt c),
    (dats m 0 c).arrAt_eq_of_cover 3 (lpArr (V m c main_arg0) (V m c main_arg1)) (Pieces.flushed_lp m c) (Pieces.cover_lp c)⟩

end Cert.KernelIdeal.KValue

end
-- ==== Proof.KTail.lean ====
/-
  The host lines after the region: from the two output arrays and the running table to the loss.
-/
import proofs.«430611_j67164698575482_3_alg».proof.Proof.Gen.KernelIdeal.Frame
import proofs.«430611_j67164698575482_3_alg».proof.Proof.Spec
import Idealize.ShloMosaic.Lib.StableHlo.Run
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.SL.Sem Idealize.ShloMosaic.ValueIdx

variable {F : FTy → Type} [FloatOps F]

/-- The per-bin totals of an output array: its first ten lanes added over the eight images. -/
def binSums (A : FVec F S8x1x128 .f32) : FVec F S10 .f32 :=
  Host.reduceAdd
    (fun i => shapeCast S8x10 (extractStridedSlice S8x1x10 ![0, 0, 0] A slices_S8x1x128_S8x1x10_0_0_0) shapeCasts_S8x1x10_S8x10 i)
    (constant (F := F) S_ .f32 0x00000000#32) reducesTo_S8x10_S10_d0 h_S_

/-- Which bins are not empty: count > 0, lane by lane. -/
def neK (n : FVec F S10 .f32) : IVec S10 1 :=
  cmpf .ogt n (broadcastInDim S10 ![] bcast_S_S10 (constant (F := F) S_ .f32 0x00000000#32))

/-- The running table's new entries: 3/4 of the old ones plus 1/4 of the counts. -/
def newAccK (n acc : FVec F S10 .f32) : FVec F S10 .f32 :=
  addf (mulf (broadcastInDim S10 ![] bcast_S_S10 (constant (F := F) S_ .f32 0x3F400000#32)) acc)
       (mulf (broadcastInDim S10 ![] bcast_S_S10 (constant (F := F) S_ .f32 0x3E800000#32)) n)

/-- The raw weights: for a non-empty bin one over its new table entry, else zero. -/
def rawK (n acc : FVec F S10 .f32) : FVec F S10 .f32 :=
  select (neK n)
    (Host.divf (broadcastInDim S10 ![] bcast_S_S10 (constant (F := F) S_ .f32 0x3F800000#32))
      (select (neK n) (select (neK n) (newAccK n acc) acc)
        (broadcastInDim S10 ![] bcast_S_S10 (constant (F := F) S_ .f32 0x3F800000#32))))
    (broadcastInDim S10 ![] bcast_S_S10 (constant (F := F) S_ .f32 0x00000000#32))

/-- The number of non-empty bins, as a float. -/
def nBinsK (n : FVec F S10 .f32) : FVec F S_ .f32 :=
  Host.reduceAdd (uitofp (F := F) .f32 (neK n)) (constant (F := F) S_ .f32 0x00000000#32) reducesTo_S10_S_d0 h_S_

/-- The weights: the raw weights over the number of non-empty bins (left as they are when there is none). -/
def wtK (n acc : FVec F S10 .f32) : FVec F S10 .f32 :=
  select (broadcastInDim S10 ![] bcast_S_S10 (cmpf .ogt (nBinsK n) (constant (F := F) S_ .f32 0x00000000#32)))
    (Host.divf (rawK n acc)
      (broadcastInDim S10 ![] bcast_S_S10 (maximumf (nBinsK n) (constant (F := F) S_ .f32 0x3F800000#32))))
    (rawK n acc)

/-- The host lines after the region as one function of the two output arrays and the running table. -/
def tailK (cntA lpA : FVec F S8x1x128 .f32) (acc : FVec F S10 .f32) : FVec F S_ .f32 :=
  Host.negf (Host.reduceAdd (mulf (wtK (binSums cntA) acc) (binSums lpA))
    (constant (F := F) S_ .f32 0x00000000#32) reducesTo_S10_S_d0 h_S_)

variable (m : (ℓ : Loc nD τ sig) → Buf (Elt F) ℓ) (ρ : Dev nD → PrngReg)

/-- What the host lines leave in the result buffer: the tail of what the region left in its two output arrays. -/
theorem tail_v28 (c : Dev nD) :
    Pipeline.afterTail₀ cfgs (dats m) 0 (V0 m) [hostOps1, hostOps1_1, hostOps1_2, hostOps1_3, hostOps1_4, hostOps1_5, hostOps1_6, hostOps1_7, hostOps1_8] c main_v28
      = tailK ((dats m 0 c).arrAt 2 cfg0.N) ((dats m 0 c).arrAt 3 cfg0.N) (m ((c.tc : Thread nD τ).loc main_arg2)) := by
  unfold Pipeline.afterTail₀
  show StableHlo.after (List.flatten [hostOps1, hostOps1_1, hostOps1_2, hostOps1_3, hostOps1_4, hostOps1_5, hostOps1_6, hostOps1_7, hostOps1_8]) _ (Proc.devRef .tc main_v28) = _
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have ea : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  generalize Pipeline.withArrays (cfgs 0).spec c (V0 m c) (fun w => (dats m 0 c).arrAt w (cfgs 0).N) = W at e2 e3 ea ⊢
  simp only [Gen.hostOps1, Gen.hostOps1_1, Gen.hostOps1_2, Gen.hostOps1_3, Gen.hostOps1_4, Gen.hostOps1_5, Gen.hostOps1_6, Gen.hostOps1_7, Gen.hostOps1_8, List.flatten_cons, List.flatten_nil, List.append_nil, List.cons_append, List.nil_append]
  open StableHlo in after_results_simp
  rw [e2, e3, ea]
  rfl

/-- The whole run: the result buffer ends at the tail of what the region left in its two output arrays. -/
theorem run_tail :
    θ_run defs (onTc (τ := τ) (main (F := F))) ⟨m, fun _ => 0, ρ⟩ (fun r => ∀ c : Dev nD,
      r.2.mem ((c.tc : Thread nD τ).loc main_v28)
          = tailK ((dats m 0 c).arrAt 2 cfg0.N) ((dats m 0 c).arrAt 3 cfg0.N) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v28 (Pipeline.mem_restRefs_of main_v28 (by decide) (by decide))).trans (tail_v28 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

section AtIdeal

open scoped BigOperators

/-- Lane k of the per-bin totals is the array's lane k added over the eight images. -/
theorem binSums_ideal (A : FVec Ideal S8x1x128 .f32) (k : Fin 10) :
    binSums A (ix1 k) = ∑ b : Fin 8, A (ix3 b (0 : Fin 1) (⟨k.val, by omega⟩ : Fin 128)) := by
  unfold binSums
  show Ideal.hostReduceAdd reducesTo_S8x10_S10_d0 _ (Ideal.ofBits .f32 0x00000000#32) (ix1 k) = _
  rw [Ideal.hostReduceAdd_single reducesTo_S8x10_S10_d0 (by decide), Ideal.ofBits_zero_f32, zero_add]
  show ∑ b : Fin 8, _ = _
  refine Finset.sum_congr rfl fun b _ => ?_
  refine (shapeCast_apply _ _ _ (ix3 b (0 : Fin 1) k) ?_).trans ?_
  · rw [Shape.rowMajor_val_three, Shape.rowMajor_val_two]
    show (b.val * 1 + 0) * 10 + k.val = b.val * 10 + k.val
    omega
  · refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm

/-- A sum over the indices of the ten-bin shape is the sum over the ten bins. -/
theorem sum_bins {M : Type} [AddCommMonoid M] (f : S10.Idx → M) : ∑ i, f i = ∑ k : Fin 10, f (ix1 k) :=
  (Equiv.sum_comp (⟨fun i => i 0, ix1, fun i => (eq_ix1 i).symm, fun _ => rfl⟩ : S10.Idx ≃ Fin 10).symm f).symm

/-- "Not empty" in lane k is the count's comparison with zero. -/
theorem neK_ideal (n : FVec Ideal S10 .f32) (k : Fin 10) : neK n (ix1 k) = Cert.GHM.nonempty (n (ix1 k)) := by
  show Ideal.cmp .ogt (n (ix1 k)) (Ideal.ofBits .f32 0x00000000#32) = Ideal.cmp .ogt (n (ix1 k)) 0
  rw [Ideal.ofBits_zero_f32]

/-- The raw weight in lane k. -/
theorem rawK_ideal (n acc : FVec Ideal S10 .f32) (k : Fin 10) :
    rawK n acc (ix1 k) = Cert.GHM.rawW (n (ix1 k)) (acc (ix1 k)) := by
  show Scalar.select (neK n (ix1 k))
      (Ideal.div Cert.GHM.one (Scalar.select (neK n (ix1 k))
        (Scalar.select (neK n (ix1 k)) (Cert.GHM.newAcc (n (ix1 k)) (acc (ix1 k))) (acc (ix1 k))) Cert.GHM.one))
      (Ideal.ofBits .f32 0x00000000#32) = _
  rw [neK_ideal, Ideal.ofBits_zero_f32]
  rfl

/-- The number of non-empty bins: the indicators added over the ten lanes. -/
theorem nBinsK_ideal (n : FVec Ideal S10 .f32) (j : S_.Idx) :
    nBinsK n j = Cert.GHM.nBins (fun k => n (ix1 k)) := by
  unfold nBinsK
  show Ideal.hostReduceAdd reducesTo_S10_S_d0 _ (Ideal.ofBits .f32 0x00000000#32) j = _
  rw [Ideal.hostReduceAdd_total reducesTo_S10_S_d0 (fun b => b.elim0), Ideal.ofBits_zero_f32, zero_add, sum_bins]
  unfold Cert.GHM.nBins
  refine Finset.sum_congr rfl fun k _ => ?_
  show FloatOps.uitofp (F := Ideal) .f32 (neK n (ix1 k)) = _
  rw [neK_ideal]

/-- The weight in lane k. -/
theorem wtK_ideal (n acc : FVec Ideal S10 .f32) (k : Fin 10) :
    wtK n acc (ix1 k) = Cert.GHM.wt (fun k' => n (ix1 k')) (fun j => acc (ix1 j)) k := by
  show Scalar.select (Ideal.cmp .ogt (nBinsK n _) (Ideal.ofBits .f32 0x00000000#32))
      (Ideal.div (rawK n acc (ix1 k)) (max (nBinsK n _) Cert.GHM.one)) (rawK n acc (ix1 k)) = _
  simp only [nBinsK_ideal, rawK_ideal, Ideal.ofBits_zero_f32]
  rfl

end AtIdeal

/-- At the exact values the tail is minus the sum over the ten bins of the bin's weight times its log-probability sum,
    counts and sums being the arrays' lanes added over the eight images. -/
theorem tailK_ideal (cntA lpA : FVec Ideal S8x1x128 .f32) (acc : FVec Ideal S10 .f32) :
    tailK (F := Ideal) cntA lpA acc = fun _ =>
      -(∑ k : Fin 10, Cert.GHM.wt (fun k' : Fin 10 => ∑ b : Fin 8, cntA (ix3 b (0 : Fin 1) (⟨k'.val, by omega⟩ : Fin 128)))
            (fun j => acc (ix1 j)) k * ∑ b : Fin 8, lpA (ix3 b (0 : Fin 1) (⟨k.val, by omega⟩ : Fin 128))) := by
  funext i
  unfold tailK
  show -(Ideal.hostReduceAdd reducesTo_S10_S_d0 _ (Ideal.ofBits .f32 0x00000000#32) i) = _
  rw [Ideal.hostReduceAdd_total reducesTo_S10_S_d0 (fun b => b.elim0), Ideal.ofBits_zero_f32, zero_add, sum_bins]
  refine congrArg Neg.neg (Finset.sum_congr rfl fun k _ => ?_)
  show wtK (binSums cntA) acc (ix1 k) * binSums lpA (ix1 k) = _
  rw [wtK_ideal, binSums_ideal,
    show (fun k' : Fin 10 => binSums cntA (ix1 k')) = fun k' : Fin 10 => ∑ b : Fin 8, cntA (ix3 b (0 : Fin 1) (⟨k'.val, by omega⟩ : Fin 128))
      from funext fun k' => binSums_ideal cntA k']

end Cert.KernelIdeal.KValue

end
-- ==== Proof.KRows.lean ====
/-
  The kernel's rows read lane by lane at the exact values: lane k < 10 of the count row gains the number of the
  block's pixels in bin k, lane k of the log-probability row the sum of their log-probabilities; summed over an
  image's two blocks and over the eight images these are the specification's counts and sums.
-/
import proofs.«430611_j67164698575482_3_alg».proof.Proof.KDefs
import proofs.«430611_j67164698575482_3_alg».proof.Proof.Algebra
import Idealize.ShloMosaic.PureOps.Ideal.Laws
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.ValueIdx

namespace Rows

/-! ## The indicator, and a block's sums

The kernel turns the one-bit word "the pixel's bin is k" into a number by widening it to 32 bits and reading it as a signed
integer: 1 when the bin is k, else 0. A bin's count over a block is the sum of that indicator over the block's 512 × 1024
pixels, and its log-probability sum the sum of the indicator times the pixel's log-probability. The kernel adds them up with one
reduction over the last two axes of the block re-laid 1 × 512 × 1024, which at the exact values is the sum over every index. -/

/-- The word "x equals y", widened to 32 bits and read as a signed integer, is the indicator of x = y. -/
theorem sitofp_eq_ind (x y : BitVec 32) :
    FloatOps.sitofp (F := Ideal) .f32 ((IntOp.cmpi .eq x y).setWidth 32) = Cert.GHM.ind x y := by
  unfold Cert.GHM.ind IntOp.cmpi
  by_cases h : x = y
  · subst h
    simp [FloatOps.sitofp]
  · have hb : (x == y) = false := by simpa using h
    simp [FloatOps.sitofp, hb, h]

/-- How many of a block's pixels have the bin word w. -/
def binCnt (bin : IVec S512x1024 32) (w : BitVec 32) : EReal :=
  ∑ r : Fin 512, ∑ c : Fin 1024, Cert.GHM.ind (bin (ix2 r c)) w

/-- The sum of the log-probabilities of a block's pixels that have the bin word w. -/
def binLp (bin : IVec S512x1024 32) (lp : FVec Ideal S512x1024 .f32) (w : BitVec 32) : EReal :=
  ∑ r : Fin 512, ∑ c : Fin 1024, Cert.GHM.ind (bin (ix2 r c)) w * lp (ix2 r c)

/-- A sum over the 1 × 512 × 1024 re-lay of a 512 × 1024 vector is the double sum over rows and columns: the re-lay is a
    bijection of the index sets. -/
theorem sum_relay (g : S512x1024.Idx → EReal) (h : S512x1024.ShapeCasts S1x512x1024) :
    ∑ i : S1x512x1024.Idx, shapeCast S1x512x1024 g h i = ∑ r : Fin 512, ∑ c : Fin 1024, g (ix2 r c) := by
  unfold shapeCast
  rw [Equiv.sum_comp (Shape.reshapeEquiv h) g]
  exact sum_idx2 g

/-- The reduce-and-extract chain: a 512 × 1024 vector re-laid 1 × 512 × 1024, added up over its last two axes, re-laid
    1 × 1 × 1 and read at its one position, is the double sum of the vector. -/
theorem chain_eq (g : FVec Ideal S512x1024 .f32) (h1 : S512x1024.ShapeCasts S1x512x1024)
    (hred : S1x512x1024.Reduces [1, 2] S1) (hφ : FKind.Formats .f32)
    (hacc : (0x00000000#32 : BitVec 32) = FKind.add.neutral .f32 hφ) (h2 : S1.ShapeCasts S1x1x1)
    (hpos : ∀ a, (![0, 0, 0] : Fin 3 → Nat) a < S1x1x1.size a) :
    extractAt ![0, 0, 0] (shapeCast S1x1x1 (multiReduction (F := Ideal) .add [1, 2] S1 (shapeCast S1x512x1024 g h1) 0x00000000#32 hred hφ hacc) h2) hpos
      = ∑ r : Fin 512, ∑ c : Fin 1024, g (ix2 r c) := by
  unfold extractAt
  unfold shapeCast
  refine (Ideal.multiReduction_add_total _ 0x00000000#32 hred (by decide) hφ hacc _).trans ?_
  exact sum_relay g h1

/-- The chain over the indicator of "bin = w" is the count of the pixels in bin w. -/
theorem cnt_chain (bin : IVec S512x1024 32) (w : BitVec 32) (hlt : 1 < 32) (h1 : S512x1024.ShapeCasts S1x512x1024)
    (hred : S1x512x1024.Reduces [1, 2] S1) (hφ : FKind.Formats .f32)
    (hacc : (0x00000000#32 : BitVec 32) = FKind.add.neutral .f32 hφ) (h2 : S1.ShapeCasts S1x1x1)
    (hpos : ∀ a, (![0, 0, 0] : Fin 3 → Nat) a < S1x1x1.size a) :
    extractAt ![0, 0, 0] (shapeCast S1x1x1 (multiReduction (F := Ideal) .add [1, 2] S1
        (shapeCast S1x512x1024 (sitofp .f32 (extui 32 (cmpi .eq bin (broadcast S512x1024 w)) hlt)) h1)
        0x00000000#32 hred hφ hacc) h2) hpos
      = binCnt bin w :=
  (chain_eq _ h1 hred hφ hacc h2 hpos).trans
    (Finset.sum_congr rfl fun r _ => Finset.sum_congr rfl fun c _ => sitofp_eq_ind (bin (ix2 r c)) w)

/-- The chain over the indicator times the log-probabilities is the bin's log-probability sum. -/
theorem lp_chain (bin : IVec S512x1024 32) (lp : FVec Ideal S512x1024 .f32) (w : BitVec 32) (hlt : 1 < 32)
    (h1 : S512x1024.ShapeCasts S1x512x1024)
    (hred : S1x512x1024.Reduces [1, 2] S1) (hφ : FKind.Formats .f32)
    (hacc : (0x00000000#32 : BitVec 32) = FKind.add.neutral .f32 hφ) (h2 : S1.ShapeCasts S1x1x1)
    (hpos : ∀ a, (![0, 0, 0] : Fin 3 → Nat) a < S1x1x1.size a) :
    extractAt ![0, 0, 0] (shapeCast S1x1x1 (multiReduction (F := Ideal) .add [1, 2] S1
        (shapeCast S1x512x1024 (mulf (sitofp .f32 (extui 32 (cmpi .eq bin (broadcast S512x1024 w)) hlt)) lp) h1)
        0x00000000#32 hred hφ hacc) h2) hpos
      = binLp bin lp w :=
  (chain_eq _ h1 hred hφ hacc h2 hpos).trans
    (Finset.sum_congr rfl fun r _ => Finset.sum_congr rfl fun c _ =>
      congrArg (· * lp (ix2 r c)) (sitofp_eq_ind (bin (ix2 r c)) w))

/-! ## The ten bins' scalars

Each bin has its own pair of chains in the body; every one is the chain above at that bin's word. -/

section Bins
variable (v14 : IVec S512x1024 32) (v18 v20 v22 v24 : FVec Ideal S512x1024 .f32) (v33 : IVec S512x1024 1) (c1 : BitVec 32)
  (v16 v25 v31 v39 : FVec Ideal S512x1024 .f32) (v50 : IVec S512x1024 32)

theorem pay23_eq : k0_pay23 (F := Ideal) v14 v18 v20 v22 v24 v33 c1 = binCnt (k0_pay21 v14 v18 v20 v22 v24 v33 c1) 0#32 := by
  unfold k0_pay23 k0_pay22; exact cnt_chain _ _ _ _ _ _ _ _ _
theorem pay26_eq : k0_pay26 (F := Ideal) v14 v18 v20 v22 v24 v33 c1 = binCnt (k0_pay21 v14 v18 v20 v22 v24 v33 c1) 1#32 := by
  unfold k0_pay26 k0_pay25; exact cnt_chain _ _ _ _ _ _ _ _ _
theorem pay30_eq : k0_pay30 (F := Ideal) (k0_pay29 v14 v18 v20 v22 v24 v33 c1) = binCnt (k0_pay21 v14 v18 v20 v22 v24 v33 c1) 2#32 := by
  unfold k0_pay30 k0_pay29 k0_pay28; exact cnt_chain _ _ _ _ _ _ _ _ _
theorem pay33_eq : k0_pay33 (F := Ideal) v50 = binCnt v50 3#32 := by
  unfold k0_pay33 k0_pay32; exact cnt_chain _ _ _ _ _ _ _ _ _
theorem pay36_eq : k0_pay36 (F := Ideal) v50 = binCnt v50 4#32 := by
  unfold k0_pay36 k0_pay35; exact cnt_chain _ _ _ _ _ _ _ _ _
theorem pay39_eq : k0_pay39 (F := Ideal) v50 = binCnt v50 5#32 := by
  unfold k0_pay39 k0_pay38; exact cnt_chain _ _ _ _ _ _ _ _ _
theorem pay43_eq : k0_pay43 (F := Ideal) (k0_pay41 v50) = binCnt v50 6#32 := by
  unfold k0_pay43 k0_pay42 k0_pay41; exact cnt_chain _ _ _ _ _ _ _ _ _
theorem pay46_eq : k0_pay46 (F := Ideal) v50 = binCnt v50 7#32 := by
  unfold k0_pay46 k0_pay45; exact cnt_chain _ _ _ _ _ _ _ _ _
theorem pay49_eq : k0_pay49 (F := Ideal) v50 = binCnt v50 8#32 := by
  unfold k0_pay49 k0_pay48; exact cnt_chain _ _ _ _ _ _ _ _ _
theorem pay52_eq : k0_pay52 (F := Ideal) v50 = binCnt v50 9#32 := by
  unfold k0_pay52 k0_pay51; exact cnt_chain _ _ _ _ _ _ _ _ _

theorem pay24_eq : k0_pay24 (F := Ideal) v14 v16 v18 v20 v22 v24 v25 v31 v33 c1
    = binLp (k0_pay21 v14 v18 v20 v22 v24 v33 c1) (k0_pay20 v16 v25 v31) 0#32 := by
  unfold k0_pay24 k0_pay22; exact lp_chain _ _ _ _ _ _ _ _ _ _
theorem pay27_eq : k0_pay27 (F := Ideal) v14 v16 v18 v20 v22 v24 v25 v31 v33 c1
    = binLp (k0_pay21 v14 v18 v20 v22 v24 v33 c1) (k0_pay20 v16 v25 v31) 1#32 := by
  unfold k0_pay27 k0_pay25; exact lp_chain _ _ _ _ _ _ _ _ _ _
theorem pay31_eq : k0_pay31 (F := Ideal) v39 (k0_pay28 v14 v18 v20 v22 v24 v33 c1)
    = binLp (k0_pay21 v14 v18 v20 v22 v24 v33 c1) v39 2#32 := by
  unfold k0_pay31 k0_pay28; exact lp_chain _ _ _ _ _ _ _ _ _ _
theorem pay34_eq : k0_pay34 (F := Ideal) v39 v50 = binLp v50 v39 3#32 := by
  unfold k0_pay34 k0_pay32; exact lp_chain _ _ _ _ _ _ _ _ _ _
theorem pay37_eq : k0_pay37 (F := Ideal) v39 v50 = binLp v50 v39 4#32 := by
  unfold k0_pay37 k0_pay35; exact lp_chain _ _ _ _ _ _ _ _ _ _
theorem pay40_eq : k0_pay40 (F := Ideal) v39 v50 = binLp v50 v39 5#32 := by
  unfold k0_pay40 k0_pay38; exact lp_chain _ _ _ _ _ _ _ _ _ _
theorem pay44_eq : k0_pay44 (F := Ideal) v39 (k0_pay41 v50) = binLp v50 v39 6#32 := by
  unfold k0_pay44 k0_pay42 k0_pay41; exact lp_chain _ _ _ _ _ _ _ _ _ _
theorem pay47_eq : k0_pay47 (F := Ideal) v39 v50 = binLp v50 v39 7#32 := by
  unfold k0_pay47 k0_pay45; exact lp_chain _ _ _ _ _ _ _ _ _ _
theorem pay50_eq : k0_pay50 (F := Ideal) v39 v50 = binLp v50 v39 8#32 := by
  unfold k0_pay50 k0_pay48; exact lp_chain _ _ _ _ _ _ _ _ _ _
theorem pay53_eq : extractAt ![0, 0, 0] (k0_pay53 (F := Ideal) v39 v50) inpos_S1x1x1_p0_0_0 = binLp v50 v39 9#32 := by
  unfold k0_pay53 k0_pay51; exact lp_chain _ _ _ _ _ _ _ _ _ _

end Bins

/-! ## One pixel of a block

At pixel (r, c) the body clamps the label to 0..2 (which changes nothing for a label that is 0, 1 or 2), takes the largest of
the three logits, the three shifted exponentials and their sum, picks the labelled logit and exponential by two selects on the
label, and from these forms the log-probability and the bin: the specification's, term by term. -/

/-- A select on the word "x equals y" is the if on x = y. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [hb, h]

/-- A label that is 0, 1 or 2 is its own clamp to 0..2. -/
theorem clamp_label (t : BitVec 32) (ht : t = 0#32 ∨ t = 1#32 ∨ t = 2#32) :
    IntOp.minsi 2#32 (IntOp.maxsi 0#32 t) = t := by
  rcases ht with h | h | h <;> subst h <;> decide

section Pixel
variable (v3 v5 v7 : Vec Ideal S1x1x512x1024 .f32) (v9 : Vec Ideal S1x512x1024 .i32) (r : Fin 512) (c : Fin 1024)

/-- A 1 × 1 × 512 × 1024 plane re-laid 512 × 1024 reads (0, 0, r, c) at (r, c). -/
theorem relay4_apply (v : Vec Ideal S1x1x512x1024 .f32) (h : S1x1x512x1024.ShapeCasts S512x1024) :
    shapeCast S512x1024 v h (ix2 r c) = v (ix4 (0 : Fin 1) (0 : Fin 1) r c) :=
  congrArg v (reshapeEquiv_ix2_11ab h r c)

theorem pay8_apply : k0_pay8 v3 (ix2 r c) = v3 (ix4 (0 : Fin 1) (0 : Fin 1) r c) := relay4_apply r c v3 _
theorem pay9_apply : k0_pay9 v5 (ix2 r c) = v5 (ix4 (0 : Fin 1) (0 : Fin 1) r c) := relay4_apply r c v5 _
theorem pay10_apply : k0_pay10 v7 (ix2 r c) = v7 (ix4 (0 : Fin 1) (0 : Fin 1) r c) := relay4_apply r c v7 _

/-- The clamped label of pixel (r, c). -/
theorem pay11_apply : k0_pay11 v9 (ix2 r c) = IntOp.minsi 2#32 (IntOp.maxsi 0#32 (v9 (ix3 (0 : Fin 1) r c))) := by
  show IntOp.minsi 2#32 (IntOp.maxsi 0#32 (shapeCast S512x1024 v9 shapeCasts_S1x512x1024_S512x1024 (ix2 r c))) = _
  rw [shapeCast_1ab_ab_apply]

/-- The largest logit of pixel (r, c). -/
theorem pay12_apply : k0_pay12 v3 v5 v7 (ix2 r c)
    = Cert.GHM.top3 (v3 (ix4 (0 : Fin 1) (0 : Fin 1) r c)) (v5 (ix4 (0 : Fin 1) (0 : Fin 1) r c)) (v7 (ix4 (0 : Fin 1) (0 : Fin 1) r c)) := by
  show max (max (k0_pay8 v3 (ix2 r c)) (k0_pay9 v5 (ix2 r c))) (k0_pay10 v7 (ix2 r c)) = _
  rw [pay8_apply, pay9_apply, pay10_apply]; rfl

/-- The three shifted exponentials of pixel (r, c). -/
theorem pay13_apply : k0_pay13 v3 v5 v7 (ix2 r c)
    = Cert.GHM.ex (v3 (ix4 (0 : Fin 1) (0 : Fin 1) r c))
        (Cert.GHM.top3 (v3 (ix4 (0 : Fin 1) (0 : Fin 1) r c)) (v5 (ix4 (0 : Fin 1) (0 : Fin 1) r c)) (v7 (ix4 (0 : Fin 1) (0 : Fin 1) r c))) := by
  show Ideal.exp (k0_pay8 v3 (ix2 r c) - k0_pay12 v3 v5 v7 (ix2 r c)) = _
  rw [pay8_apply, pay12_apply]; rfl

theorem pay14_apply : k0_pay14 v3 v5 v7 (ix2 r c)
    = Cert.GHM.ex (v5 (ix4 (0 : Fin 1) (0 : Fin 1) r c))
        (Cert.GHM.top3 (v3 (ix4 (0 : Fin 1) (0 : Fin 1) r c)) (v5 (ix4 (0 : Fin 1) (0 : Fin 1) r c)) (v7 (ix4 (0 : Fin 1) (0 : Fin 1) r c))) := by
  show Ideal.exp (k0_pay9 v5 (ix2 r c) - k0_pay12 v3 v5 v7 (ix2 r c)) = _
  rw [pay9_apply, pay12_apply]; rfl

theorem pay15_apply : k0_pay15 v3 v5 v7 (ix2 r c)
    = Cert.GHM.ex (v7 (ix4 (0 : Fin 1) (0 : Fin 1) r c))
        (Cert.GHM.top3 (v3 (ix4 (0 : Fin 1) (0 : Fin 1) r c)) (v5 (ix4 (0 : Fin 1) (0 : Fin 1) r c)) (v7 (ix4 (0 : Fin 1) (0 : Fin 1) r c))) := by
  show Ideal.exp (k0_pay10 v7 (ix2 r c) - k0_pay12 v3 v5 v7 (ix2 r c)) = _
  rw [pay10_apply, pay12_apply]; rfl

/-- The softmax denominator of pixel (r, c). -/
theorem pay16_apply : k0_pay16 v3 v5 v7 (ix2 r c)
    = Cert.GHM.den (v3 (ix4 (0 : Fin 1) (0 : Fin 1) r c)) (v5 (ix4 (0 : Fin 1) (0 : Fin 1) r c)) (v7 (ix4 (0 : Fin 1) (0 : Fin 1) r c)) := by
  show k0_pay13 v3 v5 v7 (ix2 r c) + k0_pay14 v3 v5 v7 (ix2 r c) + k0_pay15 v3 v5 v7 (ix2 r c) = _
  rw [pay13_apply, pay14_apply, pay15_apply]; rfl

/-- The logit the clamped label names, by the two selects. -/
theorem pay18_apply : k0_pay18 v3 v5 v7 v9 (ix2 r c)
    = Cert.GHM.pick (IntOp.minsi 2#32 (IntOp.maxsi 0#32 (v9 (ix3 (0 : Fin 1) r c))))
        (v3 (ix4 (0 : Fin 1) (0 : Fin 1) r c)) (v5 (ix4 (0 : Fin 1) (0 : Fin 1) r c)) (v7 (ix4 (0 : Fin 1) (0 : Fin 1) r c)) := by
  show Scalar.select (IntOp.cmpi .eq (k0_pay11 v9 (ix2 r c)) 0#32) (k0_pay8 v3 (ix2 r c))
      (Scalar.select (IntOp.cmpi .eq (k0_pay11 v9 (ix2 r c)) 1#32) (k0_pay9 v5 (ix2 r c)) (k0_pay10 v7 (ix2 r c))) = _
  rw [pay11_apply, pay8_apply, pay9_apply, pay10_apply, select_cmpi_eq, select_cmpi_eq]; rfl

/-- Pixel (r, c)'s log-probability is the specification's, when its label is 0, 1 or 2. -/
theorem blkLp_apply (ht : v9 (ix3 (0 : Fin 1) r c) = 0#32 ∨ v9 (ix3 (0 : Fin 1) r c) = 1#32 ∨ v9 (ix3 (0 : Fin 1) r c) = 2#32) :
    blkLp v3 v5 v7 v9 (ix2 r c)
      = Cert.GHM.logp (v3 (ix4 (0 : Fin 1) (0 : Fin 1) r c)) (v5 (ix4 (0 : Fin 1) (0 : Fin 1) r c)) (v7 (ix4 (0 : Fin 1) (0 : Fin 1) r c))
          (v9 (ix3 (0 : Fin 1) r c)) := by
  show (k0_pay18 v3 v5 v7 v9 (ix2 r c) - k0_pay12 v3 v5 v7 (ix2 r c)) - Ideal.log (k0_pay16 v3 v5 v7 (ix2 r c)) = _
  rw [pay18_apply, pay12_apply, pay16_apply, clamp_label _ ht]; rfl

/-- Pixel (r, c)'s bin is the specification's, when its label is 0, 1 or 2. -/
theorem blkBin_apply (ht : v9 (ix3 (0 : Fin 1) r c) = 0#32 ∨ v9 (ix3 (0 : Fin 1) r c) = 1#32 ∨ v9 (ix3 (0 : Fin 1) r c) = 2#32) :
    blkBin v3 v5 v7 v9 (ix2 r c)
      = Cert.GHM.gbin (v3 (ix4 (0 : Fin 1) (0 : Fin 1) r c)) (v5 (ix4 (0 : Fin 1) (0 : Fin 1) r c)) (v7 (ix4 (0 : Fin 1) (0 : Fin 1) r c))
          (v9 (ix3 (0 : Fin 1) r c)) := by
  show IntOp.minsi 9#32 (IntOp.maxsi 0#32 (Ideal.fptosi 32 (Ideal.liftRound Int.floor
      ((Cert.GHM.one - Ideal.div
          (Scalar.select (IntOp.cmpi .eq (k0_pay11 v9 (ix2 r c)) 0#32) (k0_pay13 v3 v5 v7 (ix2 r c))
            (Scalar.select (IntOp.cmpi .eq (k0_pay11 v9 (ix2 r c)) 1#32) (k0_pay14 v3 v5 v7 (ix2 r c)) (k0_pay15 v3 v5 v7 (ix2 r c))))
          (k0_pay16 v3 v5 v7 (ix2 r c))) * Cert.GHM.ten)))) = _
  rw [pay11_apply, pay13_apply, pay14_apply, pay15_apply, pay16_apply, select_cmpi_eq, select_cmpi_eq, clamp_label _ ht]; rfl

end Pixel

/-! ## The rows at a lane

A block's step pads its ten scalars with 118 zeros to a row of 128 lanes and adds the row to the one before: at a lane below ten
the row gains that lane's scalar. -/

/-- Ten one-lane vectors laid end to end, read at lane k, give the k-th of them. -/
theorem concat10_lane (c : Fin 10 → EReal)
    (h : Shape.Concatenates [S1, S1, S1, S1, S1, S1, S1, S1, S1, S1] S10 0) (k : Fin 10) :
    concatenate S10 0 [⟨S1, broadcast S1 (c 0)⟩, ⟨S1, broadcast S1 (c 1)⟩, ⟨S1, broadcast S1 (c 2)⟩, ⟨S1, broadcast S1 (c 3)⟩,
        ⟨S1, broadcast S1 (c 4)⟩, ⟨S1, broadcast S1 (c 5)⟩, ⟨S1, broadcast S1 (c 6)⟩, ⟨S1, broadcast S1 (c 7)⟩,
        ⟨S1, broadcast S1 (c 8)⟩, ⟨S1, broadcast S1 (c 9)⟩] h (ix1 k) = c k :=
  concatenate_ofFn_unit_apply (t := S10) (s₁ := S1) (0 : Fin 1) (fun n : Fin 10 => broadcast S1 (c n)) h rfl rfl (ix1 k) k rfl
    (ix1 (0 : Fin 1)) (fun b hb => match b, hb with | ⟨0, _⟩, hb => absurd rfl hb)

/-- The count row's step at a lane below ten: the row before plus that lane's scalar; the scalars are named by a function of
    the lane. -/
theorem pay2_lane (c0 c1 c2 c3 c4 c5 c6 c7 c8 c9 : EReal) (s : Fin 10 → EReal)
    (h0 : c0 = s 0) (h1 : c1 = s 1) (h2 : c2 = s 2) (h3 : c3 = s 3) (h4 : c4 = s 4) (h5 : c5 = s 5) (h6 : c6 = s 6)
    (h7 : c7 = s 7) (h8 : c8 = s 8) (h9 : c9 = s 9) (prev : Vec Ideal S1x128 .f32) (k : Fin 10) :
    k0_pay2 (F := Ideal) c0 c1 c2 c3 c4 c5 c6 c7 c8 c9 prev (ix2 (0 : Fin 1) (⟨k.val, by omega⟩ : Fin 128))
      = prev (ix2 (0 : Fin 1) (⟨k.val, by omega⟩ : Fin 128)) + s k := by
  subst h0 h1 h2 h3 h4 h5 h6 h7 h8 h9
  unfold k0_pay2
  refine (congrFun (shapeCast_self _ _) _).trans ?_
  refine (addf_apply _ _ _).trans ?_
  refine congrArg (prev (ix2 (0 : Fin 1) (⟨k.val, by omega⟩ : Fin 128)) + ·) ?_
  refine (shapeCast_a_1a_apply _ _ _ _).trans ?_
  refine (concatenate_pair_apply_left (t := S128) (s₁ := S10) (s₂ := S118) (0 : Fin 1) _ _ _ (ix1 (⟨k.val, by omega⟩ : Fin 128)) rfl (ix1 k)
    (fun b => match b with | ⟨0, _⟩ => rfl)).trans ?_
  exact concat10_lane s _ k

/-- The log-probability row's step at a lane below ten; its tenth scalar arrives as a 1 × 1 × 1 vector and is read there. -/
theorem pay3_lane (c0 c1 c2 c3 c4 c5 c6 c7 c8 : EReal) (v179 : FVec Ideal S1x1x1 .f32) (s : Fin 10 → EReal)
    (h0 : c0 = s 0) (h1 : c1 = s 1) (h2 : c2 = s 2) (h3 : c3 = s 3) (h4 : c4 = s 4) (h5 : c5 = s 5) (h6 : c6 = s 6)
    (h7 : c7 = s 7) (h8 : c8 = s 8) (h9 : extractAt ![0, 0, 0] v179 inpos_S1x1x1_p0_0_0 = s 9)
    (prev : Vec Ideal S1x128 .f32) (k : Fin 10) :
    k0_pay3 (F := Ideal) c0 c1 c2 c3 c4 c5 c6 c7 c8 v179 prev (ix2 (0 : Fin 1) (⟨k.val, by omega⟩ : Fin 128))
      = prev (ix2 (0 : Fin 1) (⟨k.val, by omega⟩ : Fin 128)) + s k := by
  subst h0 h1 h2 h3 h4 h5 h6 h7 h8
  unfold k0_pay3
  rw [h9]
  refine (congrFun (shapeCast_self _ _) _).trans ?_
  refine (addf_apply _ _ _).trans ?_
  refine congrArg (prev (ix2 (0 : Fin 1) (⟨k.val, by omega⟩ : Fin 128)) + ·) ?_
  refine (shapeCast_a_1a_apply _ _ _ _).trans ?_
  refine (concatenate_pair_apply_left (t := S128) (s₁ := S10) (s₂ := S118) (0 : Fin 1) _ _ _ (ix1 (⟨k.val, by omega⟩ : Fin 128)) rfl (ix1 k)
    (fun b => match b with | ⟨0, _⟩ => rfl)).trans ?_
  exact concat10_lane s _ k

/-- The zero row reads zero. -/
theorem pay6_apply (j : S1x128.Idx) : k0_pay6 (F := Ideal) j = 0 := by
  unfold k0_pay6
  refine (congrFun (shapeCast_self _ _) j).trans ?_
  exact Ideal.ofBits_zero_f32

theorem pay7_apply (j : S1x128.Idx) : k0_pay7 (F := Ideal) j = 0 := by
  unfold k0_pay7
  refine (congrFun (shapeCast_self _ _) j).trans ?_
  exact Ideal.ofBits_zero_f32

section Block
variable (v3 v5 v7 : Vec Ideal S1x1x512x1024 .f32) (v9 : Vec Ideal S1x512x1024 .i32)

/-- A block's step on the count row, at a lane below ten: the row gains the number of the block's pixels in that bin. -/
theorem accCnt_lane (prev : Vec Ideal S1x128 .f32) (k : Fin 10) :
    accCnt v3 v5 v7 v9 prev (ix2 (0 : Fin 1) (⟨k.val, by omega⟩ : Fin 128))
      = prev (ix2 (0 : Fin 1) (⟨k.val, by omega⟩ : Fin 128)) + binCnt (blkBin v3 v5 v7 v9) (BitVec.ofNat 32 k.val) := by
  unfold accCnt
  refine pay2_lane _ _ _ _ _ _ _ _ _ _ (fun k : Fin 10 => binCnt (blkBin v3 v5 v7 v9) (BitVec.ofNat 32 k.val))
    ?_ ?_ ?_ ?_ ?_ ?_ ?_ ?_ ?_ ?_ prev k
  · exact pay23_eq _ _ _ _ _ _ _
  · exact pay26_eq _ _ _ _ _ _ _
  · exact pay30_eq _ _ _ _ _ _ _
  · exact pay33_eq _
  · exact pay36_eq _
  · exact pay39_eq _
  · exact pay43_eq _
  · exact pay46_eq _
  · exact pay49_eq _
  · exact pay52_eq _

/-- A block's step on the log-probability row, at a lane below ten: the row gains the sum of the log-probabilities of the
    block's pixels in that bin. -/
theorem accLp_lane (prev : Vec Ideal S1x128 .f32) (k : Fin 10) :
    accLp v3 v5 v7 v9 prev (ix2 (0 : Fin 1) (⟨k.val, by omega⟩ : Fin 128))
      = prev (ix2 (0 : Fin 1) (⟨k.val, by omega⟩ : Fin 128))
        + binLp (blkBin v3 v5 v7 v9) (blkLp v3 v5 v7 v9) (BitVec.ofNat 32 k.val) := by
  unfold accLp
  refine pay3_lane _ _ _ _ _ _ _ _ _ _
    (fun k : Fin 10 => binLp (blkBin v3 v5 v7 v9) (blkLp v3 v5 v7 v9) (BitVec.ofNat 32 k.val))
    ?_ ?_ ?_ ?_ ?_ ?_ ?_ ?_ ?_ ?_ prev k
  · exact pay24_eq _ _ _ _ _ _ _ _ _ _
  · exact pay27_eq _ _ _ _ _ _ _ _ _ _
  · exact pay31_eq _ _ _ _ _ _ _ _
  · exact pay34_eq _ _
  · exact pay37_eq _ _
  · exact pay40_eq _ _
  · exact pay44_eq _ _
  · exact pay47_eq _ _
  · exact pay50_eq _ _
  · exact pay53_eq _ _

end Block

/-! ## An image's two steps, and the image's rows

The second of an image's two grid points writes out the zero row plus the first block's scalars plus the second block's. The
first block is the image's rows 0 … 511 and the second its rows 512 … 1023, so the two blocks' sums join into the sum over the
image's 1024 rows. -/

section Steps
variable (xa0 xb0 : Vec Ideal S1x3x512x1024 .f32) (xa1 xb1 : Vec Ideal S1x512x1024 .i32) (k : Fin 10)

theorem outCnt_lane :
    outCnt xa0 xa1 xb0 xb1 (ix3 (0 : Fin 1) (0 : Fin 1) (⟨k.val, by omega⟩ : Fin 128))
      = binCnt (blkBin (plane 0 xa0) (plane 1 xa0) (plane 2 xa0) xa1) (BitVec.ofNat 32 k.val)
        + binCnt (blkBin (plane 0 xb0) (plane 1 xb0) (plane 2 xb0) xb1) (BitVec.ofNat 32 k.val) := by
  unfold outCnt k0_pay4
  refine (shapeCast_ab_1ab_apply _ _ _ _ _).trans ?_
  unfold stepCnt
  rw [accCnt_lane, accCnt_lane, pay6_apply, zero_add]

theorem outLp_lane :
    outLp xa0 xa1 xb0 xb1 (ix3 (0 : Fin 1) (0 : Fin 1) (⟨k.val, by omega⟩ : Fin 128))
      = binLp (blkBin (plane 0 xa0) (plane 1 xa0) (plane 2 xa0) xa1) (blkLp (plane 0 xa0) (plane 1 xa0) (plane 2 xa0) xa1) (BitVec.ofNat 32 k.val)
        + binLp (blkBin (plane 0 xb0) (plane 1 xb0) (plane 2 xb0) xb1) (blkLp (plane 0 xb0) (plane 1 xb0) (plane 2 xb0) xb1) (BitVec.ofNat 32 k.val) := by
  unfold outLp k0_pay5
  refine (shapeCast_ab_1ab_apply _ _ _ _ _).trans ?_
  unfold stepLp
  rw [accLp_lane, accLp_lane, pay7_apply, zero_add]

end Steps

section Image
variable (a0 : FVec Ideal S8x3x1024x1024 .f32) (a1 : IVec S8x1024x1024 32) (b : Fin 8)

/-- Row r of block h is the image's row 512·h + r. -/
def row (h : Fin 2) (r : Fin 512) : Fin 1024 := ⟨512 * h.val + r.val, by omega⟩

theorem row_zero (r : Fin 512) : row 0 r = ⟨r.val, by omega⟩ := Fin.ext (by show 512 * 0 + r.val = r.val; omega)
theorem row_one (r : Fin 512) : row 1 r = ⟨512 + r.val, by omega⟩ := Fin.ext (by show 512 * 1 + r.val = 512 + r.val; omega)

/-- Pixel (r, c) of block (b, h) has the bin of the image's pixel (512·h + r, c) … -/
theorem blk_bin (ht : ∀ j, a1 j = 0#32 ∨ a1 j = 1#32 ∨ a1 j = 2#32) (h : Fin 2) (r : Fin 512) (c : Fin 1024) :
    blkBin (plane 0 (predBlk a0 b h)) (plane 1 (predBlk a0 b h)) (plane 2 (predBlk a0 b h)) (tgtBlk (F := Ideal) a1 b h) (ix2 r c)
      = Cert.GHM.pBin a0 a1 b (row h r) c :=
  blkBin_apply _ _ _ _ r c (ht _)

/-- … and its log-probability. -/
theorem blk_lp (ht : ∀ j, a1 j = 0#32 ∨ a1 j = 1#32 ∨ a1 j = 2#32) (h : Fin 2) (r : Fin 512) (c : Fin 1024) :
    blkLp (plane 0 (predBlk a0 b h)) (plane 1 (predBlk a0 b h)) (plane 2 (predBlk a0 b h)) (tgtBlk (F := Ideal) a1 b h) (ix2 r c)
      = Cert.GHM.pLp a0 a1 b (row h r) c :=
  blkLp_apply _ _ _ _ r c (ht _)

theorem blk_cnt (ht : ∀ j, a1 j = 0#32 ∨ a1 j = 1#32 ∨ a1 j = 2#32) (h : Fin 2) (w : BitVec 32) :
    binCnt (blkBin (plane 0 (predBlk a0 b h)) (plane 1 (predBlk a0 b h)) (plane 2 (predBlk a0 b h)) (tgtBlk (F := Ideal) a1 b h)) w
      = ∑ r : Fin 512, ∑ c : Fin 1024, Cert.GHM.ind (Cert.GHM.pBin a0 a1 b (row h r) c) w :=
  Finset.sum_congr rfl fun r _ => Finset.sum_congr rfl fun c _ => by rw [blk_bin a0 a1 b ht h r c]

theorem blk_lpsum (ht : ∀ j, a1 j = 0#32 ∨ a1 j = 1#32 ∨ a1 j = 2#32) (h : Fin 2) (w : BitVec 32) :
    binLp (blkBin (plane 0 (predBlk a0 b h)) (plane 1 (predBlk a0 b h)) (plane 2 (predBlk a0 b h)) (tgtBlk (F := Ideal) a1 b h))
        (blkLp (plane 0 (predBlk a0 b h)) (plane 1 (predBlk a0 b h)) (plane 2 (predBlk a0 b h)) (tgtBlk (F := Ideal) a1 b h)) w
      = ∑ r : Fin 512, ∑ c : Fin 1024, Cert.GHM.ind (Cert.GHM.pBin a0 a1 b (row h r) c) w * Cert.GHM.pLp a0 a1 b (row h r) c :=
  Finset.sum_congr rfl fun r _ => Finset.sum_congr rfl fun c _ => by rw [blk_bin a0 a1 b ht h r c, blk_lp a0 a1 b ht h r c]

end Image

end Rows

open Rows

/-- Over the eight images, lane k of the count array adds up to the number of pixels in bin k. -/
theorem cntArr_sum (a0 : FVec Ideal S8x3x1024x1024 .f32) (a1 : IVec S8x1024x1024 32)
    (ht : ∀ j, a1 j = 0#32 ∨ a1 j = 1#32 ∨ a1 j = 2#32) (k : Fin 10) :
    ∑ b : Fin 8, cntArr (F := Ideal) a0 a1 (ix3 b (0 : Fin 1) (⟨k.val, by omega⟩ : Fin 128)) = Cert.GHM.cnt a0 a1 k := by
  unfold Cert.GHM.cnt
  refine Finset.sum_congr rfl fun b _ => ?_
  refine (outCnt_lane (predBlk a0 b 0) (predBlk a0 b 1) (tgtBlk (F := Ideal) a1 b 0) (tgtBlk (F := Ideal) a1 b 1) k).trans ?_
  rw [blk_cnt a0 a1 b ht 0, blk_cnt a0 a1 b ht 1]
  simp only [row_zero, row_one]
  exact Cert.GHM.sum_halves (fun r c => Cert.GHM.ind (Cert.GHM.pBin a0 a1 b r c) (BitVec.ofNat 32 k.val))

/-- Over the eight images, lane k of the log-probability array adds up to the sum of the log-probabilities in bin k. -/
theorem lpArr_sum (a0 : FVec Ideal S8x3x1024x1024 .f32) (a1 : IVec S8x1024x1024 32)
    (ht : ∀ j, a1 j = 0#32 ∨ a1 j = 1#32 ∨ a1 j = 2#32) (k : Fin 10) :
    ∑ b : Fin 8, lpArr (F := Ideal) a0 a1 (ix3 b (0 : Fin 1) (⟨k.val, by omega⟩ : Fin 128)) = Cert.GHM.lsum a0 a1 k := by
  unfold Cert.GHM.lsum
  refine Finset.sum_congr rfl fun b _ => ?_
  refine (outLp_lane (predBlk a0 b 0) (predBlk a0 b 1) (tgtBlk (F := Ideal) a1 b 0) (tgtBlk (F := Ideal) a1 b 1) k).trans ?_
  rw [blk_lpsum a0 a1 b ht 0, blk_lpsum a0 a1 b ht 1]
  simp only [row_zero, row_one]
  exact Cert.GHM.sum_halves
    (fun r c => Cert.GHM.ind (Cert.GHM.pBin a0 a1 b r c) (BitVec.ofNat 32 k.val) * Cert.GHM.pLp a0 a1 b r c)

end Cert.KernelIdeal.KValue

end
-- ==== Proof.KValue.lean ====
/-
  The idealized kernel's run with its result named: the loss added up bin by bin.

  The region leaves image b's two accumulated rows in row b of the two output arrays; the host lines after it add
  the rows over the images, turn the counts and the running table into the bins' weights, and return minus the
  weighted sum of the bins' log-probability sums. Lane k of the count rows added over the images is the number of
  pixels in bin k, lane k of the other rows the sum of their log-probabilities.
-/
import proofs.«430611_j67164698575482_3_alg».proof.Proof.KPieces
import proofs.«430611_j67164698575482_3_alg».proof.Proof.KTail
import proofs.«430611_j67164698575482_3_alg».proof.Proof.KRows

noncomputable section

namespace Cert.KernelIdeal.KValue

open Cert.KernelIdeal Cert.KernelIdeal.Gen Idealize.ShloMosaic Idealize.ShloMosaic.TcCoe Idealize.SL.Sem Idealize.ShloMosaic.ValueIdx

/-- Under labels in 0..2 every weakly fair run of the idealized kernel ends with the bin-by-bin loss in its result
    and its arguments unchanged. -/
theorem run_value (m : (ℓ : Loc nD τ sig) → Buf (Elt Ideal) ℓ) (ρ : Dev nD → PrngReg)
    (ht : ∀ (c : Dev nD) (j : S8x1024x1024.Idx),
      (m ((c.tc : Thread nD τ).loc main_arg1) : IVec S8x1024x1024 32) j = 0#32
        ∨ (m ((c.tc : Thread nD τ).loc main_arg1) : IVec S8x1024x1024 32) j = 1#32
        ∨ (m ((c.tc : Thread nD τ).loc main_arg1) : IVec S8x1024x1024 32) j = 2#32) :
    θ_run defs (onTc (τ := τ) (main (F := Ideal))) ⟨m, fun _ => 0, ρ⟩ (fun r => ∀ c : Dev nD,
      r.2.mem ((c.tc : Thread nD τ).loc main_v28)
          = (fun _ => Cert.GHM.lossByBin (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, (h c).2⟩) (run_tail m ρ)
  rw [(h c).1, (arrays m c).1, (arrays m c).2, tailK_ideal, V_main_arg0, V_main_arg1]
  funext _
  have hc : (fun k' : Fin 10 => ∑ b : Fin 8,
        cntArr (F := Ideal) (m ((c : Thread nD τ).loc main_arg0)) (m ((c : Thread nD τ).loc main_arg1))
          (ix3 b (0 : Fin 1) (⟨k'.val, by omega⟩ : Fin 128)))
      = Cert.GHM.cnt (m ((c : Thread nD τ).loc main_arg0)) (m ((c : Thread nD τ).loc main_arg1)) :=
    funext fun k' => cntArr_sum _ _ (ht c) k'
  rw [hc]
  unfold Cert.GHM.lossByBin
  refine congrArg Neg.neg (Finset.sum_congr rfl fun k _ => ?_)
  rw [lpArr_sum _ _ (ht c) k]

end Cert.KernelIdeal.KValue

end
-- ==== Proof.RPixel.lean ====
/-
  The reference's per-pixel stages at the exact values: flat pixel number i is pixel (i / 1024², i / 1024 mod 1024,
  i mod 1024), and there its bin word and its log-probability are the specification's.

  The reference lays the logits out as a table of 8·1024² pixels by 3 classes: entry (i, ch) is logit ch of the pixel
  that i names, because (3 i + ch) / (3 · 1024²) = i / 1024², (3 i + ch) mod 3 = ch, (3 i + ch) / 3072 mod 1024 =
  i / 1024 mod 1024 and (3 i + ch) / 3 mod 1024 = i mod 1024. Along the class axis it takes the maximum from −∞ (a fold
  of max over three values from ⊥: max (max p0 p1) p2), the shifted exponentials, their sum from zero (e0 + e1 + e2) and
  the quotient; for the log-probability the same maximum and sum, then the logarithm. The labelled class is read by a
  gather whose start index is the label, normalised (a negative index gets 3 added) and clamped into the three columns,
  under a mask "0 ≤ label ≤ 2" folded by "and" over an axis of one element. For a label among 0, 1, 2 the normalisation
  and the clamp are the identity and the mask is true, so the gather reads the column the label names.
-/
import proofs.«430611_j67164698575482_3_alg».proof.Proof.RefRead
import proofs.«430611_j67164698575482_3_alg».proof.Proof.Spec
import Idealize.ShloMosaic.Lib.ValueIdx
import Idealize.ShloMosaic.PureOps.Ideal.Laws
import Idealize.ShloMosaic.PureOps.Reduce
import Mathlib.Algebra.BigOperators.Fin
import Mathlib.Data.Finset.Fold
import Mathlib.Data.Fintype.Basic

noncomputable section

namespace Cert.ReferenceIdeal.RValue

open Cert.ReferenceIdeal Cert.ReferenceIdeal.Read Idealize.ShloMosaic Idealize.ShloMosaic.ValueIdx

/-- A flat pixel number's image, row and column. -/
def fb (i : S8388608.Idx) : Fin 8 := ⟨(i 0).val / 1048576, by have h : (i 0).val < 8388608 := (i 0).isLt; omega⟩
def fr (i : S8388608.Idx) : Fin 1024 := ⟨(i 0).val / 1024 % 1024, by omega⟩
def fc (i : S8388608.Idx) : Fin 1024 := ⟨(i 0).val % 1024, by omega⟩

namespace Pixel
/-! ## Rows and columns of the pixel-by-class table -/

/-- Entry (pixel i, class ch) of the pixel-by-class table. -/
abbrev rc (i : S8388608.Idx) (ch : Fin 3) : S8388608x3.Idx := ix2 (⟨(i 0).val, (i 0).isLt⟩ : Fin 8388608) ch
/-- Entry (pixel i, 0) of a one-column table. -/
abbrev cl (i : S8388608.Idx) : S8388608x1.Idx := ix2 (⟨(i 0).val, (i 0).isLt⟩ : Fin 8388608) (0 : Fin 1)

/-- Pixel i's logit of class ch. -/
def lg (x0 : (⟨S8x3x1024x1024, .f32⟩ : BufTy).Contents (Elt Ideal)) (i : S8388608.Idx) (ch : Fin 3) : EReal :=
  x0 (ix4 (fb i) ch (fr i) (fc i))

/-- The largest of pixel i's three logits, and the sum of its three shifted exponentials. -/
def tp (x0 : (⟨S8x3x1024x1024, .f32⟩ : BufTy).Contents (Elt Ideal)) (i : S8388608.Idx) : EReal :=
  Cert.GHM.top3 (lg x0 i 0) (lg x0 i 1) (lg x0 i 2)
def dn (x0 : (⟨S8x3x1024x1024, .f32⟩ : BufTy).Contents (Elt Ideal)) (i : S8388608.Idx) : EReal :=
  Cert.GHM.den (lg x0 i 0) (lg x0 i 1) (lg x0 i 2)

/-- The transposed and flattened logits: entry (i, ch) is logit ch of pixel (i / 1024², i / 1024 mod 1024, i mod 1024),
    since (3 i + ch) / (3 · 1024²) = i / 1024², (3 i + ch) mod 3 = ch, and so on. -/
theorem logit_apply (x0 : (⟨S8x3x1024x1024, .f32⟩ : BufTy).Contents (Elt Ideal)) (i : S8388608.Idx) (ch : Fin 3) :
    val_main_v1 (F := Ideal) x0 (rc i ch) = lg x0 i ch := by
  rw [val_main_v1_apply, val_main_v0_apply]
  unfold lg
  refine congrArg x0 (funext fun a => ?_)
  have h0 : (i 0).val < 8388608 := (i 0).isLt
  have h1 : ch.val < 3 := ch.isLt
  match a with
  | ⟨0, _⟩ => exact Fin.ext (by show ((i 0).val * 3 + ch.val) / 3145728 = (i 0).val / 1048576; omega)
  | ⟨1, _⟩ => exact Fin.ext (by show ((i 0).val * 3 + ch.val) % 3 = ch.val; omega)
  | ⟨2, _⟩ => exact Fin.ext (by show ((i 0).val * 3 + ch.val) / 3072 % 1024 = (i 0).val / 1024 % 1024; omega)
  | ⟨3, _⟩ => exact Fin.ext (by show ((i 0).val * 3 + ch.val) / 3 % 1024 = (i 0).val % 1024; omega)

/-! ## The maximum over the three classes -/

/-- A fold of a commutative, associative operation over three values, from b. -/
theorem fold_univ_fin3 {α : Type} (f : α → α → α) [Std.Commutative f] [Std.Associative f] (b : α) (g : Fin 3 → α) :
    (Finset.univ : Finset (Fin 3)).fold f b g = f b (f (f (g 0) (g 1)) (g 2)) := by
  simp only [Fin.univ_succ, Finset.fold_cons, Finset.fold_map, Finset.univ_unique, Finset.fold_singleton]
  show f (g 0) (f (g 1) (f (g 2) b)) = _
  ac_rfl

/-- The word of minus infinity is the bottom of the extended reals. -/
theorem ofBits_neg_inf : Ideal.ofBits .f32 0xFF800000#32 = (⊥ : EReal) := by simp [Ideal.ofBits, Ideal.ieee]

/-- Pixel i with class k put back on the reduced axis is entry (i, k). -/
theorem lift_rc (h : S8388608x3.Reduces [1] S8388608) (i : S8388608.Idx) (k : Fin (S8388608x3.size 1)) :
    h.lift i k = rc i (⟨k.val, k.isLt⟩ : Fin 3) := by
  funext c; apply Fin.ext
  fin_cases c <;> rfl

/-- From any initial value, the reduction by maximum over the class axis is, at pixel i, the initial value joined to
    the three entries of row i. -/
theorem hostMax3 (y : S8388608x3.Idx → EReal) (init : S_.Idx → EReal) (h' : S8388608x3.ReducesTo [1] S8388608)
    (hu : 0 < S_.numel) (i : S8388608.Idx) :
    Host.reduce (FloatOps.maximumf (F := Ideal) (φ := .f32)) y init h' hu i
      = max (init (Shape.Idx.first hu)) (max (max (y (rc i 0)) (y (rc i 1))) (y (rc i 2))) := by
  have h : S8388608x3.Reduces [1] S8388608 := by decide
  rw [Host.reduce_eq_fold_single (FloatOps.maximumf (F := Ideal) (φ := .f32)) y init h' h hu i]
  have hf : (y ∘ h.lift i) = fun k : Fin 3 => y (rc i k) := funext fun k => congrArg y (lift_rc h i k)
  refine (congrArg (fun f => Finset.fold (FloatOps.maximumf (F := Ideal) (φ := .f32)) _ f (Finset.univ : Finset (Fin 3))) hf).trans ?_
  rw [fold_univ_fin3]
  rfl

/-- From minus infinity, the maximum over the class axis is the largest of pixel i's three logits. -/
theorem top_apply (x0 : (⟨S8x3x1024x1024, .f32⟩ : BufTy).Contents (Elt Ideal)) (i : S8388608.Idx) :
    val_main_v3 (F := Ideal) x0 i = tp x0 i := by
  unfold val_main_v3
  rw [hostMax3]
  simp only [logit_apply, val_main_cst_apply, Ideal.ofBits_def, ofBits_neg_inf, bot_le, max_eq_right]
  rfl

/-! ## Softmax at a pixel -/

/-- Joined with the broadcast minus infinity, the maximum is unchanged. -/
theorem top5_apply (x0 : (⟨S8x3x1024x1024, .f32⟩ : BufTy).Contents (Elt Ideal)) (i : S8388608.Idx) :
    val_main_v5 (F := Ideal) x0 i = tp x0 i := by
  rw [val_main_v5_apply, val_main_v4_apply, val_main_cst_0_apply, top_apply]
  simp only [Ideal.ofBits_def, Ideal.maximumf_def, ofBits_neg_inf, bot_le, max_eq_right]

/-- A per-pixel value broadcast along the class axis is read back at its pixel. -/
theorem idx_v6_v7 (i : S8388608.Idx) (ch : Fin 3) : idx_main_v6 (idx_main_v7 (rc i ch)) = i := by
  funext a; match a with | ⟨0, _⟩ => rfl
theorem idx_v11_v12 (i : S8388608.Idx) (ch : Fin 3) : idx_main_v11 (idx_main_v12 (rc i ch)) = i := by
  funext a; match a with | ⟨0, _⟩ => rfl
theorem idx_v10 (i : S8388608.Idx) (k : Fin 3) : idx_main_v10 i k = rc i k := by
  funext a; match a with | ⟨0, _⟩ => rfl | ⟨1, _⟩ => rfl

/-- The shifted exponential of class ch at pixel i. -/
theorem ex_apply (x0 : (⟨S8x3x1024x1024, .f32⟩ : BufTy).Contents (Elt Ideal)) (i : S8388608.Idx) (ch : Fin 3) :
    val_main_v9 (F := Ideal) x0 (rc i ch) = Cert.GHM.ex (lg x0 i ch) (tp x0 i) := by
  rw [val_main_v9_apply, val_main_v8_apply, val_main_v7_apply, val_main_v6_apply, idx_v6_v7, top5_apply, logit_apply]
  rfl

/-- The sum over the class axis, from zero, is the three shifted exponentials added left to right. -/
theorem den_apply (x0 : (⟨S8x3x1024x1024, .f32⟩ : BufTy).Contents (Elt Ideal)) (i : S8388608.Idx) :
    val_main_v10 (F := Ideal) x0 i = dn x0 i := by
  rw [val_main_v10_apply, Fin.sum_univ_three, idx_v10, idx_v10, idx_v10, ex_apply, ex_apply, ex_apply, val_main_cst_1_apply]
  simp only [Ideal.ofBits_def, Ideal.ofBits_zero_f32, zero_add]
  rfl

/-- The softmax table: entry (i, ch) is the shifted exponential over the denominator. -/
theorem sm_apply (x0 : (⟨S8x3x1024x1024, .f32⟩ : BufTy).Contents (Elt Ideal)) (i : S8388608.Idx) (ch : Fin 3) :
    val_main_v13 (F := Ideal) x0 (rc i ch) = Ideal.div (Cert.GHM.ex (lg x0 i ch) (tp x0 i)) (dn x0 i) := by
  rw [val_main_v13_apply, val_main_v12_apply, val_main_v11_apply, idx_v11_v12, den_apply, ex_apply]
  rfl

/-! ## Log-softmax at a pixel: the same maximum, exponentials and sum, then the logarithm -/

/-- The log-softmax's own maximum over the class axis, from minus infinity. -/
theorem ltop_apply (x0 : (⟨S8x3x1024x1024, .f32⟩ : BufTy).Contents (Elt Ideal)) (i : S8388608.Idx) :
    val_main_call6_v0 (F := Ideal) x0 i = tp x0 i := by
  unfold val_main_call6_v0
  rw [hostMax3]
  simp only [logit_apply, val_main_call6_cst_apply, Ideal.ofBits_def, ofBits_neg_inf, bot_le, max_eq_right]
  rfl

/-- Joined with the broadcast minus infinity it is unchanged. -/
theorem ltop2_apply (x0 : (⟨S8x3x1024x1024, .f32⟩ : BufTy).Contents (Elt Ideal)) (i : S8388608.Idx) :
    val_main_call6_v2 (F := Ideal) x0 i = tp x0 i := by
  rw [val_main_call6_v2_apply, val_main_call6_v1_apply, val_main_call6_cst_0_apply, ltop_apply]
  simp only [Ideal.ofBits_def, Ideal.maximumf_def, ofBits_neg_inf, bot_le, max_eq_right]

theorem idx_c6v3_v4 (i : S8388608.Idx) (ch : Fin 3) : idx_main_call6_v3 (idx_main_call6_v4 (rc i ch)) = i := by
  funext a; match a with | ⟨0, _⟩ => rfl
theorem idx_c6v8_v10 (i : S8388608.Idx) (ch : Fin 3) : idx_main_call6_v8 (idx_main_call6_v10 (rc i ch)) = i := by
  funext a; match a with | ⟨0, _⟩ => rfl
theorem idx_c6v7 (i : S8388608.Idx) (k : Fin 3) : idx_main_call6_v7 i k = rc i k := by
  funext a; match a with | ⟨0, _⟩ => rfl | ⟨1, _⟩ => rfl

/-- The shifted logit of class ch at pixel i. -/
theorem lsh_apply (x0 : (⟨S8x3x1024x1024, .f32⟩ : BufTy).Contents (Elt Ideal)) (i : S8388608.Idx) (ch : Fin 3) :
    val_main_call6_v5 (F := Ideal) x0 (rc i ch) = lg x0 i ch - tp x0 i := by
  rw [val_main_call6_v5_apply, val_main_call6_v4_apply, val_main_call6_v3_apply, idx_c6v3_v4, ltop2_apply, logit_apply]
  rfl

/-- Its shifted exponential is the softmax's. -/
theorem lex_apply (x0 : (⟨S8x3x1024x1024, .f32⟩ : BufTy).Contents (Elt Ideal)) (i : S8388608.Idx) (ch : Fin 3) :
    val_main_call6_v6 (F := Ideal) x0 (rc i ch) = Cert.GHM.ex (lg x0 i ch) (tp x0 i) := by
  rw [val_main_call6_v6_apply, lsh_apply]
  rfl

/-- So is the sum of the three. -/
theorem lden_apply (x0 : (⟨S8x3x1024x1024, .f32⟩ : BufTy).Contents (Elt Ideal)) (i : S8388608.Idx) :
    val_main_call6_v7 (F := Ideal) x0 i = dn x0 i := by
  rw [val_main_call6_v7_apply, Fin.sum_univ_three, idx_c6v7, idx_c6v7, idx_c6v7, lex_apply, lex_apply, lex_apply,
    val_main_call6_cst_1_apply]
  simp only [Ideal.ofBits_def, Ideal.ofBits_zero_f32, zero_add]
  rfl

/-- The log-softmax table: entry (i, ch) is the shifted logit minus the logarithm of the denominator. -/
theorem lsm_apply (x0 : (⟨S8x3x1024x1024, .f32⟩ : BufTy).Contents (Elt Ideal)) (i : S8388608.Idx) (ch : Fin 3) :
    val_main_v59 (F := Ideal) x0 (rc i ch) = (lg x0 i ch - tp x0 i) - Ideal.log (dn x0 i) := by
  rw [val_main_v59_apply, val_main_call6_v10_apply, val_main_call6_v9_apply, val_main_call6_v8_apply, idx_c6v8_v10,
    lden_apply, lsh_apply]
  rfl

/-! ## Labels -/

/-- Entry (pixel i, 0, 0) of the start-index table. -/
abbrev c3 (i : S8388608.Idx) : S8388608x1x1.Idx := ix3 (⟨(i 0).val, (i 0).isLt⟩ : Fin 8388608) (0 : Fin 1) (0 : Fin 1)

/-- Pixel i's label. -/
def lb (x1 : (⟨S8x1024x1024, .i32⟩ : BufTy).Contents (Elt Ideal)) (i : S8388608.Idx) : BitVec 32 :=
  x1 (ix3 (fb i) (fr i) (fc i))

/-- A label among 0, 1, 2 is not negative, so the index normalisation (add 3 to a negative index) keeps it. -/
theorem norm_label {t : BitVec 32} (ht : t = 0#32 ∨ t = 1#32 ∨ t = 2#32) :
    Scalar.select (IntOp.cmpi .slt t 0#32) (IntOp.addi t 3#32) t = t := by
  rcases ht with rfl | rfl | rfl <;> decide

/-- A label among 0, 1, 2 passes the range test 0 ≤ t ≤ 2, and the test's conjunction from "true" stays "true". -/
theorem mask_label {t : BitVec 32} (ht : t = 0#32 ∨ t = 1#32 ∨ t = 2#32) :
    IntOp.andi (IntOp.andi (IntOp.cmpi .sge t 0#32) (IntOp.cmpi .sle t 2#32)) 1#1 = 1#1 := by
  rcases ht with rfl | rfl | rfl <;> decide

/-- The entry the label names commutes with any function of the entry. -/
theorem pick_map {α β : Type} (f : α → β) (t : BitVec 32) (a0 a1 a2 : α) :
    f (Cert.GHM.pick t a0 a1 a2) = Cert.GHM.pick t (f a0) (f a1) (f a2) := by
  unfold Cert.GHM.pick; split_ifs <;> rfl

/-- A label among 0, 1, 2, read signed and clamped into the three columns, is the column it names. -/
theorem clamp_pick {α : Type} (f : Fin 3 → α) {t : BitVec 32} (ht : t = 0#32 ∨ t = 1#32 ∨ t = 2#32)
    (h : min t.toInt.toNat 2 < 3) : f ⟨min t.toInt.toNat 2, h⟩ = Cert.GHM.pick t (f 0) (f 1) (f 2) := by
  rcases ht with rfl | rfl | rfl
  · exact congrArg f (Fin.ext (show min (0#32 : BitVec 32).toInt.toNat 2 = 0 by decide))
  · exact congrArg f (Fin.ext (show min (1#32 : BitVec 32).toInt.toNat 2 = 1 by decide))
  · exact congrArg f (Fin.ext (show min (2#32 : BitVec 32).toInt.toNat 2 = 2 by decide))

/-- The flattened labels: entry i is the label of pixel (i / 1024², i / 1024 mod 1024, i mod 1024). -/
theorem label_apply (x1 : (⟨S8x1024x1024, .i32⟩ : BufTy).Contents (Elt Ideal)) (i : S8388608.Idx) :
    val_main_v14 (F := Ideal) x1 (cl i) = lb x1 i := by
  rw [val_main_v14_apply, val_main_v2_apply]
  unfold lb
  refine congrArg x1 (funext fun a => ?_)
  match a with | ⟨0, _⟩ => rfl | ⟨1, _⟩ => rfl | ⟨2, _⟩ => rfl

theorem idx_c0v5 (i : S8388608.Idx) : idx_main_call0_v5 (c3 i) = cl i := by
  funext a
  match a with
  | ⟨0, _⟩ => exact Fin.ext (by show (((i 0).val * 1 + 0) * 1 + 0) / 1 = (i 0).val; omega)
  | ⟨1, _⟩ => rfl

/-- The start index of pixel i's gather is its label. -/
theorem start_apply (x1 : (⟨S8x1024x1024, .i32⟩ : BufTy).Contents (Elt Ideal))
    (ht : ∀ j, x1 j = 0#32 ∨ x1 j = 1#32 ∨ x1 j = 2#32) (i : S8388608.Idx) :
    val_main_call0_v5 (F := Ideal) x1 (c3 i) = lb x1 i := by
  rw [val_main_call0_v5_apply, idx_c0v5, val_main_call0_v4_apply, val_main_call0_v1_apply, val_main_call0_v3_apply,
    val_main_call0_v0_apply, val_main_call0_v2_apply, val_main_call0_c_apply, val_main_call0_c_0_apply, label_apply]
  exact norm_label (ht _)

/-! ## The range mask: a conjunction over an axis of one element -/

/-- Entry (i, 0) with the one coordinate of the reduced axis put back is entry (i, 0, 0). -/
theorem lift_c3 (h : S8388608x1x1.Reduces [2] S8388608x1) (i : S8388608.Idx) (k : Fin (S8388608x1x1.size 2)) :
    h.lift (cl i) k = c3 i := by
  funext c; apply Fin.ext
  have hk : k.val < 1 := k.isLt
  fin_cases c
  · rfl
  · rfl
  · show k.val = 0; omega

/-- The reduction by "and" over the last axis, of one element, is that element joined to the initial value. -/
theorem hostAnd1 (y : S8388608x1x1.Idx → BitVec 1) (init : S_.Idx → BitVec 1) (h' : S8388608x1x1.ReducesTo [2] S8388608x1)
    (hu : 0 < S_.numel) (i : S8388608.Idx) :
    Host.reduce IntOp.andi y init h' hu (cl i) = IntOp.andi (y (c3 i)) (init (Shape.Idx.first hu)) := by
  have h : S8388608x1x1.Reduces [2] S8388608x1 := by decide
  rw [Host.reduce_eq_fold_single IntOp.andi y init h' h hu (cl i)]
  have hf : (y ∘ h.lift (cl i)) = fun _ : Fin 1 => y (c3 i) := funext fun k => congrArg y (lift_c3 h i k)
  refine (congrArg (fun f => Finset.fold IntOp.andi _ f (Finset.univ : Finset (Fin 1))) hf).trans ?_
  simp only [Finset.univ_unique, Finset.fold_singleton]

/-- Under the hypothesis on the labels the range mask is "true" at every pixel. -/
theorem mask_apply (x1 : (⟨S8x1024x1024, .i32⟩ : BufTy).Contents (Elt Ideal))
    (ht : ∀ j, x1 j = 0#32 ∨ x1 j = 1#32 ∨ x1 j = 2#32) (i : S8388608.Idx) :
    val_main_call0_v12 (F := Ideal) x1 (cl i) = 1#1 := by
  unfold val_main_call0_v12
  rw [hostAnd1, val_main_call0_v11_apply, val_main_call0_v7_apply, val_main_call0_v10_apply, val_main_call0_v6_apply,
    val_main_call0_v9_apply, val_main_call0_v8_apply, val_main_call0_c_2_apply, val_main_call0_c_1_apply,
    val_main_call0_c_3_apply, start_apply x1 ht]
  exact mask_label (ht _)

/-! ## The batched gather: row i of the table at the column the start index names -/

/-- The gather at (pixel i, 0) reads row i of the table at the start index of (i, 0, 0), read signed and clamped into the
    three columns: the pixel axis is a batching axis, the class axis is collapsed and start-indexed. -/
theorem gather_row {α : Type} (x : S8388608x3.Idx → α) (idx : IVec S8388608x1x1 32) (i : S8388608.Idx) :
    Host.gather gather_S8388608x3_S8388608x1x1_S8388608x1_n_1_0_0_1_2_11 x idx (cl i)
      = x (rc i ⟨min (idx (c3 i)).toInt.toNat 2, by omega⟩) := by
  unfold Host.gather
  refine congrArg x (funext fun a => Fin.ext ?_)
  match a with
  | ⟨0, _⟩ =>
    -- the pixel axis is the batching axis: no start, no offset, the result's own pixel coordinate
    have hb : (0 : Fin 2) ∈ gather_S8388608x3_S8388608x1x1_S8388608x1_n_1_0_0_1_2_11.operandBatchingDims :=
      List.mem_singleton.mpr rfl
    show GatherDims.start _ (cl i) idx 0 + GatherDims.batchCoord _ (cl i) 0 + GatherDims.offCoord _ (cl i) 0 = (i 0).val
    rw [GatherDims.start_batching _ _ _ _ hb,
      GatherDims.offCoord_eq_zero _ _ _ (fun h => ((GatherDims.mem_sKept _ _).1 h).2 hb), Nat.zero_add, Nat.add_zero]
    unfold GatherDims.batchCoord
    rw [dif_pos hb]
    rfl
  | ⟨1, _⟩ =>
    -- the class axis is collapsed and start-indexed: the clamped start, nothing else
    have hm : (1 : Fin 2) ∈ gather_S8388608x3_S8388608x1x1_S8388608x1_n_1_0_0_1_2_11.startIndexMap :=
      List.mem_singleton.mpr rfl
    have hnb : (1 : Fin 2) ∉ gather_S8388608x3_S8388608x1x1_S8388608x1_n_1_0_0_1_2_11.operandBatchingDims := by decide
    have hc : (1 : Fin 2) ∈ gather_S8388608x3_S8388608x1x1_S8388608x1_n_1_0_0_1_2_11.collapsedSliceDims :=
      List.mem_singleton.mpr rfl
    show GatherDims.start _ (cl i) idx 1 + GatherDims.batchCoord _ (cl i) 1 + GatherDims.offCoord _ (cl i) 1
      = min (idx (c3 i)).toInt.toNat 2
    rw [GatherDims.batchCoord_eq_zero _ _ _ hnb,
      GatherDims.offCoord_eq_zero _ _ _ (fun h => ((GatherDims.mem_sKept _ _).1 h).1 hc)]
    simp only [Nat.add_zero]
    unfold GatherDims.start
    rw [dif_pos hm]
    have hsi : GatherDims.siIdx gather_S8388608x3_S8388608x1x1_S8388608x1_n_1_0_0_1_2_11 (cl i)
        ⟨List.idxOf (1 : Fin 2) gather_S8388608x3_S8388608x1x1_S8388608x1_n_1_0_0_1_2_11.startIndexMap,
          List.idxOf_lt_length_iff.2 hm⟩ = c3 i := by
      funext b; refine Fin.ext ?_
      match b with
      | ⟨0, _⟩ => rfl
      | ⟨1, _⟩ => rfl
      | ⟨2, _⟩ => rfl
    rw [hsi]
    rfl

/-- The same read, the start index given by its value. -/
theorem gather_row_of {α : Type} (x : S8388608x3.Idx → α) (idx : IVec S8388608x1x1 32) (i : S8388608.Idx) (t : BitVec 32)
    (hidx : idx (c3 i) = t) :
    Host.gather gather_S8388608x3_S8388608x1x1_S8388608x1_n_1_0_0_1_2_11 x idx (cl i)
      = x (rc i ⟨min t.toInt.toNat 2, by omega⟩) := by
  subst hidx
  exact gather_row x idx i

/-! ## The bin word -/

/-- A one-column table flattened: entry i is entry (i, 0). -/
theorem idx_v16 (i : S8388608.Idx) : idx_main_v16 i = cl i := by
  funext a
  match a with
  | ⟨0, _⟩ => exact Fin.ext (Nat.div_one _)
  | ⟨1, _⟩ => rfl

/-- The gathered softmax entry, under a mask that is "true": the probability of the labelled class. -/
theorem prob_apply (x0 : (⟨S8x3x1024x1024, .f32⟩ : BufTy).Contents (Elt Ideal)) (x1 : (⟨S8x1024x1024, .i32⟩ : BufTy).Contents (Elt Ideal))
    (ht : ∀ j, x1 j = 0#32 ∨ x1 j = 1#32 ∨ x1 j = 2#32) (i : S8388608.Idx) :
    val_main_v15 (F := Ideal) x0 x1 (cl i) = Cert.GHM.prob (lg x0 i 0) (lg x0 i 1) (lg x0 i 2) (lb x1 i) := by
  rw [val_main_v15_apply, mask_apply x1 ht]
  unfold val_main_call0_v13
  rw [gather_row_of _ _ i _ (start_apply x1 ht i)]
  refine (clamp_pick (fun ch => val_main_v13 (F := Ideal) x0 (rc i ch)) (ht _) _).trans ?_
  simp only [sm_apply]
  exact (pick_map (fun e => Ideal.div e (dn x0 i)) _ _ _ _).symm

/-! ## The log-probability: the second gather, of the log-softmax table -/

theorem label7_apply (x1 : (⟨S8x1024x1024, .i32⟩ : BufTy).Contents (Elt Ideal)) (i : S8388608.Idx) :
    val_main_v60 (F := Ideal) x1 (cl i) = lb x1 i := by
  rw [val_main_v60_apply, val_main_v2_apply]
  unfold lb
  refine congrArg x1 (funext fun a => ?_)
  match a with | ⟨0, _⟩ => rfl | ⟨1, _⟩ => rfl | ⟨2, _⟩ => rfl

theorem idx_c7v5 (i : S8388608.Idx) : idx_main_call7_v5 (c3 i) = cl i := by
  funext a
  match a with
  | ⟨0, _⟩ => exact Fin.ext (by show (((i 0).val * 1 + 0) * 1 + 0) / 1 = (i 0).val; omega)
  | ⟨1, _⟩ => rfl

theorem start7_apply (x1 : (⟨S8x1024x1024, .i32⟩ : BufTy).Contents (Elt Ideal))
    (ht : ∀ j, x1 j = 0#32 ∨ x1 j = 1#32 ∨ x1 j = 2#32) (i : S8388608.Idx) :
    val_main_call7_v5 (F := Ideal) x1 (c3 i) = lb x1 i := by
  rw [val_main_call7_v5_apply, idx_c7v5, val_main_call7_v4_apply, val_main_call7_v1_apply, val_main_call7_v3_apply,
    val_main_call7_v0_apply, val_main_call7_v2_apply, val_main_call7_c_apply, val_main_call7_c_0_apply, label7_apply]
  exact norm_label (ht _)

theorem mask7_apply (x1 : (⟨S8x1024x1024, .i32⟩ : BufTy).Contents (Elt Ideal))
    (ht : ∀ j, x1 j = 0#32 ∨ x1 j = 1#32 ∨ x1 j = 2#32) (i : S8388608.Idx) :
    val_main_call7_v12 (F := Ideal) x1 (cl i) = 1#1 := by
  unfold val_main_call7_v12
  rw [hostAnd1, val_main_call7_v11_apply, val_main_call7_v7_apply, val_main_call7_v10_apply, val_main_call7_v6_apply,
    val_main_call7_v9_apply, val_main_call7_v8_apply, val_main_call7_c_2_apply, val_main_call7_c_1_apply,
    val_main_call7_c_3_apply, start7_apply x1 ht]
  exact mask_label (ht _)

theorem idx_v62 (i : S8388608.Idx) : idx_main_v62 i = cl i := by
  funext a
  match a with
  | ⟨0, _⟩ => exact Fin.ext (Nat.div_one _)
  | ⟨1, _⟩ => rfl

end Pixel

open Pixel

/-- The bin word at flat pixel number i: floor ((1 − probability of the labelled class) · 10) as a signed word, clamped to
    0..9, is the specification's bin of the pixel that i names. -/
theorem bin_apply (x0 : (⟨S8x3x1024x1024, .f32⟩ : BufTy).Contents (Elt Ideal)) (x1 : (⟨S8x1024x1024, .i32⟩ : BufTy).Contents (Elt Ideal))
    (hfin : ∀ j, ∃ r : ℝ, x0 j = (r : EReal)) (ht : ∀ j, x1 j = 0#32 ∨ x1 j = 1#32 ∨ x1 j = 2#32) (i : S8388608.Idx) :
    val_main_v23 (F := Ideal) x0 x1 i = Cert.GHM.pBin x0 x1 (fb i) (fr i) (fc i) := by
  rw [val_main_v23_apply, val_main_call1_v4_apply, val_main_call1_v3_apply, val_main_c_4_apply, val_main_call1_v2_apply,
    val_main_call1_v1_apply, val_main_call1_v0_apply, val_main_c_apply, val_main_v22_apply, val_main_v21_apply,
    val_main_v20_apply, val_main_v19_apply, val_main_cst_3_apply, val_main_v18_apply, val_main_v17_apply,
    val_main_cst_2_apply, val_main_v16_apply, idx_v16, prob_apply x0 x1 ht]
  rfl

/-- The log-probability at flat pixel number i: the log-softmax entry of the labelled class is the specification's
    log-probability of the pixel that i names. -/
theorem lp_apply (x0 : (⟨S8x3x1024x1024, .f32⟩ : BufTy).Contents (Elt Ideal)) (x1 : (⟨S8x1024x1024, .i32⟩ : BufTy).Contents (Elt Ideal))
    (hfin : ∀ j, ∃ r : ℝ, x0 j = (r : EReal)) (ht : ∀ j, x1 j = 0#32 ∨ x1 j = 1#32 ∨ x1 j = 2#32) (i : S8388608.Idx) :
    val_main_v62 (F := Ideal) x0 x1 i = Cert.GHM.pLp x0 x1 (fb i) (fr i) (fc i) := by
  rw [val_main_v62_apply, idx_v62, val_main_v61_apply, mask7_apply x1 ht]
  unfold val_main_call7_v13
  rw [gather_row_of _ _ i _ (start7_apply x1 ht i)]
  refine (clamp_pick (fun ch => val_main_v59 (F := Ideal) x0 (rc i ch)) (ht _) _).trans ?_
  simp only [lsm_apply]
  exact (pick_map (fun p => (p - tp x0 i) - Ideal.log (dn x0 i)) _ _ _ _).symm

end Cert.ReferenceIdeal.RValue

end
-- ==== Proof.RAgg.lean ====
/-
  The reference from its per-pixel bins and log-probabilities to the loss, at the exact values: the histogram by
  an accumulating scatter, the weights, each pixel's weight gathered by its bin, the weighted sum, the negation.

  Write bin p for pixel p's bin word and lp p for its log-probability. Every bin word is one of 0..9 (it is a
  clamp), so the "negative index wraps around" step in front of the scatter and of the gather changes nothing.
  The scatter adds 1 at position (bin p) for every pixel p into ten zeros: entry k is the number of pixels whose
  bin word is k. From the ten counts and the running table come the ten raw weights and the number of non-empty
  bins, entry by entry. The gather reads the raw weight at position (bin p); dividing by the number of non-empty
  bins where that is positive gives pixel p's weight. The loss is minus the sum over the pixels of weight times
  log-probability.
-/
import proofs.«430611_j67164698575482_3_alg».proof.Proof.RefRead
import proofs.«430611_j67164698575482_3_alg».proof.Proof.Spec
import Idealize.ShloMosaic.Lib.ValueIdx
import Idealize.ShloMosaic.Lib.IdealHost
import Idealize.ShloMosaic.Lib.StableHlo.Predicate
import Idealize.ShloMosaic.PureOps.Ideal.Laws
import Mathlib.Algebra.BigOperators.Group.Finset.Basic

noncomputable section

namespace Cert.ReferenceIdeal.RValue

open Cert.ReferenceIdeal Cert.ReferenceIdeal.Read Idealize.ShloMosaic Idealize.ShloMosaic.ValueIdx

/-! ## Sums over a vector's indices -/

/-- A length-n vector's indices are the numbers below n. -/
def idxEquiv1 (n : Nat) : (⟨1, ![n]⟩ : Shape).Idx ≃ Fin n where
  toFun j := j 0
  invFun := ix1
  left_inv j := (eq_ix1 j).symm
  right_inv _ := rfl

/-- So a sum over them is the sum over those numbers. -/
theorem sum_idx1 {M : Type*} [AddCommMonoid M] {n : Nat} (f : (⟨1, ![n]⟩ : Shape).Idx → M) :
    ∑ j, f j = ∑ p : Fin n, f (ix1 p) := by
  rw [← Equiv.sum_comp (idxEquiv1 n).symm f]; rfl

/-! ## The bin words lie in 0..9 -/

/-- min 9 (max 0 w), both signed, is one of the words 0..9: read unsigned it is at most 9. Three cases: w negative
    gives 0, w above 9 gives 9, otherwise w itself with 0 ≤ w ≤ 9. -/
theorem clip_toNat_le (w : BitVec 32) : (IntOp.minsi 9#32 (IntOp.maxsi 0#32 w)).toNat ≤ 9 := by
  unfold IntOp.minsi IntOp.maxsi
  by_cases h1 : w.slt 0#32
  · rw [if_pos h1]; decide
  · rw [if_neg h1]
    by_cases h2 : (9#32).slt w
    · rw [if_pos h2]; decide
    · rw [if_neg h2]
      rw [BitVec.slt_eq_decide] at h1 h2
      simp only [decide_eq_true_eq] at h1 h2
      have e0 : (0#32).toInt = 0 := by decide
      have e9 : (9#32).toInt = 9 := by decide
      have hw := BitVec.toInt_eq_toNat_cond w
      have hlt := w.isLt
      rw [e0] at h1; rw [e9] at h2
      split at hw <;> omega

/-- Every pixel's bin word is such a clamp. -/
theorem bin_le (x0 : (⟨S8x3x1024x1024, .f32⟩ : BufTy).Contents (Elt Ideal)) (x1 : (⟨S8x1024x1024, .i32⟩ : BufTy).Contents (Elt Ideal))
    (j : S8388608.Idx) : (val_main_v23 (F := Ideal) x0 x1 j).toNat ≤ 9 := by
  rw [val_main_v23_apply, val_main_call1_v4_apply, val_main_call1_v3_apply, val_main_c_4_apply,
    val_main_call1_v2_apply, val_main_call1_v1_apply, val_main_call1_v0_apply, val_main_c_apply]
  exact clip_toNat_le _

/-- "If b < 0 then b + 10 else b" is b for a word in 0..9: it is not negative. -/
theorem wrap_id (b : BitVec 32) (h : b.toNat ≤ 9) :
    Scalar.select (IntOp.cmpi .slt b 0#32) (IntOp.addi b 10#32) b = b := by
  have : IntOp.cmpi .slt b 0#32 = 0#1 := by
    unfold IntOp.cmpi
    show BitVec.ofBool (b.slt 0#32) = 0#1
    rw [BitVec.slt_eq_decide]
    have e0 : (0#32).toInt = 0 := by decide
    have hb := BitVec.toInt_eq_toNat_cond b
    have : ¬ b.toInt < (0#32).toInt := by
      rw [e0]; split at hb <;> omega
    rw [decide_eq_false this]; rfl
  rw [this, select_zero]

/-! ## The histogram: an accumulating scatter of ones -/

/-- The scatter's one start-index component for update p is read at row p, column 0 of the index column. -/
theorem scat_siIdx (p : Fin 8388608) (c : Fin scatter_S10_S8388608x1_S8388608_n_0_0_1.scatterDimsToOperandDims.length) :
    scatter_S10_S8388608x1_S8388608_n_0_0_1.siIdx (ix1 p) c = ix2 p (0 : Fin 1) := by
  funext b
  match b with
  | ⟨0, _⟩ => exact Fin.ext rfl
  | ⟨1, _⟩ =>
    apply Fin.ext
    have hc : c.val < 1 := c.isLt
    show c.val = 0
    omega

/-- The window of update p starts, on the table's one axis, at that word read signed … -/
theorem scat_start (idx : IVec S8388608x1 32) (p : Fin 8388608) (a : Fin 1) :
    scatter_S10_S8388608x1_S8388608_n_0_0_1.start (ix1 p) idx a = (idx (ix2 p (0 : Fin 1))).toInt := by
  obtain rfl : a = 0 := Subsingleton.elim _ _
  unfold ScatterDims.start
  rw [dif_pos (show (0 : Fin 1) ∈ scatter_S10_S8388608x1_S8388608_n_0_0_1.scatterDimsToOperandDims from
    List.mem_singleton.mpr rfl), scat_siIdx]

/-- … and has no extent of its own: the axis is an inserted one. -/
theorem scat_window (p : Fin 8388608) (a : Fin 1) :
    scatter_S10_S8388608x1_S8388608_n_0_0_1.window (ix1 p) a = 0 := by
  obtain rfl : a = 0 := Subsingleton.elim _ _
  unfold ScatterDims.window
  rw [dif_neg (show (0 : Fin 1) ∉ scatter_S10_S8388608x1_S8388608_n_0_0_1.sKept from
    (by decide : (0 : Fin 1) ∉ S10.kept [(0 : Fin 1)]))]

/-- Update p lands on entry k exactly when its index word, read signed, is k (a word outside 0..9 lands nowhere). -/
theorem scat_hit (idx : IVec S8388608x1 32) (p : Fin 8388608) (k : Fin 10) :
    scatter_S10_S8388608x1_S8388608_n_0_0_1.resultIdx? (ix1 p) idx = some (ix1 k)
      ↔ (idx (ix2 p (0 : Fin 1))).toInt = (k.val : Int) := by
  unfold ScatterDims.resultIdx?
  simp only [scat_start, scat_window, Int.add_zero]
  have hk : k.val < 10 := k.isLt
  split
  · next H =>
    rw [Option.some.injEq]
    constructor
    · intro e
      have e0 := congrArg (fun f => (f (0 : Fin 1)).val) e
      simp only at e0
      have H0 : 0 ≤ (idx (ix2 p (0 : Fin 1))).toInt + ((0 : Nat) : Int)
          ∧ (idx (ix2 p (0 : Fin 1))).toInt + ((0 : Nat) : Int) < ((10 : Nat) : Int) := H 0
      change ((idx (ix2 p (0 : Fin 1))).toInt + ((0 : Nat) : Int)).toNat = k.val at e0
      omega
    · intro e
      funext a
      obtain rfl : a = 0 := Subsingleton.elim _ _
      apply Fin.ext
      show ((idx (ix2 p (0 : Fin 1))).toInt + ((0 : Nat) : Int)).toNat = k.val
      omega
  · next H =>
    constructor
    · intro e; cases e
    · intro e
      exfalso; apply H
      intro a
      obtain rfl : a = 0 := Subsingleton.elim _ _
      show 0 ≤ (idx (ix2 p (0 : Fin 1))).toInt + ((0 : Nat) : Int)
        ∧ (idx (ix2 p (0 : Fin 1))).toInt + ((0 : Nat) : Int) < ((10 : Nat) : Int)
      omega

/-- A 32-bit word read signed is k < 10 exactly when it is the word of k. -/
theorem toInt_eq_iff (b : BitVec 32) (k : Fin 10) : b.toInt = (k.val : Int) ↔ b = BitVec.ofNat 32 k.val := by
  have hk := k.isLt
  have hb := BitVec.toInt_eq_toNat_cond b
  have hlt := b.isLt
  constructor
  · intro e
    apply BitVec.eq_of_toNat_eq
    rw [BitVec.toNat_ofNat]
    split at hb <;> omega
  · intro e
    have e' : b.toNat = k.val := by rw [e, BitVec.toNat_ofNat]; omega
    split at hb <;> omega

/-- The accumulating scatter at entry k: the old entry plus the updates whose index word is k. -/
theorem counts_read (x : S10.Idx → EReal) (idx : IVec S8388608x1 32) (upd : S8388608.Idx → EReal) (k : Fin 10) :
    Ideal.hostScatterAdd scatter_S10_S8388608x1_S8388608_n_0_0_1 x idx upd (ix1 k)
      = x (ix1 k) + ∑ p : Fin 8388608, if idx (ix2 p (0 : Fin 1)) = BitVec.ofNat 32 k.val then upd (ix1 p) else 0 := by
  unfold Ideal.hostScatterAdd
  rw [Finset.sum_filter, sum_idx1]
  refine congrArg (x (ix1 k) + ·) ?_
  refine Finset.sum_congr rfl fun p _ => ?_
  exact if_congr ((scat_hit idx p k).trans (toInt_eq_iff _ k)) rfl rfl

/-- The scatter's index column holds the bin words: the wrap-around in front of it is the identity on 0..9. -/
theorem v30_at (x0 : (⟨S8x3x1024x1024, .f32⟩ : BufTy).Contents (Elt Ideal)) (x1 : (⟨S8x1024x1024, .i32⟩ : BufTy).Contents (Elt Ideal))
    (p : Fin 8388608) : val_main_v30 (F := Ideal) x0 x1 (ix2 p (0 : Fin 1)) = val_main_v23 (F := Ideal) x0 x1 (ix1 p) := by
  have hi : idx_main_v30 (ix2 p (0 : Fin 1)) = ix1 p := by
    funext a; match a with | ⟨0, _⟩ => rfl
  rw [val_main_v30_apply, hi, val_main_v29_apply, val_main_v26_apply, val_main_v28_apply, val_main_v25_apply,
    val_main_c_6_apply, val_main_v27_apply, val_main_c_7_apply]
  exact wrap_id _ (bin_le x0 x1 _)

/-- THE COUNTS. Entry k of the histogram is the number of pixels whose bin word is k: zero plus a one for each. -/
theorem counts_apply (x0 : (⟨S8x3x1024x1024, .f32⟩ : BufTy).Contents (Elt Ideal)) (x1 : (⟨S8x1024x1024, .i32⟩ : BufTy).Contents (Elt Ideal))
    (k : Fin 10) :
    val_main_v32 (F := Ideal) x0 x1 (ix1 k)
      = ∑ j : Fin 8388608, Cert.GHM.ind (val_main_v23 (F := Ideal) x0 x1 (ix1 j)) (BitVec.ofNat 32 k.val) := by
  have h : val_main_v32 (F := Ideal) x0 x1 = Ideal.hostScatterAdd scatter_S10_S8388608x1_S8388608_n_0_0_1
      (val_main_v24 (F := Ideal)) (val_main_v30 (F := Ideal) x0 x1) (val_main_v31 (F := Ideal)) := rfl
  have hz : val_main_v24 (F := Ideal) (ix1 k) = 0 := by
    rw [val_main_v24_apply, val_main_cst_5_apply]
    exact Ideal.ofBits_zero_f32
  rw [h, counts_read, hz, zero_add]
  refine Finset.sum_congr rfl fun p _ => ?_
  have ho : val_main_v31 (F := Ideal) (ix1 p) = 1 := by
    rw [val_main_v31_apply, val_main_cst_8_apply]
    exact Ideal.ofBits_one_f32
  rw [v30_at, ho]
  unfold Cert.GHM.ind
  rfl

/-! ## Each pixel's raw weight: a gather by its bin -/

/-- The gather at row p reads the table at the row's index word, read signed and clamped into 0..9; for a word b
    in 0..9 that is position b. -/
theorem gath_read (x : S10.Idx → EReal) (idx : IVec S8388608x1 32) (p : Fin 8388608) (b : BitVec 32)
    (hb : idx (ix2 p (0 : Fin 1)) = b) (hr : b.toNat ≤ 9) :
    Host.gather gather_S10_S8388608x1_S8388608_n_0_n_n_0_1_1 x idx (ix1 p) = x (ix1 (Cert.GHM.binFin b)) := by
  have h := StableHlo.Predicate.gather_take gather_S10_S8388608x1_S8388608_n_0_n_n_0_1_1 rfl rfl rfl rfl x idx p
    (by decide)
  have e1 : (Shape.Idx.ofFin p : S8388608.Idx) = ix1 p := by
    funext a; match a with | ⟨0, _⟩ => rfl
  have e2 : (StableHlo.Predicate.ixP p : S8388608x1.Idx) = ix2 p (0 : Fin 1) := by
    funext a; match a with | ⟨0, _⟩ => rfl | ⟨1, _⟩ => rfl
  rw [e1] at h
  rw [h]
  refine congrArg x ?_
  funext a
  match a with
  | ⟨0, _⟩ =>
    apply Fin.ext
    show min (idx (StableHlo.Predicate.ixP p)).toInt.toNat (10 - 1) = min b.toNat 9
    rw [e2, hb]
    have hc := BitVec.toInt_eq_toNat_cond b
    split at hc <;> omega

/-- The gather's index column holds the bin words too. -/
theorem v52_at (x0 : (⟨S8x3x1024x1024, .f32⟩ : BufTy).Contents (Elt Ideal)) (x1 : (⟨S8x1024x1024, .i32⟩ : BufTy).Contents (Elt Ideal))
    (p : Fin 8388608) : val_main_v52 (F := Ideal) x0 x1 (ix2 p (0 : Fin 1)) = val_main_v23 (F := Ideal) x0 x1 (ix1 p) := by
  have hi : idx_main_v52 (ix2 p (0 : Fin 1)) = ix1 p := by
    funext a; match a with | ⟨0, _⟩ => rfl
  rw [val_main_v52_apply, hi, val_main_v51_apply, val_main_v48_apply, val_main_v50_apply, val_main_v47_apply,
    val_main_c_16_apply, val_main_v49_apply, val_main_c_17_apply]
  exact wrap_id _ (bin_le x0 x1 _)

/-- Pixel p's gathered entry is the per-bin table at the pixel's bin. -/
theorem gath_apply (x0 : (⟨S8x3x1024x1024, .f32⟩ : BufTy).Contents (Elt Ideal)) (x1 : (⟨S8x1024x1024, .i32⟩ : BufTy).Contents (Elt Ideal))
    (x2 : (⟨S10, .f32⟩ : BufTy).Contents (Elt Ideal)) (p : Fin 8388608) :
    val_main_v53 (F := Ideal) x0 x1 x2 (ix1 p)
      = val_main_v44 (F := Ideal) x0 x1 x2 (ix1 (Cert.GHM.binFin (val_main_v23 (F := Ideal) x0 x1 (ix1 p)))) := by
  unfold val_main_v53
  exact gath_read _ _ p _ (v52_at x0 x1 p) (bin_le x0 x1 _)

/-! ## The ten bins: non-empty, raw weight, how many are non-empty -/

/-- "Bin k is not empty": its count is above zero. -/
theorem ne_apply (x0 : (⟨S8x3x1024x1024, .f32⟩ : BufTy).Contents (Elt Ideal)) (x1 : (⟨S8x1024x1024, .i32⟩ : BufTy).Contents (Elt Ideal))
    (k : S10.Idx) :
    val_main_v34 (F := Ideal) x0 x1 k = Cert.GHM.nonempty (val_main_v32 (F := Ideal) x0 x1 k) := by
  rw [val_main_v34_apply, val_main_v33_apply, val_main_cst_9_apply, Ideal.cmpf_def, Ideal.ofBits_def, Ideal.ofBits_zero_f32]
  rfl

/-- Bin k's raw weight from its count n and table entry a: for a non-empty bin 1 / (3/4 · a + 1/4 · n), else 0,
    through the three selects on "non-empty" as the program nests them. -/
theorem raw_apply (x0 : (⟨S8x3x1024x1024, .f32⟩ : BufTy).Contents (Elt Ideal)) (x1 : (⟨S8x1024x1024, .i32⟩ : BufTy).Contents (Elt Ideal))
    (x2 : (⟨S10, .f32⟩ : BufTy).Contents (Elt Ideal)) (k : S10.Idx) :
    val_main_v44 (F := Ideal) x0 x1 x2 k = Cert.GHM.rawW (val_main_v32 (F := Ideal) x0 x1 k) (x2 k) := by
  have h41 : val_main_call3_v1 (F := Ideal) k = Cert.GHM.one := by
    rw [val_main_call3_v1_apply, val_main_call3_v0_apply, val_main_cst_12_apply]; rfl
  have h42 : val_main_v42 (F := Ideal) k = Cert.GHM.one := by
    rw [val_main_v42_apply, val_main_cst_13_apply]; rfl
  have h44 : val_main_call4_v1 (F := Ideal) k = 0 := by
    rw [val_main_call4_v1_apply, val_main_call4_v0_apply, val_main_cst_14_apply]; exact Ideal.ofBits_zero_f32
  have h39 : val_main_v39 (F := Ideal) x0 x1 x2 k = Cert.GHM.newAcc (val_main_v32 (F := Ideal) x0 x1 k) (x2 k) := by
    rw [val_main_v39_apply, val_main_v36_apply, val_main_v35_apply, val_main_cst_10_apply, val_main_v38_apply,
      val_main_v37_apply, val_main_cst_11_apply]
    rfl
  rw [val_main_v44_apply, val_main_v43_apply, val_main_v41_apply, val_main_v40_apply, h41, h42, h44, h39, ne_apply]
  rfl

/-- The number of non-empty bins: zero plus the ten "non-empty" bits as numbers. -/
theorem nb_apply (x0 : (⟨S8x3x1024x1024, .f32⟩ : BufTy).Contents (Elt Ideal)) (x1 : (⟨S8x1024x1024, .i32⟩ : BufTy).Contents (Elt Ideal))
    (i : S_.Idx) :
    val_main_v46 (F := Ideal) x0 x1 i = Cert.GHM.nBins (fun k : Fin 10 => val_main_v32 (F := Ideal) x0 x1 (ix1 k)) := by
  rw [val_main_v46_apply, val_main_cst_15_apply, Ideal.ofBits_def, Ideal.ofBits_zero_f32, zero_add, sum_idx1]
  unfold Cert.GHM.nBins
  refine Finset.sum_congr rfl fun k _ => ?_
  rw [val_main_v45_apply, ne_apply]

/-! ## Each pixel's weight, and the loss -/

/-- Pixel p's weight: its bin's raw weight, divided by max (number of non-empty bins) 1 when that number is above
    zero. The test is one scalar, the same for every pixel. -/
theorem wt_apply (x0 : (⟨S8x3x1024x1024, .f32⟩ : BufTy).Contents (Elt Ideal)) (x1 : (⟨S8x1024x1024, .i32⟩ : BufTy).Contents (Elt Ideal))
    (x2 : (⟨S10, .f32⟩ : BufTy).Contents (Elt Ideal)) (p : Fin 8388608) :
    val_main_v58 (F := Ideal) x0 x1 x2 (ix1 p)
      = Cert.GHM.wt (fun k : Fin 10 => val_main_v32 (F := Ideal) x0 x1 (ix1 k)) (fun k => x2 (ix1 k))
          (Cert.GHM.binFin (val_main_v23 (F := Ideal) x0 x1 (ix1 p))) := by
  have hsel : val_main_v58 (F := Ideal) x0 x1 x2 (ix1 p)
      = Scalar.select (val_main_v54 (F := Ideal) x0 x1 ix0) (val_main_v57 (F := Ideal) x0 x1 x2 (ix1 p))
          (val_main_v53 (F := Ideal) x0 x1 x2 (ix1 p)) := by
    unfold val_main_v58
    rw [select_apply, broadcastInDim_scalar_apply]
  have h54 : val_main_v54 (F := Ideal) x0 x1 ix0
      = Ideal.cmp .ogt (Cert.GHM.nBins (fun k : Fin 10 => val_main_v32 (F := Ideal) x0 x1 (ix1 k))) 0 := by
    rw [val_main_v54_apply, nb_apply, val_main_cst_18_apply, Ideal.cmpf_def, Ideal.ofBits_def, Ideal.ofBits_zero_f32]
  have h56 : val_main_v56 (F := Ideal) x0 x1 (ix1 p)
      = max (Cert.GHM.nBins (fun k : Fin 10 => val_main_v32 (F := Ideal) x0 x1 (ix1 k))) Cert.GHM.one := by
    rw [val_main_v56_apply, val_main_v55_apply, nb_apply, val_main_cst_19_apply]; rfl
  rw [hsel, h54, val_main_v57_apply, h56, gath_apply, raw_apply]
  rfl

/-- THE LOSS. Minus (zero plus the sum over the pixels of weight times log-probability), the counts being the
    histogram of the bin words. -/
theorem agg (x0 : (⟨S8x3x1024x1024, .f32⟩ : BufTy).Contents (Elt Ideal)) (x1 : (⟨S8x1024x1024, .i32⟩ : BufTy).Contents (Elt Ideal))
    (x2 : (⟨S10, .f32⟩ : BufTy).Contents (Elt Ideal)) :
    val_main_v65 (F := Ideal) x0 x1 x2 = fun _ =>
      -(∑ i : Fin 8388608,
          Cert.GHM.wt (fun k : Fin 10 => ∑ j : Fin 8388608, Cert.GHM.ind (val_main_v23 (F := Ideal) x0 x1 (ix1 j)) (BitVec.ofNat 32 k.val))
            (fun j => x2 (ix1 j)) (Cert.GHM.binFin (val_main_v23 (F := Ideal) x0 x1 (ix1 i)))
          * val_main_v62 (F := Ideal) x0 x1 (ix1 i)) := by
  funext i
  have hc : (fun k : Fin 10 => val_main_v32 (F := Ideal) x0 x1 (ix1 k))
      = fun k : Fin 10 => ∑ j : Fin 8388608, Cert.GHM.ind (val_main_v23 (F := Ideal) x0 x1 (ix1 j)) (BitVec.ofNat 32 k.val) :=
    funext fun k => counts_apply x0 x1 k
  rw [val_main_v65_apply, val_main_v64_apply, val_main_cst_20_apply, Ideal.ofBits_def, Ideal.ofBits_zero_f32, zero_add,
    sum_idx1, Ideal.hostNegf_def, Ideal.negf_def]
  refine congrArg Neg.neg (Finset.sum_congr rfl fun p _ => ?_)
  rw [val_main_v63_apply, wt_apply, hc]
  rfl

end Cert.ReferenceIdeal.RValue

end
-- ==== Proof.RValue.lean ====
/-
  The idealized reference's result: the loss added up pixel by pixel.

  Its per-pixel bins and log-probabilities are the specification's at the pixel a flat number names, and the sum over
  the flat numbers is the sum over images, rows and columns.
-/
import proofs.«430611_j67164698575482_3_alg».proof.Proof.RPixel
import proofs.«430611_j67164698575482_3_alg».proof.Proof.RAgg
import proofs.«430611_j67164698575482_3_alg».proof.Proof.Algebra

noncomputable section

namespace Cert.ReferenceIdeal.RValue

open Cert.ReferenceIdeal Cert.ReferenceIdeal.Read Idealize.ShloMosaic Idealize.ShloMosaic.ValueIdx

theorem result_eq (x0 : (⟨S8x3x1024x1024, .f32⟩ : BufTy).Contents (Elt Ideal)) (x1 : (⟨S8x1024x1024, .i32⟩ : BufTy).Contents (Elt Ideal))
    (x2 : (⟨S10, .f32⟩ : BufTy).Contents (Elt Ideal))
    (hfin : ∀ j, ∃ r : ℝ, x0 j = (r : EReal)) (ht : ∀ j, x1 j = 0#32 ∨ x1 j = 1#32 ∨ x1 j = 2#32) :
    val_main_v65 (F := Ideal) x0 x1 x2 = fun _ => Cert.GHM.lossByPixel x0 x1 x2 := by
  rw [agg]
  funext _
  have hb : ∀ j : Fin 8388608, val_main_v23 (F := Ideal) x0 x1 (ix1 j)
      = Cert.GHM.pBin x0 x1 ⟨j.val / 1048576, by omega⟩ ⟨j.val / 1024 % 1024, by omega⟩ ⟨j.val % 1024, by omega⟩ :=
    fun j => bin_apply x0 x1 hfin ht (ix1 j)
  have hl : ∀ j : Fin 8388608, val_main_v62 (F := Ideal) x0 x1 (ix1 j)
      = Cert.GHM.pLp x0 x1 ⟨j.val / 1048576, by omega⟩ ⟨j.val / 1024 % 1024, by omega⟩ ⟨j.val % 1024, by omega⟩ :=
    fun j => lp_apply x0 x1 hfin ht (ix1 j)
  simp only [hb, hl]
  have hcnt : (fun k : Fin 10 => ∑ j : Fin 8388608,
        Cert.GHM.ind (Cert.GHM.pBin x0 x1 ⟨j.val / 1048576, by omega⟩ ⟨j.val / 1024 % 1024, by omega⟩ ⟨j.val % 1024, by omega⟩)
          (BitVec.ofNat 32 k.val)) = Cert.GHM.cnt x0 x1 :=
    funext fun k => Cert.GHM.sum_flat (fun b r c => Cert.GHM.ind (Cert.GHM.pBin x0 x1 b r c) (BitVec.ofNat 32 k.val))
  rw [hcnt]
  unfold Cert.GHM.lossByPixel
  exact congrArg Neg.neg (Cert.GHM.sum_flat
    (fun b r c => Cert.GHM.wt (Cert.GHM.cnt x0 x1) (fun j => x2 (ix1 j)) (Cert.GHM.binFin (Cert.GHM.pBin x0 x1 b r c)) * Cert.GHM.pLp x0 x1 b r c))

end Cert.ReferenceIdeal.RValue

end
-- ==== Proof.lean ====
/-
  The certificate: a gradient-harmonised classification loss over 8 × 1024 × 1024 pixels with three classes
  and ten gradient-norm bins, computed by a fused kernel and by a plain array program, is the same extended real.

  Every pixel has a log-probability of its labelled class and a bin (the tenth its probability deficit falls in).
  The kernel walks the images in blocks of 512 rows, keeps per image two rows of per-bin totals (how many pixels,
  and the sum of their log-probabilities), adds the rows over the images on the host, derives each bin's weight
  from the counts and the running table, and returns minus the sum over the ten bins of weight times log-probability
  sum. The reference builds the histogram by an accumulating scatter, derives the same weights, gathers each pixel's
  weight by its bin, and returns minus the sum over the pixels of weight times log-probability. For finite logits
  every log-probability is a non-positive real, and a factor — even an infinite one, which a bin whose new table entry
  is zero produces — distributes over a sum of non-positive reals; so grouping the pixels by bin turns one sum into
  the other. The labels are taken in their range 0..2: outside it the reference's indexed read wraps or fills while
  the kernel clamps.
-/
import proofs.«430611_j67164698575482_3_alg».proof.Defs
import proofs.«430611_j67164698575482_3_alg».proof.Proof.Gen.Kernel
import proofs.«430611_j67164698575482_3_alg».proof.Proof.Gen.Kernel.Skeleton
import proofs.«430611_j67164698575482_3_alg».proof.Proof.Gen.Kernel.Launch
import proofs.«430611_j67164698575482_3_alg».proof.Proof.Gen.Kernel.Points
import proofs.«430611_j67164698575482_3_alg».proof.Proof.Gen.Kernel.Frame
import proofs.«430611_j67164698575482_3_alg».proof.Proof.Gen.KernelIdeal
import proofs.«430611_j67164698575482_3_alg».proof.Proof.Gen.KernelIdeal.Skeleton
import proofs.«430611_j67164698575482_3_alg».proof.Proof.Gen.KernelIdeal.Launch
import proofs.«430611_j67164698575482_3_alg».proof.Proof.Gen.KernelIdeal.Points
import proofs.«430611_j67164698575482_3_alg».proof.Proof.Gen.KernelIdeal.Frame
import proofs.«430611_j67164698575482_3_alg».proof.Proof.Gen.ReferenceIdeal
import proofs.«430611_j67164698575482_3_alg».proof.Proof.RefRun
import proofs.«430611_j67164698575482_3_alg».proof.Proof.RefRead
import proofs.«430611_j67164698575482_3_alg».proof.Proof.Gen.Pre_finite_inputs
import proofs.«430611_j67164698575482_3_alg».proof.Proof.PreFacts
import proofs.«430611_j67164698575482_3_alg».proof.Proof.Algebra
import proofs.«430611_j67164698575482_3_alg».proof.Proof.KValue
import proofs.«430611_j67164698575482_3_alg».proof.Proof.RValue
import Idealize.ShloMosaic.Adequacy
import Idealize.ShloMosaic.Init

noncomputable section

namespace Cert.Proof

open Idealize.ShloMosaic Idealize.ShloMosaic.TcCoe Idealize.SL.Sem

/-- The word-level kernel and the idealized kernel run, fault nothing and leave their arguments alone. -/
theorem frame_k : Cert.frame_Kernel := fun m ρ _ => Cert.Kernel.Gen.frame m ρ

theorem frame_ki : Cert.frame_KernelIdeal := fun m ρ _ => Cert.KernelIdeal.Gen.frame m ρ

/-- The reference is a straight line of array operations: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same loss: the kernel's bin-by-bin sum is the reference's pixel-by-pixel
    sum, the logits being real and the labels in range by the precondition. -/
theorem algebraic : Cert.algebraic_KernelIdeal_ReferenceIdeal := by
  intro m ρ m' ρ' hpre hagree
  have hf := fun c => Cert.Pre_finite_inputs.PreFacts.of_pre _ _ _ (hpre c)
  refine ⟨fun c => fun _ => Cert.GHM.lossByBin
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run_value m ρ (fun c => (hf c).2.1), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v65_eq, (hagree c).1, (hagree c).2.1, (hagree c).2.2,
    Cert.ReferenceIdeal.RValue.result_eq _ _ _ (hf c).1 (hf c).2.1]
  funext _
  exact (Cert.GHM.lossByBin_eq_lossByPixel _ _ _ (hf c).1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
